-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S16x128 : Shape := ⟨2, ![16, 128]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg2 : IVec S100000 32) (main_arg9 : FVec F S16x128 .f32) (main_arg10 : FVec F S16 .f32) (main_v33 : IVec S_ 1) : IVec S_ 1 :=
  let main_v34 : FVec F S16x128 .f32 := Host.absf main_arg9
  let main_cst_12 : FVec F S_ .f32 := constant S_ .f32 0x7F800000#32
  let main_v35 : FVec F S16x128 .f32 := broadcastInDim S16x128 ![] bcast_S_S16x128 main_cst_12
  let main_v36 : IVec S16x128 1 := cmpf .olt main_v34 main_v35
  let main_c_13 : IVec S_ 1 := constantI S_ 1 1#1
  let main_v37 : IVec S_ 1 := (fun x v => Host.reduce IntOp.andi x v reducesTo_S16x128_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_c_16 : IVec S_ 32 := constantI S_ 32 0#32
  let main_v44 : IVec S100000 32 := broadcastInDim S100000 ![] bcast_S_S100000 main_c_16
  let main_v45 : IVec S100000 1 := cmpi .sge main_arg2 main_v44
  let main_c_17 : IVec S_ 1 := constantI S_ 1 1#1
  let main_v46 : IVec S_ 1 := (fun x v => Host.reduce IntOp.andi x v reducesTo_S100000_S_d0 h_S_) main_v45 main_c_17
  let main_v47 : IVec S_ 1 := andi main_v43 main_v46
  main_v47

def fn_part1 {F : FTy → Type} [FloatOps F] (main_arg2 : IVec S100000 32) (main_arg6 : FVec F S128x128 .f32) (main_arg7 : FVec F S128x128 .f32) (main_arg8 : FVec F S128 .f32) (main_arg9 : FVec F S16x128 .f32) (main_arg10 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S16x128 .f32) (main_arg10 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S16x128 : Shape := ⟨2, ![16, 128]⟩
abbrev S16 : Shape := ⟨1, ![16]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S5000x128 : Shape := ⟨2, ![5000, 128]⟩
abbrev S64 : Shape := ⟨1, ![64]⟩
abbrev S100000x1 : Shape := ⟨2, ![100000, 1]⟩
abbrev S1x64 : Shape := ⟨2, ![1, 64]⟩
abbrev S100000x64 : Shape := ⟨2, ![100000, 64]⟩
abbrev S64x1 : Shape := ⟨2, ![64, 1]⟩
abbrev S128x16 : Shape := ⟨2, ![128, 16]⟩
abbrev S1x16 : Shape := ⟨2, ![1, 16]⟩
abbrev S64x16 : Shape := ⟨2, ![64, 16]⟩
abbrev S5000x64 : Shape := ⟨2, ![5000, 64]⟩
abbrev S64x128 : Shape := ⟨2, ![64, 128]⟩

abbrev nBuf : Space → Nat
  | .hbm => 78
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S16x128, .f32⟩
  | .hbm, ⟨10, _⟩ => ⟨S16, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S1x128, .f32⟩
  | .hbm, ⟨20, _⟩ => ⟨S1x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x128, .f32⟩
  | .hbm, ⟨49, _⟩ => ⟨S64, .i32⟩
  | .hbm, ⟨50, _⟩ => ⟨S100000x1, .i32⟩
  | .hbm, ⟨51, _⟩ => ⟨S1x64, .i32⟩
  | .hbm, ⟨52, _⟩ => ⟨S100000x64, .i32⟩
  | .hbm, ⟨53, _⟩ => ⟨S100000x64, .i32⟩
  | .hbm, ⟨54, _⟩ => ⟨S100000x64, .i1⟩
  | .hbm, ⟨55, _⟩ => ⟨S100000x64, .bf16⟩
  | .hbm, ⟨56, _⟩ => ⟨S_, .i32⟩
  | .hbm, ⟨57, _⟩ => ⟨S64, .i32⟩
  | .hbm, ⟨58, _⟩ => ⟨S_, .i32⟩
  | .hbm, ⟨59, _⟩ => ⟨S_, .i32⟩
  | .hbm, ⟨60, _⟩ => ⟨S100000, .i32⟩
  | .hbm, ⟨61, _⟩ => ⟨S100000, .i32⟩
  | .hbm, ⟨62, _⟩ => ⟨S_, .i32⟩
  | .hbm, ⟨63, _⟩ => ⟨S100000, .i32⟩
  | .hbm, ⟨64, _⟩ => ⟨S100000, .i1⟩
  | .hbm, ⟨65, _⟩ => ⟨S_, .i32⟩
  | .hbm, ⟨66, _⟩ => ⟨S100000, .i32⟩
  | .hbm, ⟨67, _⟩ => ⟨S100000, .i32⟩
  | .hbm, ⟨68, _⟩ => ⟨S100000, .i32⟩
  | .hbm, ⟨69, _⟩ => ⟨S100000x1, .i32⟩
  | .hbm, ⟨70, _⟩ => ⟨S_, .i32⟩
  | .hbm, ⟨71, _⟩ => ⟨S100000, .i32⟩
  | .hbm, ⟨72, _⟩ => ⟨S64, .i32⟩
  | .hbm, ⟨73, _⟩ => ⟨S64, .f32⟩
  | .hbm, ⟨74, _⟩ => ⟨S64x1, .f32⟩
  | .hbm, ⟨75, _⟩ => ⟨S128x16, .f32⟩
  | .hbm, ⟨76, _⟩ => ⟨S1x16, .f32⟩
  | .hbm, ⟨77, _⟩ => ⟨S64x16, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x64, .bf16⟩
  | .local _ .vmem, ⟨19, _⟩ => ⟨S5000x64, .bf16⟩
  | .local _ .vmem, ⟨20, _⟩ => ⟨S5000x128, .f32⟩
  | .local _ .vmem, ⟨21, _⟩ => ⟨S5000x128, .f32⟩
  | .local _ .vmem, ⟨22, _⟩ => ⟨S64x1, .f32⟩
  | .local _ .vmem, ⟨23, _⟩ => ⟨S128x16, .f32⟩
  | .local _ .vmem, ⟨24, _⟩ => ⟨S1x16, .f32⟩
  | .local _ .vmem, ⟨25, _⟩ => ⟨S64x16, .f32⟩
  | .local _ .vmem, ⟨26, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_1 : Ref sig .tc := ⟨.hbm, 35, rfl⟩
abbrev main_v21 : Ref sig .tc := ⟨.hbm, 36, rfl⟩
abbrev main_v22 : Ref sig .tc := ⟨.hbm, 37, rfl⟩
abbrev main_c_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_4 : Ref sig .tc := ⟨.hbm, 56, rfl⟩
abbrev main_v39 : Ref sig .tc := ⟨.hbm, 57, rfl⟩
abbrev main_c_5 : Ref sig .tc := ⟨.hbm, 58, rfl⟩
abbrev main_call0_v0 : Ref sig .tc := ⟨.hbm, 59, rfl⟩
abbrev main_call0_v1 : Ref sig .tc := ⟨.hbm, 60, rfl⟩
abbrev main_v40 : Ref sig .tc := ⟨.hbm, 61, rfl⟩
abbrev main_c_6 : Ref sig .tc := ⟨.hbm, 62, rfl⟩
abbrev main_v41 : Ref sig .tc := ⟨.hbm, 63, rfl⟩
abbrev main_v42 : Ref sig .tc := ⟨.hbm, 64, rfl⟩
abbrev main_c_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v14 : BitVec 1 := Scalar.cmpi .eq arg0 c19_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  shapeCasts_S128_S1x128 : S128.ShapeCasts S1x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S100000 : S_.BroadcastsInDim S100000 (![] : Fin 0 → Fin S100000.rank)
  shapeCasts_S64_S64x1 : S64.ShapeCasts S64x1
  transposes_S16x128_S128x16_1_0 : S16x128.Transposes [1, 0] S128x16
  shapeCasts_S16_S1x16 : S16.ShapeCasts S1x16
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  inb_S64x16_S64x16_0_0 : ∀ a, (![0, 0] : Fin 2 → Nat) a + S64x16.size a ≤ S64x16.size a
  h_S64x16 : 0 < S64x16.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S64_S100000x1_S100000_n_0_0_1_wf : ScatterDims.WF S64 S100000x1 S100000 [] [0] [0] 1
  dot_S5000x64_S5000x128_S64x128_0_0_1_1_n_n_wf : DotDims.WF S5000x64 S5000x128 S64x128 [0] [0] [1] [1] [] []
  dot_S64x128_S128x16_S64x16_1_0_0_1_n_n_wf : DotDims.WF S64x128 S128x16 S64x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .bf16 = 32 ∨ (Rect.block (s := S100000x64) S5000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x16.size a ≤ S128x16.size a
  hwx2_3 : ∀ i : grid2.Coords, EltTy.bits .f32 = 32 ∨ (Rect.block (s := S128x16) S128x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x16.size a ≤ S64x16.size a
  hwx2_5 : ∀ i : grid2.Coords, EltTy.bits .f32 = 32 ∨ (Rect.block (s := S64x16) S64x16.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S128x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S64x16.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S16x128 : Shape := ⟨2, ![16, 128]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S128x16 : Shape := ⟨2, ![128, 16]⟩
abbrev S64x16 : Shape := ⟨2, ![64, 16]⟩
abbrev S1x16 : Shape := ⟨2, ![1, 16]⟩

abbrev nBuf : Space → Nat
  | .hbm => 84
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S16x128, .f32⟩
  | .hbm, ⟨10, _⟩ => ⟨S16, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S128x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S128x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S128x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S128x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S64x128, .f32⟩
  | .hbm, ⟨65, _⟩ => ⟨S100000x1, .i32⟩
  | .hbm, ⟨66, _⟩ => ⟨S64x128, .f32⟩
  | .hbm, ⟨67, _⟩ => ⟨S_, .f32⟩
  | .hbm, ⟨68, _⟩ => ⟨S100000, .f32⟩
  | .hbm, ⟨69, _⟩ => ⟨S_, .f32⟩
  | .hbm, ⟨70, _⟩ => ⟨S64, .f32⟩
  | .hbm, ⟨71, _⟩ => ⟨S100000x1, .i32⟩
  | .hbm, ⟨72, _⟩ => ⟨S64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S64x1, .f32⟩
  | .hbm, ⟨77, _⟩ => ⟨S64x128, .f32⟩
  | .hbm, ⟨78, _⟩ => ⟨S64x128, .f32⟩
  | .hbm, ⟨79, _⟩ => ⟨S128x16, .f32⟩
  | .hbm, ⟨80, _⟩ => ⟨S64x16, .f32⟩
  | .hbm, ⟨81, _⟩ => ⟨S1x16, .f32⟩
  | .hbm, ⟨82, _⟩ => ⟨S64x16, .f32⟩
  | .hbm, ⟨83, _⟩ => ⟨S64x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_cst : Ref sig .tc := ⟨.hbm, 36, rfl⟩
abbrev main_call0_v0 : Ref sig .tc := ⟨.hbm, 37, rfl⟩
abbrev main_v22 : Ref sig .tc := ⟨.hbm, 38, rfl⟩
abbrev main_c_1 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call1_cst : Ref sig .tc := ⟨.hbm, 60, rfl⟩
abbrev main_call1_v0 : Ref sig .tc := ⟨.hbm, 61, rfl⟩
abbrev main_v41 : Ref sig .tc := ⟨.hbm, 62, rfl⟩
abbrev main_cst_4 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_5 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_7 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S16x128_S128x16_1_0 : S16x128.Transposes [1, 0] S128x16
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x16_S64x16_1_0_0_1_n_n_wf : DotDims.WF S64x128 S128x16 S64x16 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

class Facts : Prop extends Facts₀ where

variable [Facts]
-- ==== Proof.K.Conv0.lean ====
/-
  The first convolution call (pipeline 0), at any float instance and at ANY contents `V` of the core's buffers when the
  call is entered.  Over a grid of 20 points the call stages rows 5000·t … 5000·t + 4999 of the node features and of the
  aggregated features, the two 128 × 128 weight matrices and the bias row whole, and writes back rows 5000·t … of the
  result.  Here: each window's block at a point, what the body leaves in the output block as one function of the five
  input blocks, the pipeline's proof data, and the body's obligation at every point.
-/
import proofs.«407611_j90099823935523_1_alg».proof.Proof.Gen.Kernel.Launch
import proofs.«407611_j90099823935523_1_alg».proof.Proof.Gen.Kernel.Skeleton
import proofs.«407611_j90099823935523_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 5000 × 128 block, the whole 128 × 128 matrix, the whole 1 × 128 row: what the body loads and stores. -/
abbrev rRows0 : Rect S5000x128 := Rect.unit (s := S5000x128) ![0, 0] S5000x128.size inb_S5000x128_S5000x128_0_0
abbrev rMat0 : Rect S128x128 := Rect.unit (s := S128x128) ![0, 0] S128x128.size inb_S128x128_S128x128_0_0
abbrev rRow0 : Rect S1x128 := Rect.unit (s := S1x128) ![0, 0] S1x128.size inb_S1x128_S1x128_0_0

/-- The output block after the body, from the five input blocks: its one store, of the whole block. -/
def out0_5 (x0 x1 : Vec F S5000x128 .f32) (x2 x3 : Vec F S128x128 .f32) (x4 : Vec F S1x128 .f32) : Vec F S5000x128 .f32 :=
  View.canon [⟨rRows0, k0_pay1 (View.ld x0 rRows0) (View.ld x1 rRows0) (View.ld x2 rMat0) (View.ld x3 rMat0) (View.ld x4 rRow0)⟩]

/-- The offsets `![0, 0]` are the zero offsets, axis by axis. -/
private theorem c0_hz : (![0, 0] : Fin 2 → Nat) = fun _ => 0 := funext fun a => by fin_cases a <;> rfl

/-- The store covers the block and each load reads a whole block: the output block IS the body's arithmetic of the five blocks. -/
theorem out0_5_eq (x0 x1 : Vec F S5000x128 .f32) (x2 x3 : Vec F S128x128 .f32) (x4 : Vec F S1x128 .f32) :
    out0_5 x0 x1 x2 x3 x4 = k0_pay1 x0 x1 x2 x3 x4 := by
  unfold out0_5
  rw [View.canon_unit_zero (S := S5000x128) c0_hz]
  simp only [View.ld_unit_zero (S := S5000x128) c0_hz, View.ld_unit_zero (S := S128x128) c0_hz,
    View.ld_unit_zero (S := S1x128) c0_hz]

/-- The one store's rectangle is the whole block, so every index of the block lies in it. -/
private theorem cover0_5 (p0 : Vec F S5000x128 .f32) (y : S5000x128.Idx) :
    ∃ pc ∈ ([⟨rRows0, p0⟩] : List (View.Piece (Elt F) S5000x128 .f32)), y ∈ pc.1.set :=
  ⟨_, List.mem_singleton_self _, View.mem_set_unit_zero (S := S5000x128) c0_hz inb_S5000x128_S5000x128_0_0 y⟩

set_option maxHeartbeats 1000000 in
/-- The kernel body on whole staging buffers, the five inputs' at read contents `x0 … x4` and the output's at anything,
    runs to the continuation holding the inputs' as they were and the output's at `out0_5` of the inputs': its five
    loads read the inputs' contents, its load of the output buffer reads a value it never uses, and its one store
    covers the output buffer. -/
private theorem sound_kernel0 (c : Dev nD) (E : Set ℕ) (i : grid0.Coords)
    (arg0 : Memref sig .tc .vmem S5000x128 .f32) (harg0 : arg0.IsWhole)
    (arg1 : Memref sig .tc .vmem S5000x128 .f32) (harg1 : arg1.IsWhole)
    (arg2 : Memref sig .tc .vmem S128x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S5000x128 .f32) (harg5 : arg5.IsWhole)
    (x0 x1 : Vec F S5000x128 .f32) (x2 x3 : Vec F S128x128 .f32) (x4 : Vec F S1x128 .f32)
    (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4
            ∗ owns (c : Thread nD τ) arg5 fullShare (out0_5 x0 x1 x2 x3 x4)) -∗ K ⟨⟩))
      ⊢ wp frame (wpE (defs₀ (F := F)) Variants.none c none) E
          (cc0__graphconv_kernel i arg0 harg0 arg1 harg1 arg2 harg2 arg3 harg3 arg4 harg4 arg5 harg5) K := by
  simp only [cc0__graphconv_kernel_eq_skeleton]; unfold cc0__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The pipeline's proof data on core `c`: the arrays as the call finds them; after the body at point `t` each input's
    buffer at its block and the output's at `out0_5` of the input blocks; nothing kept between points; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

/-- What the body leaves in each input window's buffer: the block it found there. -/
private theorem after0_0 (c : Dev nD) (t : Fin cfg0.N) : (dat0 V c).after 0 t = iblk0 V c 0 t := by dsimp only [dat0]
private theorem after0_1 (c : Dev nD) (t : Fin cfg0.N) : (dat0 V c).after 1 t = iblk0 V c 1 t := by dsimp only [dat0]
private theorem after0_2 (c : Dev nD) (t : Fin cfg0.N) : (dat0 V c).after 2 t = iblk0 V c 2 t := by dsimp only [dat0]
private theorem after0_3 (c : Dev nD) (t : Fin cfg0.N) : (dat0 V c).after 3 t = iblk0 V c 3 t := by dsimp only [dat0]
private theorem after0_4 (c : Dev nD) (t : Fin cfg0.N) : (dat0 V c).after 4 t = iblk0 V c 4 t := by dsimp only [dat0]

/-- Each input's current staging buffer holds its block at every point, fetched there or not: an input not fetched
    at a point has the block index of the point before, and the body left that block in place. -/
private theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
private theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
private theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
private theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
private theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- What the body is called with at point `t`: the invariant, the core's debts, and each window's current staging
    buffer at what the pipeline left there, -/
private def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the same invariant and debts, and each buffer at what the proof data says the body leaves. -/
private def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the five inputs' buffers hold their blocks, so the body's triple applies; the invariant and
    the core's debts pass through unread. -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation at every point of the grid. -/
theorem body_obligation0 (c : Dev nD) : BodyObligation (dat0 (F := F) V c) (defs₀ (F := F)) Variants.none () Set.univ := by
  intro t
  rw [bigSep_W0, bigSep_W0]
  exact sound_body0 V c t

end Cert.Kernel.Hand

end
-- ==== Proof.K.Conv1.lean ====
/-
  The second convolution call (pipeline 1), at any float instance and at ANY contents `V` of the core's buffers when the
  call is entered.  Over a grid of 20 points the call stages rows 5000·t … 5000·t + 4999 of the node features and of the
  aggregated features, the two 128 × 128 weight matrices and the bias row whole, and writes back rows 5000·t … of the
  result.  Here: each window's block at a point, what the body leaves in the output block as one function of the five
  input blocks, the pipeline's proof data, and the body's obligation at every point.
-/
import proofs.«407611_j90099823935523_1_alg».proof.Proof.Gen.Kernel.Launch
import proofs.«407611_j90099823935523_1_alg».proof.Proof.Gen.Kernel.Skeleton
import proofs.«407611_j90099823935523_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 5000 × 128 block, the whole 128 × 128 matrix, the whole 1 × 128 row: what the body loads and stores. -/
abbrev rRows1 : Rect S5000x128 := Rect.unit (s := S5000x128) ![0, 0] S5000x128.size inb_S5000x128_S5000x128_0_0
abbrev rMat1 : Rect S128x128 := Rect.unit (s := S128x128) ![0, 0] S128x128.size inb_S128x128_S128x128_0_0
abbrev rRow1 : Rect S1x128 := Rect.unit (s := S1x128) ![0, 0] S1x128.size inb_S1x128_S1x128_0_0

/-- The output block after the body, from the five input blocks: its one store, of the whole block. -/
def out1_5 (x0 x1 : Vec F S5000x128 .f32) (x2 x3 : Vec F S128x128 .f32) (x4 : Vec F S1x128 .f32) : Vec F S5000x128 .f32 :=
  View.canon [⟨rRows1, k1_pay1 (View.ld x0 rRows1) (View.ld x1 rRows1) (View.ld x2 rMat1) (View.ld x3 rMat1) (View.ld x4 rRow1)⟩]

/-- The offsets `![0, 0]` are the zero offsets, axis by axis. -/
private theorem c1_hz : (![0, 0] : Fin 2 → Nat) = fun _ => 0 := funext fun a => by fin_cases a <;> rfl

/-- The store covers the block and each load reads a whole block: the output block IS the body's arithmetic of the five blocks. -/
theorem out1_5_eq (x0 x1 : Vec F S5000x128 .f32) (x2 x3 : Vec F S128x128 .f32) (x4 : Vec F S1x128 .f32) :
    out1_5 x0 x1 x2 x3 x4 = k1_pay1 x0 x1 x2 x3 x4 := by
  unfold out1_5
  rw [View.canon_unit_zero (S := S5000x128) c1_hz]
  simp only [View.ld_unit_zero (S := S5000x128) c1_hz, View.ld_unit_zero (S := S128x128) c1_hz,
    View.ld_unit_zero (S := S1x128) c1_hz]

/-- The one store's rectangle is the whole block, so every index of the block lies in it. -/
private theorem cover1_5 (p0 : Vec F S5000x128 .f32) (y : S5000x128.Idx) :
    ∃ pc ∈ ([⟨rRows1, p0⟩] : List (View.Piece (Elt F) S5000x128 .f32)), y ∈ pc.1.set :=
  ⟨_, List.mem_singleton_self _, View.mem_set_unit_zero (S := S5000x128) c1_hz inb_S5000x128_S5000x128_0_0 y⟩

set_option maxHeartbeats 1000000 in
/-- The kernel body on whole staging buffers, the five inputs' at read contents `x0 … x4` and the output's at anything,
    runs to the continuation holding the inputs' as they were and the output's at `out1_5` of the inputs': its five
    loads read the inputs' contents, its load of the output buffer reads a value it never uses, and its one store
    covers the output buffer. -/
private theorem sound_kernel1 (c : Dev nD) (E : Set ℕ) (i : grid1.Coords)
    (arg0 : Memref sig .tc .vmem S5000x128 .f32) (harg0 : arg0.IsWhole)
    (arg1 : Memref sig .tc .vmem S5000x128 .f32) (harg1 : arg1.IsWhole)
    (arg2 : Memref sig .tc .vmem S128x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S5000x128 .f32) (harg5 : arg5.IsWhole)
    (x0 x1 : Vec F S5000x128 .f32) (x2 x3 : Vec F S128x128 .f32) (x4 : Vec F S1x128 .f32)
    (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E
          (cc1__graphconv_kernel i arg0 harg0 arg1 harg1 arg2 harg2 arg3 harg3 arg4 harg4 arg5 harg5) K := by
  simp only [cc1__graphconv_kernel_eq_skeleton]; unfold cc1__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The pipeline's proof data on core `c`: the arrays as the call finds them; after the body at point `t` each input's
    buffer at its block and the output's at `out1_5` of the input blocks; nothing kept between points; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-- What the body leaves in each input window's buffer: the block it found there. -/
private theorem after1_0 (c : Dev nD) (t : Fin cfg1.N) : (dat1 V c).after 0 t = iblk1 V c 0 t := by dsimp only [dat1]
private theorem after1_1 (c : Dev nD) (t : Fin cfg1.N) : (dat1 V c).after 1 t = iblk1 V c 1 t := by dsimp only [dat1]
private theorem after1_2 (c : Dev nD) (t : Fin cfg1.N) : (dat1 V c).after 2 t = iblk1 V c 2 t := by dsimp only [dat1]
private theorem after1_3 (c : Dev nD) (t : Fin cfg1.N) : (dat1 V c).after 3 t = iblk1 V c 3 t := by dsimp only [dat1]
private theorem after1_4 (c : Dev nD) (t : Fin cfg1.N) : (dat1 V c).after 4 t = iblk1 V c 4 t := by dsimp only [dat1]

/-- Each input's current staging buffer holds its block at every point, fetched there or not: an input not fetched
    at a point has the block index of the point before, and the body left that block in place. -/
private theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
private theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
private theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
private theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
private theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- What the body is called with at point `t`: the invariant, the core's debts, and each window's current staging
    buffer at what the pipeline left there, -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the same invariant and debts, and each buffer at what the proof data says the body leaves. -/
private def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the five inputs' buffers hold their blocks, so the body's triple applies; the invariant and
    the core's debts pass through unread. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation at every point of the grid. -/
theorem body_obligation1 (c : Dev nD) : BodyObligation (dat1 (F := F) V c) (defs₀ (F := F)) Variants.none () Set.univ := by
  intro t
  rw [bigSep_W1, bigSep_W1]
  exact sound_body1 V c t

end Cert.Kernel.Hand

end
-- ==== Proof.K.Pool.lean ====
/-
  The pooling call (pipeline 2), at any float instance and at ANY contents `V` of the core's buffers when the call is
  entered.  Over a grid of 20 points the call stages rows 5000·t … 5000·t + 4999 of the label indicator (5000 × 64) and
  of the node features (5000 × 128); the counts column, the head's matrix and its bias row whole; and one 64 × 16 result
  block, written back after the last point only.  A 64 × 128 scratch carries the running sum: zeroed at the first
  point, at every point increased by (indicator block)ᵀ · (feature block); at the last point the body divides it by
  the counts (at least one), multiplies by the head's matrix, adds the bias and stores the result block.
  Here: each window's block at a point, the running sum after each point, the result block, the invariant that carries
  the scratch between points, the pipeline's proof data, and the body's obligation at every point.
-/
import proofs.«407611_j90099823935523_1_alg».proof.Proof.Gen.Kernel.Launch
import proofs.«407611_j90099823935523_1_alg».proof.Proof.Gen.Kernel.Skeleton
import proofs.«407611_j90099823935523_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- THE RUNNING SUM: what the scratch holds after the body at point `n` — zero plus the first product at the first
    point, the sum so far plus this point's product afterwards. -/
def accAt2 (c : Dev nD) : (n : ℕ) → n < cfg2.N → Vec F S64x128 .f32
  | 0, h => k2_pay2 (iblk2 V c 0 ⟨0, h⟩) (iblk2 V c 1 ⟨0, h⟩) (k2_pay1 (F := F))
  | n + 1, h => k2_pay2 (iblk2 V c 0 ⟨n + 1, h⟩) (iblk2 V c 1 ⟨n + 1, h⟩) (accAt2 c n (Nat.lt_of_succ_lt h))

/-- The result block as the body stores it at point `t` (it does so at the last point): the running sum after `t`
    divided by the counts, through the head. -/
def outAt2 (c : Dev nD) (t : Fin cfg2.N) : Vec F S64x16 .f32 :=
  k2_pay3 (iblk2 V c 2 t) (accAt2 V c t.val t.isLt) (iblk2 V c 3 t) (iblk2 V c 4 t)

/-- The scratch operand: a whole scoped buffer of the call's own. -/
abbrev scM2 : Memref sig .tc .vmem S64x128 .f32 := Memref.whole cc2_scratch0

/-- The core's scoped buffers that this call neither stages nor uses as scratch, each whole at some contents. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f))

/-- The invariant before position `n`: before the first point every scoped buffer the call does not stage at
    anything and the generator register at some state; afterwards the same with the scratch at the running sum the
    point before left. -/
def PhiS2 (c : Dev nD) : (n : ℕ) → n ≤ cfg2.N → sProp 𝕄
  | 0, _ => Pipeline.ΦA spec2 c
  | n + 1, hn => iprop(owns (c : Thread nD τ) scM2 fullShare (accAt2 V c n hn) ∗ others2 (F := F) c ∗ (∃ r, prngReg c r))

/-- The invariant with the scratch split off. -/
theorem PhiA2_eq (c : Dev nD) :
    (Pipeline.ΦA spec2 c : sProp 𝕄) = iprop((∃ d, owns (c : Thread nD τ) scM2 fullShare d) ∗ others2 (F := F) c ∗ (∃ r, prngReg c r)) := by
  unfold Pipeline.ΦA; rw [scopedRest2_eq]; unfold others2; simp only [scM2, owns_whole]
  refine BI.equiv_iff.mp ⟨show (_ : sProp 𝕄) ⊢ (_ : sProp 𝕄) from ?_, show (_ : sProp 𝕄) ⊢ (_ : sProp 𝕄) from ?_⟩
  · iintro ⟨⟨H1, H2, H3, H4, H5, H6, H7, H8, H9, H10, H11, H12, H13, H14, H15, H16, H17, H18, HS⟩, Hg⟩
    isplitl [HS]; · iexact HS
    isplitr [Hg]
    swap; · iexact Hg
    iframe
  · iintro ⟨HS, ⟨H1, H2, H3, H4, H5, H6, H7, H8, H9, H10, H11, H12, H13, H14, H15, H16, H17, H18⟩, Hg⟩
    isplitr [Hg]
    swap; · iexact Hg
    iframe

/-- Before the first point the invariant is the call's own. -/
theorem PhiS2_zero (c : Dev nD) (n : ℕ) (h : n ≤ cfg2.N) (hz : n = 0) : PhiS2 V c n h = Pipeline.ΦA spec2 c := by
  subst hz; rfl

/-- After point `n` (before point `n + 1`): the scratch at the running sum after `n`. -/
theorem PhiS2_succ (c : Dev nD) (n : ℕ) (hn : n < cfg2.N) :
    PhiS2 V c (n + 1) hn = iprop(owns (c : Thread nD τ) scM2 fullShare (accAt2 V c n hn) ∗ others2 (F := F) c ∗ (∃ r, prngReg c r)) := rfl

/-- Before a point that is not the first: the scratch at the running sum the point before left. -/
theorem PhiS2_pos (c : Dev nD) (n : ℕ) (h : n ≤ cfg2.N) (hz : n ≠ 0) :
    PhiS2 V c n h = iprop(owns (c : Thread nD τ) scM2 fullShare (accAt2 V c (n - 1) (by omega)) ∗ others2 (F := F) c ∗ (∃ r, prngReg c r)) := by
  cases n with
  | zero => exact absurd rfl hz
  | succ n => rfl

/-- The pipeline's proof data on core `c`: the arrays as the call finds them; after the body at point `t` each input's
    buffer at its block and the result's at `outAt2`; the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) : (dat2 V c).after 5 t = outAt2 V c t := by
  dsimp only [dat2]

/-- After any point but the first the invariant gives the call's own back: the running sum's value is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HS, Ho, Hg⟩
  isplitl [HS]
  · iexists _; iexact HS
  isplitl [Ho]; · iexact Ho
  iexact Hg

/-! ## The body's two conditions, decided over the grid -/

/-- The first conditional's test, from the grid coordinates: the point is the first. -/
abbrev cond2_0 (i : grid2.Coords) : Prop := (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val % 20 = 0 :=
  (by decide +kernel : ∀ t : Fin grid2.N, cond2_0 (grid2.coords t) ↔ t.val % 20 = 0)

/-- The second conditional's test: the point is the last. -/
abbrev cond2_1 (i : grid2.Coords) : Prop := k2_cond2 i = 1#1
/-- It holds at point 19 only. -/
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

/-- The five inputs are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
/-- Away from the last point the result window is idle: the body stores nothing into it, -/
theorem idleAt2_5 : ∀ t : Fin cfg2.N, ¬cond2_1 (grid2.coords t) → cfg2.idle 5 (grid2.coords t) = true := by decide +kernel
/-- and its block is not written back there. -/
theorem noFlush2_5 : ∀ t : Fin cfg2.N, ¬cond2_1 (grid2.coords t) → (cfg2.win 5).flush t = false := by decide +kernel
/-- At the last point it is live: the body stores the result block. -/
theorem liveAt2_5 : ∀ t : Fin cfg2.N, cond2_1 (grid2.coords t) → cfg2.idle 5 (grid2.coords t) = false := by decide +kernel

/-! ## The staging memrefs at a point, and what the inputs' hold -/

/-- Each window's current staging memref at point `t`, spelled as the pipeline passes it, and its wholeness. -/
abbrev ms2_0 (t : Fin cfg2.N) : Memref sig .tc .vmem S5000x64 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x16 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x16 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S64x16 .f32 := win2_5.stage (cfg2.slots t 5)
abbrev hs2_5 (t : Fin cfg2.N) : (ms2_5 t).IsWhole := hstage2_5 ((cfg2.slots t 5).cast nbuf2_5)

/-- What the body leaves in each input's buffer: its block (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]

/-- Each input's current staging buffer holds its block at every point, fetched there or not: an input not fetched
    at a point has the block index of the point before, and the body left that block in place. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- The running sum at the first point: the first product over zero. -/
theorem accAt2_first (c : Dev nD) (t : Fin cfg2.N) (hz : t.val = 0) :
    accAt2 V c t.val t.isLt = k2_pay2 (iblk2 V c 0 t) (iblk2 V c 1 t) (k2_pay1 (F := F)) := by
  obtain ⟨n, hn⟩ := t
  cases n with
  | zero => rfl
  | succ n => exact absurd hz (Nat.succ_ne_zero n)

/-- The running sum at a later point: this point's product over the sum the point before left. -/
theorem accAt2_next (c : Dev nD) (t : Fin cfg2.N) (hz : t.val ≠ 0) :
    accAt2 V c t.val t.isLt = k2_pay2 (iblk2 V c 0 t) (iblk2 V c 1 t) (accAt2 V c (t.val - 1) (Nat.lt_of_le_of_lt (Nat.sub_le _ _) t.isLt)) := by
  obtain ⟨n, hn⟩ := t
  cases n with
  | zero => exact absurd rfl hz
  | succ n => rfl

/-! ## The body on whole memrefs, case by case -/

/-- The zero offsets of a whole-buffer rectangle, however spelt. -/
theorem hz2 : (![0, 0] : Fin 2 → Nat) = fun _ => 0 := funext fun a => by fin_cases a <;> rfl

set_option maxHeartbeats 1000000 in
/-- At the first point: the scratch, at anything, is zeroed and then holds the first product over zero; the two
    staged blocks are handed back as they were. -/
theorem runA2 (c : Dev nD) (i : grid2.Coords) (arg1 : Memref sig .tc .vmem S5000x64 .bf16) (harg1 : arg1.IsWhole) (arg2 : Memref sig .tc .vmem S5000x128 .f32) (harg2 : arg2.IsWhole) (arg3 : Memref sig .tc .vmem S64x1 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S64x16 .f32) (harg6 : arg6.IsWhole) (arg7 : Memref sig .tc .vmem S64x128 .f32) (harg7 : arg7.IsWhole)
    (hc0 : cond2_0 i) (hc1 : ¬cond2_1 i) (x0 : Vec F S5000x64 .bf16) (x1 : Vec F S5000x128 .f32) (E : Set ℕ) (K : PUnit → sProp 𝕄) :
    iprop(owns (c : Thread nD τ) arg1 fullShare x0 ∗ owns (c : Thread nD τ) arg2 fullShare x1 ∗ (∃ d, owns (c : Thread nD τ) arg7 fullShare d)
        ∗ (iprop(owns (c : Thread nD τ) arg1 fullShare x0 ∗ owns (c : Thread nD τ) arg2 fullShare x1
            ∗ owns (c : Thread nD τ) arg7 fullShare (k2_pay2 x0 x1 (k2_pay1 (F := F)))) -∗ K ⟨⟩))
      ⊢ wp frame (wpE (defs₀ (F := F)) Variants.none c none) E (cc2__pool_head_kernel i arg1 harg1 arg2 harg2 arg3 harg3 arg4 harg4 arg5 harg5 arg6 harg6 arg7 harg7) K := by
  simp only [cc2__pool_head_kernel_eq_skeleton]; unfold cc2__pool_head_kernel_skel
  unfold owns
  iintro ⟨⟨%f0, %hf0, H0⟩, ⟨%f1, %hf1, H1⟩, ⟨%ds0, %fs0, -, HS0⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  rw [View.read_writes_eq_canon _ _ _ (fun y => ⟨_, List.mem_cons.mpr (.inl rfl), View.mem_set_unit_zero hz2 inb_S64x128_S64x128_0_0 y⟩)]
  sl_unfold_words
  rw [View.canon_cons_unit_zero (S := S64x128) hz2, View.readCov_unit_zero (S := S64x128) _ hz2]
  simp only [View.readAt_eq_ld, harg1.read_unread, harg2.read_unread, View.ld_unit_zero (S := S5000x64) hz2, View.ld_unit_zero (S := S5000x128) hz2]

set_option maxHeartbeats 1000000 in
/-- At a point that is neither the first nor the last: the scratch, at `xs`, ends at `xs` plus this point's product;
    the two staged blocks are handed back as they were. -/
theorem runB2 (c : Dev nD) (i : grid2.Coords) (arg1 : Memref sig .tc .vmem S5000x64 .bf16) (harg1 : arg1.IsWhole) (arg2 : Memref sig .tc .vmem S5000x128 .f32) (harg2 : arg2.IsWhole) (arg3 : Memref sig .tc .vmem S64x1 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S64x16 .f32) (harg6 : arg6.IsWhole) (arg7 : Memref sig .tc .vmem S64x128 .f32) (harg7 : arg7.IsWhole)
    (hc0 : ¬cond2_0 i) (hc1 : ¬cond2_1 i) (x0 : Vec F S5000x64 .bf16) (x1 : Vec F S5000x128 .f32) (xs : Vec F S64x128 .f32) (E : Set ℕ) (K : PUnit → sProp 𝕄) :
    iprop(owns (c : Thread nD τ) arg1 fullShare x0 ∗ owns (c : Thread nD τ) arg2 fullShare x1 ∗ owns (c : Thread nD τ) arg7 fullShare xs
        ∗ (iprop(owns (c : Thread nD τ) arg1 fullShare x0 ∗ owns (c : Thread nD τ) arg2 fullShare x1
            ∗ owns (c : Thread nD τ) arg7 fullShare (k2_pay2 x0 x1 xs)) -∗ K ⟨⟩))
      ⊢ wp frame (wpE (defs₀ (F := F)) Variants.none c none) E (cc2__pool_head_kernel i arg1 harg1 arg2 harg2 arg3 harg3 arg4 harg4 arg5 harg5 arg6 harg6 arg7 harg7) K := by
  simp only [cc2__pool_head_kernel_eq_skeleton]; unfold cc2__pool_head_kernel_skel
  unfold owns
  iintro ⟨⟨%f0, %hf0, H0⟩, ⟨%f1, %hf1, H1⟩, ⟨%fs0, %hfs0, HS0⟩, Hk⟩
  obtain rfl := harg1.eq_unread hf0; obtain rfl := harg2.eq_unread hf1; obtain rfl := harg7.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  rw [View.read_writes_eq_canon _ _ _ (fun y => ⟨_, List.mem_cons.mpr (.inl rfl), View.mem_set_unit_zero hz2 inb_S64x128_S64x128_0_0 y⟩)]
  sl_unfold_words
  rw [View.canon_unit_zero (S := S64x128) hz2]
  simp only [View.readAt_eq_ld, harg1.read_unread, harg2.read_unread, harg7.read_unread, View.ld_unit_zero (S := S5000x64) hz2, View.ld_unit_zero (S := S5000x128) hz2, View.ld_unit_zero (S := S64x128) hz2]

set_option maxHeartbeats 1000000 in
/-- At the last point: the scratch, at `xs`, ends at `xs` plus this point's product, and the result block, at anything,
    ends at that sum divided by the counts and passed through the head; every staged input is handed back as it was. -/
theorem runC2 (c : Dev nD) (i : grid2.Coords) (arg1 : Memref sig .tc .vmem S5000x64 .bf16) (harg1 : arg1.IsWhole) (arg2 : Memref sig .tc .vmem S5000x128 .f32) (harg2 : arg2.IsWhole) (arg3 : Memref sig .tc .vmem S64x1 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S64x16 .f32) (harg6 : arg6.IsWhole) (arg7 : Memref sig .tc .vmem S64x128 .f32) (harg7 : arg7.IsWhole)
    (hc0 : ¬cond2_0 i) (hc1 : cond2_1 i) (x0 : Vec F S5000x64 .bf16) (x1 : Vec F S5000x128 .f32) (x2 : Vec F S64x1 .f32) (x3 : Vec F S128x16 .f32) (x4 : Vec F S1x16 .f32) (xs : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k2_pay3 x2 (k2_pay2 x0 x1 xs) x3 x4)
            ∗ owns (c : Thread nD τ) arg7 fullShare (k2_pay2 x0 x1 xs)) -∗ K ⟨⟩))
      ⊢ wp frame (wpE (defs₀ (F := F)) Variants.none c none) E (cc2__pool_head_kernel i arg1 harg1 arg2 harg2 arg3 harg3 arg4 harg4 arg5 harg5 arg6 harg6 arg7 harg7) K := by
  simp only [cc2__pool_head_kernel_eq_skeleton]; unfold cc2__pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [View.read_writes_eq_canon _ _ _ (fun y => ⟨_, List.mem_cons.mpr (.inl rfl), View.mem_set_unit_zero hz2 inb_S64x16_S64x16_0_0 y⟩)]
    sl_unfold_words
    rw [View.canon_unit_zero (S := S64x16) hz2]
    simp only [View.readAt_eq_ld, harg1.read_unread, harg2.read_unread, harg3.read_unread, harg4.read_unread, harg5.read_unread, harg7.read_unread,
      View.readCov_unit_zero (S := S64x128) _ hz2,
      View.ld_unit_zero (S := S5000x64) hz2, View.ld_unit_zero (S := S5000x128) hz2, View.ld_unit_zero (S := S64x128) hz2,
      View.ld_unit_zero (S := S64x1) hz2, View.ld_unit_zero (S := S128x16) hz2, View.ld_unit_zero (S := S1x16) hz2]
  iexists _; isplitr
  swap; · iexact HS0
  ipureintro
  sl_unfold_words
  rw [View.read_writes_eq_canon _ _ _ (fun y => ⟨_, List.mem_cons.mpr (.inl rfl), View.mem_set_unit_zero hz2 inb_S64x128_S64x128_0_0 y⟩)]
  rw [View.canon_unit_zero (S := S64x128) hz2]
  simp only [View.readAt_eq_ld, harg1.read_unread, harg2.read_unread, harg7.read_unread, View.ld_unit_zero (S := S5000x64) hz2, View.ld_unit_zero (S := S5000x128) hz2, View.ld_unit_zero (S := S64x128) hz2]

/-! ## The body obligation at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point. Every input's memref holds its block; the closed forms say which of the three cases the
    point is in. At the first point the invariant hands the scratch over at anything and takes it back at the first
    product over zero; at a later point it hands it over at the running sum the point before left and takes it back
    at this point's; the other scoped buffers and the generator register ride along. Away from the last point the
    result window is idle and its buffer is handed back untouched; at the last point it is left at the result
    block. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val % 20 = 0
  · -- the first point
    have hz : t.val = 0 := by omega
    have h1 : ¬t.val % 20 = 19 := by omega
    rw [Dat.leavesExact_idle (dat2 V c) 5 t (idleAt2_5 t (fun h => h1 ((hcond2_1 t).mp h))) (noFlush2_5 t (fun h => h1 ((hcond2_1 t).mp h)))]
    rw [PhiS2_castSucc V c t, PhiS2_zero V c _ _ hz, PhiA2_eq, accAt2_first V c t hz]
    iintro ⟨⟨HS, Ho, Hg⟩, Hw, ⟨%d0, H0⟩, ⟨%d1, H1⟩, ⟨%d2, H2⟩, ⟨%d3, H3⟩, ⟨%d4, H4⟩, ⟨%d5, H5⟩⟩
    iapply (runA2 c (grid2.coords t) _ _ _ _ _ _ _ _ _ _ _ _ _ _ ((hcond2_0 t).mpr h0) (fun h => h1 ((hcond2_1 t).mp h)) (iblk2 V c 0 t) (iblk2 V c 1 t) Set.univ _)
    isplitl [H0]; · iexact H0
    isplitl [H1]; · iexact H1
    isplitl [HS]; · iexact HS
    iintro ⟨H0, H1, HS⟩
    isplitl [HS Ho Hg]
    · isplitl [HS]; · iexact HS
      isplitl [Ho]; · iexact Ho
      iexact Hg
    isplitl [Hw]; · iexact Hw
    isplitl [H0]; · iexact H0
    isplitl [H1]; · iexact H1
    isplitl [H2]; · iexact H2
    isplitl [H3]; · iexact H3
    isplitl [H4]; · iexact H4
    iexists _; iexact H5
  · have hz : t.val ≠ 0 := by omega
    by_cases h1 : t.val % 20 = 19
    · -- the last point
      rw [show (dat2 V c).leavesExact 5 t = owns (c : Thread nD τ) (ms2_5 t) fullShare ((dat2 V c).after 5 t) from by
        unfold Dat.leavesExact; rw [liveAt2_5 t ((hcond2_1 t).mpr h1)], after2_5]
      unfold outAt2
      rw [PhiS2_castSucc V c t, PhiS2_pos V c _ _ hz, accAt2_next V c t hz]
      iintro ⟨⟨HS, Ho, Hg⟩, Hw, ⟨%d0, H0⟩, ⟨%d1, H1⟩, ⟨%d2, H2⟩, ⟨%d3, H3⟩, ⟨%d4, H4⟩, ⟨%d5, H5⟩⟩
      iapply (runC2 c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (accAt2 V c (t.val - 1) _) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Ho Hg]
      · isplitl [HS]; · iexact HS
        isplitl [Ho]; · iexact Ho
        iexact Hg
      isplitl [Hw]; · iexact Hw
      isplitl [H0]; · iexact H0
      isplitl [H1]; · iexact H1
      isplitl [H2]; · iexact H2
      isplitl [H3]; · iexact H3
      isplitl [H4]; · iexact H4
      iexact H5
    · -- a point between
      rw [Dat.leavesExact_idle (dat2 V c) 5 t (idleAt2_5 t (fun h => h1 ((hcond2_1 t).mp h))) (noFlush2_5 t (fun h => h1 ((hcond2_1 t).mp h)))]
      rw [PhiS2_castSucc V c t, PhiS2_pos V c _ _ hz, accAt2_next V c t hz]
      iintro ⟨⟨HS, Ho, Hg⟩, Hw, ⟨%d0, H0⟩, ⟨%d1, H1⟩, ⟨%d2, H2⟩, ⟨%d3, H3⟩, ⟨%d4, H4⟩, ⟨%d5, H5⟩⟩
      iapply (runB2 c (grid2.coords t) _ _ _ _ _ _ _ _ _ _ _ _ _ _ (fun h => h0 ((hcond2_0 t).mp h)) (fun h => h1 ((hcond2_1 t).mp h)) (iblk2 V c 0 t) (iblk2 V c 1 t) (accAt2 V c (t.val - 1) _) Set.univ _)
      isplitl [H0]; · iexact H0
      isplitl [H1]; · iexact H1
      isplitl [HS]; · iexact HS
      iintro ⟨H0, H1, HS⟩
      isplitl [HS Ho Hg]
      · isplitl [HS]; · iexact HS
        isplitl [Ho]; · iexact Ho
        iexact Hg
      isplitl [Hw]; · iexact Hw
      isplitl [H0]; · iexact H0
      isplitl [H1]; · iexact H1
      isplitl [H2]; · iexact H2
      isplitl [H3]; · iexact H3
      isplitl [H4]; · iexact H4
      iexists _; iexact H5

/-- The body's obligation at every point of the grid. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped buffers back, the scratch's contents forgotten. -/
theorem hout2 (c : Dev nD) : (dat2 V c).Φ (Fin.last cfg2.N) ⊢ Pipeline.ΦA spec2 c :=
  Phi_out2 V c _ (by rw [Fin.val_last]; have : cfg2.N = 20 := N_2; omega)

end Cert.Kernel.Hand

end
-- ==== Proof.K.Chain.lean ====
/-
  The buffer contents at every boundary of the program, at any float instance.  Its three calls change one array each;
  the host lines between them write their own result buffers.  What each call leaves is what its pipeline's write-backs
  leave of its proof data, entered at the contents the lines before it left: so the contents are a chain from the launch
  memory — the host lines' results, the first call's array, more host lines, the second call's array, more host lines,
  the pooling call's array.  The chain is built in order (each call's result over the contents that read only the
  earlier ones), then gathered into one family of results; and every pipeline's proof data at its call's entry contents.
-/
import proofs.«407611_j90099823935523_1_alg».proof.Proof.K.Conv0
import proofs.«407611_j90099823935523_1_alg».proof.Proof.K.Conv1
import proofs.«407611_j90099823935523_1_alg».proof.Proof.K.Pool
import proofs.«407611_j90099823935523_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation read at the TensorCore's references. -/
abbrev rd (W : Dev nD → Valuation τ sig (Elt F)) : (c : Dev nD) → (b : Ref sig .tc) → Buf (Elt F) ((c : Thread nD τ).loc b) :=
  fun c b => W c b

/-! ## What each call leaves, in order -/

/-- What the first call leaves in its result array. -/
def o2 (c : Dev nD) : Buf (Elt F) ((c : Thread nD τ).loc main_v20) := (dat0 (rd (V1 m)) c).arrAt 5 cfg0.N

/-- The calls' results so far: the first call's only. -/
def outsA : Outs (F := F) := fun _ r c => if h : r = main_v20 then h ▸ o2 m c else m ((c : Thread nD τ).loc r)

/-- What the second call leaves in its result array. -/
def o4 (c : Dev nD) : Buf (Elt F) ((c : Thread nD τ).loc main_v31) := (dat1 (rd (V3 m (outsA m))) c).arrAt 5 cfg1.N

/-- The calls' results so far: the first two. -/
def outsB : Outs (F := F) := fun _ r c =>
  if h : r = main_v20 then h ▸ o2 m c else if h : r = main_v31 then h ▸ o4 m c else m ((c : Thread nD τ).loc r)

/-- What the pooling call leaves in the result buffer. -/
def o8 (c : Dev nD) : Buf (Elt F) ((c : Thread nD τ).loc main_v53) := (dat2 (rd (V7 m (outsB m))) c).arrAt 5 cfg2.N

/-- What the three calls leave. -/
def outs : Outs (F := F) := fun _ r c =>
  if h : r = main_v20 then h ▸ o2 m c else if h : r = main_v31 then h ▸ o4 m c
  else if h : r = main_v53 then h ▸ o8 m c else m ((c : Thread nD τ).loc r)

theorem outsA_v20 (j : ℕ) (c : Dev nD) : outsA m j main_v20 c = o2 m c := by unfold outsA; rw [dif_pos rfl]
theorem outsB_v20 (j : ℕ) (c : Dev nD) : outsB m j main_v20 c = o2 m c := by unfold outsB; rw [dif_pos rfl]
theorem outsB_v31 (j : ℕ) (c : Dev nD) : outsB m j main_v31 c = o4 m c := by
  unfold outsB; rw [dif_neg (by decide), dif_pos rfl]
theorem outs_v20 (j : ℕ) (c : Dev nD) : outs m j main_v20 c = o2 m c := by unfold outs; rw [dif_pos rfl]
theorem outs_v31 (j : ℕ) (c : Dev nD) : outs m j main_v31 c = o4 m c := by
  unfold outs; rw [dif_neg (by decide), dif_pos rfl]
theorem outs_v53 (j : ℕ) (c : Dev nD) : outs m j main_v53 c = o8 m c := by
  unfold outs; rw [dif_neg (by decide), dif_neg (by decide), dif_pos rfl]

/-- The contents before the second call read only the first call's result, and before the pooling call the first two. -/
theorem V2_outs (c : Dev nD) : V2 m (outs m) c = V2 m (outsA m) c := by
  show Function.update (V1 m c) main_v20 (outs m 2 main_v20 c) = Function.update (V1 m c) main_v20 (outsA m 2 main_v20 c)
  rw [outs_v20, outsA_v20]
theorem V3_outs (c : Dev nD) : V3 m (outs m) c = V3 m (outsA m) c := by
  show StableHlo.after hostOps1 (V2 m (outs m) c) = StableHlo.after hostOps1 (V2 m (outsA m) c)
  rw [V2_outs]
theorem V2_outsB (c : Dev nD) : V2 m (outs m) c = V2 m (outsB m) c := by
  show Function.update (V1 m c) main_v20 (outs m 2 main_v20 c) = Function.update (V1 m c) main_v20 (outsB m 2 main_v20 c)
  rw [outs_v20, outsB_v20]
theorem V4_outsB (c : Dev nD) : V4 m (outs m) c = V4 m (outsB m) c := by
  show Function.update (StableHlo.after hostOps1 (V2 m (outs m) c)) main_v31 (outs m 4 main_v31 c)
    = Function.update (StableHlo.after hostOps1 (V2 m (outsB m) c)) main_v31 (outsB m 4 main_v31 c)
  rw [V2_outsB, outs_v31, outsB_v31]
theorem V7_outs (c : Dev nD) : V7 m (outs m) c = V7 m (outsB m) c := by
  show StableHlo.after hostOps2_2 (StableHlo.after hostOps2_1 (StableHlo.after hostOps2 (V4 m (outs m) c)))
    = StableHlo.after hostOps2_2 (StableHlo.after hostOps2_1 (StableHlo.after hostOps2 (V4 m (outsB m) c)))
  rw [V4_outsB]

/-! ## The proof data family and what rides beside the buffers -/

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (rd (V1 m)) c
  | ⟨1, _⟩ => fun c => dat1 (rd (V3 m (outsA m))) c
  | ⟨2, _⟩ => fun c => dat2 (rd (V7 m (outsB m))) c

abbrev 𝒱₀ : Variants := Variants.none
abbrev L : GSem nD τ sig → Finset Unit := fun _ => ∅
abbrev lv : GSem nD τ sig → Unit → ℕ := fun _ _ => 0

/-- What rides beside the buffers through every segment: the generator register at some state, and nothing owed. -/
abbrev Rr (c : Dev nD) : sProp 𝕄 := iprop((∃ r, prngReg c r) ∗ ∃ W, owes (c : Thread nD τ) (0 : CellTallies nD τ sig Unit) W)

end Cert.Kernel.Hand

end
-- ==== Proof.K.Exits.lean ====
/-
  Each call's arrays at its exit: the call's result array holds what the pipeline's write-backs leave, its input arrays
  what they held at entry (the pipeline writes no input back), and every buffer that is no array of the call what it held.
-/
import proofs.«407611_j90099823935523_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Each call's arrays at its exit -/

/-- An input window of call 0: the pipeline never writes it back, so at the call's exit its array holds what the call
    found there; and the call's one update, at its result array, leaves every other reference as it was. -/
private theorem in0 (c : Dev nD) (w : Fin cfg0.W) (hin : (cfg0.win w).isOut = false)
    (hne : Pipeline.arrRef spec0 w ∉ ([main_v20] : List (Ref sig .tc))) :
    (pdats m 0 c).arrAt w cfg0.N = rd (V2 m (outs m)) c (Pipeline.arrRef spec0 w) := by
  have h1 : (pdats m 0 c).arrAt w cfg0.N = V1 m c (Pipeline.arrRef spec0 w) :=
    ((dat0 (rd (V1 m)) c).arrAt_in w hin _).trans (A_eq0 (rd (V1 m)) c w)
  have h2 : rd (V2 m (outs m)) c (Pipeline.arrRef spec0 w) = V1 m c (Pipeline.arrRef spec0 w) :=
    V2_of m (outs m) c _ hne
  rw [h1, h2]

/-- After the first call each of its arrays holds what the pipeline leaves, and every other buffer what it held. -/
theorem hF0 (c : Dev nD) (w : Fin cfg0.W) : (pdats m 0 c).arrAt w cfg0.N = rd (V2 m (outs m)) c (Pipeline.arrRef spec0 w) := by
  match w with
  | ⟨0, _⟩ => exact in0 m c 0 rfl (by decide)
  | ⟨1, _⟩ => exact in0 m c 1 rfl (by decide)
  | ⟨2, _⟩ => exact in0 m c 2 rfl (by decide)
  | ⟨3, _⟩ => exact in0 m c 3 rfl (by decide)
  | ⟨4, _⟩ => exact in0 m c 4 rfl (by decide)
  | ⟨5, _⟩ =>
    show (dat0 (rd (V1 m)) c).arrAt 5 cfg0.N = Function.update (V1 m c) main_v20 (outs m 2 main_v20 c) main_v20
    rw [Function.update_self, outs_v20]
    rfl
theorem hrest0 (c : Dev nD) : ∀ b, b ∉ Finset.univ.image (Pipeline.arrRef spec0) → rd (V2 m (outs m)) c b = rd (V1 m) c b := by
  intro b hb
  have hne : b ∉ ([main_v20] : List (Ref sig .tc)) := fun hmem =>
    hb (Finset.mem_image.mpr ⟨5, Finset.mem_univ _, (List.mem_singleton.mp hmem).symm⟩)
  have h2 : rd (V2 m (outs m)) c b = V1 m c b := V2_of m (outs m) c b hne
  rw [h2]

/-- An input window of call 1: the pipeline never writes it back, so at the call's exit its array holds what the call
    found there; and the call's one update, at its result array, leaves every other reference as it was. -/
private theorem in1 (c : Dev nD) (w : Fin cfg1.W) (hin : (cfg1.win w).isOut = false)
    (hne : Pipeline.arrRef spec1 w ∉ ([main_v31] : List (Ref sig .tc))) :
    (pdats m 1 c).arrAt w cfg1.N = rd (V4 m (outs m)) c (Pipeline.arrRef spec1 w) := by
  have h1 : (pdats m 1 c).arrAt w cfg1.N = V3 m (outsA m) c (Pipeline.arrRef spec1 w) :=
    ((dat1 (rd (V3 m (outsA m))) c).arrAt_in w hin _).trans (A_eq1 (rd (V3 m (outsA m))) c w)
  have h2 : rd (V4 m (outs m)) c (Pipeline.arrRef spec1 w) = V3 m (outs m) c (Pipeline.arrRef spec1 w) :=
    V4_of m (outs m) c _ hne
  rw [h1, h2, V3_outs]

theorem hF1 (c : Dev nD) (w : Fin cfg1.W) : (pdats m 1 c).arrAt w cfg1.N = rd (V4 m (outs m)) c (Pipeline.arrRef spec1 w) := by
  match w with
  | ⟨0, _⟩ => exact in1 m c 0 rfl (by decide)
  | ⟨1, _⟩ => exact in1 m c 1 rfl (by decide)
  | ⟨2, _⟩ => exact in1 m c 2 rfl (by decide)
  | ⟨3, _⟩ => exact in1 m c 3 rfl (by decide)
  | ⟨4, _⟩ => exact in1 m c 4 rfl (by decide)
  | ⟨5, _⟩ =>
    show (dat1 (rd (V3 m (outsA m))) c).arrAt 5 cfg1.N = Function.update (V3 m (outs m) c) main_v31 (outs m 4 main_v31 c) main_v31
    rw [Function.update_self, outs_v31]
    rfl
theorem hrest1 (c : Dev nD) : ∀ b, b ∉ Finset.univ.image (Pipeline.arrRef spec1) → rd (V4 m (outs m)) c b = rd (V3 m (outsA m)) c b := by
  intro b hb
  have hne : b ∉ ([main_v31] : List (Ref sig .tc)) := fun hmem =>
    hb (Finset.mem_image.mpr ⟨5, Finset.mem_univ _, (List.mem_singleton.mp hmem).symm⟩)
  have h2 : rd (V4 m (outs m)) c b = V3 m (outs m) c b := V4_of m (outs m) c b hne
  rw [h2, V3_outs]

/-- An input window of call 2: the pipeline never writes it back, so at the call's exit its array holds what the call
    found there; and the call's one update, at its result array, leaves every other reference as it was. -/
private theorem in2 (c : Dev nD) (w : Fin cfg2.W) (hin : (cfg2.win w).isOut = false)
    (hne : Pipeline.arrRef spec2 w ∉ ([main_v53] : List (Ref sig .tc))) :
    (pdats m 2 c).arrAt w cfg2.N = rd (V8 m (outs m)) c (Pipeline.arrRef spec2 w) := by
  have h1 : (pdats m 2 c).arrAt w cfg2.N = V7 m (outsB m) c (Pipeline.arrRef spec2 w) :=
    ((dat2 (rd (V7 m (outsB m))) c).arrAt_in w hin _).trans (A_eq2 (rd (V7 m (outsB m))) c w)
  have h2 : rd (V8 m (outs m)) c (Pipeline.arrRef spec2 w) = V7 m (outs m) c (Pipeline.arrRef spec2 w) :=
    V8_of m (outs m) c _ hne
  rw [h1, h2, V7_outs]

theorem hF2 (c : Dev nD) (w : Fin cfg2.W) : (pdats m 2 c).arrAt w cfg2.N = rd (V8 m (outs m)) c (Pipeline.arrRef spec2 w) := by
  match w with
  | ⟨0, _⟩ => exact in2 m c 0 rfl (by decide)
  | ⟨1, _⟩ => exact in2 m c 1 rfl (by decide)
  | ⟨2, _⟩ => exact in2 m c 2 rfl (by decide)
  | ⟨3, _⟩ => exact in2 m c 3 rfl (by decide)
  | ⟨4, _⟩ => exact in2 m c 4 rfl (by decide)
  | ⟨5, _⟩ =>
    show (dat2 (rd (V7 m (outsB m))) c).arrAt 5 cfg2.N = Function.update (V7 m (outs m) c) main_v53 (outs m 8 main_v53 c) main_v53
    rw [Function.update_self, outs_v53]
    rfl
theorem hrest2 (c : Dev nD) : ∀ b, b ∉ Finset.univ.image (Pipeline.arrRef spec2) → rd (V8 m (outs m)) c b = rd (V7 m (outsB m)) c b := by
  intro b hb
  have hne : b ∉ ([main_v53] : List (Ref sig .tc)) := fun hmem =>
    hb (Finset.mem_image.mpr ⟨5, Finset.mem_univ _, (List.mem_singleton.mp hmem).symm⟩)
  have h2 : rd (V8 m (outs m)) c b = V7 m (outs m) c b := V8_of m (outs m) c b hne
  rw [h2, V7_outs]

end Cert.Kernel.Hand

end
-- ==== Proof.K.Run.lean ====
/-
  The whole program as one run, at any float instance: each call as a segment of the program over the thread state
  "every unscoped buffer at the boundary's contents, the generator register at some state, nothing owed", and the run —
  every weakly fair execution terminates, nothing faulting, with the result buffer at what the pooling call leaves and
  every argument array as launched.
-/
import proofs.«407611_j90099823935523_1_alg».proof.Proof.K.Chain
import proofs.«407611_j90099823935523_1_alg».proof.Proof.K.Exits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The calls as segments -/

set_option backward.isDefEq.respectTransparency.types false in
/-- Call 0 as a segment of the program: entered with every unscoped buffer at the contents before it, left with the
    same buffers, the call's result array now at what the call's write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (V1 m)) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (rd (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (V1 m) c) (rd (V2 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of the program: entered with every unscoped buffer at the contents before it, left with the
    same buffers, the call's result array now at what the call's write-backs leave. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (V3 m (outsA m))) c).loose
  hwaits := Pipeline.hwaits_of_owed_zero _ _ _ _ L lv 1 fun _ _ => rfl
  pre c := iprop(StableHlo.held (c : Thread nD τ) (Pipeline.ucRefs τ sig) (V3 m (outsA m) c) ∗ Rr c)
  post c := iprop(StableHlo.held (c : Thread nD τ) (Pipeline.ucRefs τ sig) (V4 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (rd (V3 m (outsA m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (V3 m (outsA m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (V3 m (outsA m)) c) (rd (V4 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment of the program: entered with every unscoped buffer at the contents before it, left with the
    same buffers, the call's result array now at what the call's write-backs leave. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (V7 m (outsB m))) c).loose
  hwaits := Pipeline.hwaits_of_owed_zero _ _ _ _ L lv 2 fun _ _ => rfl
  pre c := iprop(StableHlo.held (c : Thread nD τ) (Pipeline.ucRefs τ sig) (V7 m (outsB m) c) ∗ Rr c)
  post c := iprop(StableHlo.held (c : Thread nD τ) (Pipeline.ucRefs τ sig) (V8 m (outs m) c) ∗ Rr c)
  X c := iprop(∃ r, prngReg c r)
  Y c := iprop(∃ r, prngReg c r)
  Z c := Pipeline.unscopedRest (Ix := Unit) (Name := ℕ) (U := UR sig nD τ) (Lvl := ℕ) spec2 c (rd (V7 m (outsB m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (V7 m (outsB m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : (_ : sProp 𝕄) ⊢ Pipeline.ΦA spec2 c).trans (hin2 (rd (V7 m (outsB m))) c)
    unfold Pipeline.ΦA
    iintro ⟨Hp, -, Hr⟩
    isplitl [Hr]; · iexact Hr
    iexact Hp
  hout c := by
    rw [Pipeline.ownSems0_none]
    refine (hout2 (rd (V7 m (outsB m))) c).trans (?_ : (Pipeline.ΦA spec2 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (V7 m (outsB m)) c) (rd (V8 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The result buffer after the last segment holds what the pooling call leaves. -/
theorem V8_v53 (c : Dev nD) : V8 m (outs m) c main_v53 = o8 m c := by
  show Function.update (V7 m (outs m) c) main_v53 (outs m 8 main_v53 c) main_v53 = o8 m c
  rw [Function.update_self, outs_v53]

/-- What rides beside the buffers ends owing nothing. -/
theorem hE3 (c : Dev nD) : (Rr (F := F) c) ⊢ (iprop(∃ W, owes (c : Thread nD τ) (0 : CellTallies nD τ sig Unit) W) : sProp 𝕄) := by
  iintro ⟨-, H⟩
  iexact H

set_option backward.isDefEq.respectTransparency.types false in
/-- THE RUN: every weakly fair execution of the program from memory `m` with zero counters terminates, nothing
    faulting, with the result buffer at what the pooling call leaves and every argument array as launched. -/
theorem run_main : θ_run defs (onTc (τ := τ) (main (F := F))) ⟨m, fun _ => 0, ρ⟩ (fun r => ∀ c : Dev nD,
      r.2.mem ((c.tc : Thread nD τ).loc main_v53) = o8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm (pdats m) () cellOf_inj emb₁ defs₀ 𝒱₀ L lv m ρ main
    (segs m (outs m) 𝒱₀ L lv (fun _ c => Rr c) () (pdats m) (reg0 m) (reg1 m) (reg2 m))
    (fun c Q => by
      rewrite [main_chain c, Seg.run_eq_chain,
        show (segs m (outs m) 𝒱₀ L lv (fun _ c => Rr c) () (pdats m) (reg0 m) (reg1 m) (reg2 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => StableHlo.held (c : Thread nD τ) (Pipeline.ucRefs τ sig) (V8 m (outs m) c))
    (hch := fun c => ⟨.rfl, .rfl, .rfl,
      (by
        show iprop(StableHlo.held (c : Thread nD τ) (Pipeline.ucRefs τ sig) (V3 m (outs m) c) ∗ Rr c)
          ⊢ (iprop(StableHlo.held (c : Thread nD τ) (Pipeline.ucRefs τ sig) (V3 m (outsA m) c) ∗ Rr c) : sProp 𝕄)
        rw [V3_outs]),
      .rfl, .rfl, .rfl,
      (by
        show iprop(StableHlo.held (c : Thread nD τ) (Pipeline.ucRefs τ sig) (V7 m (outs m) c) ∗ Rr c)
          ⊢ (iprop(StableHlo.held (c : Thread nD τ) (Pipeline.ucRefs τ sig) (V7 m (outsB m) c) ∗ Rr c) : sProp 𝕄)
        rw [V7_outs]),
      sep_mono .rfl (hE3 c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v53) = o8 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10))
    (hfin := fun c s' => ?_) (hQ := fun _ h => h)
  -- the end: the result buffer and each argument's buffer read off the last valuation
  unfold StableHlo.held
  iintro ⟨Hh, HSI⟩
  ihave Hr := (pointsTo_read_all (Pipeline.ucRefs τ sig) (fun b => ((c : Thread nD τ).1, b)) (V8 m (outs m) c) s') $$ [Hh HSI]
  · isplitl [Hh] <;> iassumption
  icases Hr with ⟨%h, HSI⟩
  imodintro
  isplitr
  · ipureintro
    exact ⟨(h (Proc.devRef .tc main_v53) (Finset.mem_filter.mpr ⟨StableHlo.devRef_mem_tcRefs main_v53, by decide⟩)).trans (V8_v53 m c),
      (h (Proc.devRef .tc main_arg0) (Finset.mem_filter.mpr ⟨StableHlo.devRef_mem_tcRefs main_arg0, by decide⟩)).trans (V8_main_arg0 m (outs m) c),
      (h (Proc.devRef .tc main_arg1) (Finset.mem_filter.mpr ⟨StableHlo.devRef_mem_tcRefs main_arg1, by decide⟩)).trans (V8_main_arg1 m (outs m) c),
      (h (Proc.devRef .tc main_arg2) (Finset.mem_filter.mpr ⟨StableHlo.devRef_mem_tcRefs main_arg2, by decide⟩)).trans (V8_main_arg2 m (outs m) c),
      (h (Proc.devRef .tc main_arg3) (Finset.mem_filter.mpr ⟨StableHlo.devRef_mem_tcRefs main_arg3, by decide⟩)).trans (V8_main_arg3 m (outs m) c),
      (h (Proc.devRef .tc main_arg4) (Finset.mem_filter.mpr ⟨StableHlo.devRef_mem_tcRefs main_arg4, by decide⟩)).trans (V8_main_arg4 m (outs m) c),
      (h (Proc.devRef .tc main_arg5) (Finset.mem_filter.mpr ⟨StableHlo.devRef_mem_tcRefs main_arg5, by decide⟩)).trans (V8_main_arg5 m (outs m) c),
      (h (Proc.devRef .tc main_arg6) (Finset.mem_filter.mpr ⟨StableHlo.devRef_mem_tcRefs main_arg6, by decide⟩)).trans (V8_main_arg6 m (outs m) c),
      (h (Proc.devRef .tc main_arg7) (Finset.mem_filter.mpr ⟨StableHlo.devRef_mem_tcRefs main_arg7, by decide⟩)).trans (V8_main_arg7 m (outs m) c),
      (h (Proc.devRef .tc main_arg8) (Finset.mem_filter.mpr ⟨StableHlo.devRef_mem_tcRefs main_arg8, by decide⟩)).trans (V8_main_arg8 m (outs m) c),
      (h (Proc.devRef .tc main_arg9) (Finset.mem_filter.mpr ⟨StableHlo.devRef_mem_tcRefs main_arg9, by decide⟩)).trans (V8_main_arg9 m (outs m) c),
      (h (Proc.devRef .tc main_arg10) (Finset.mem_filter.mpr ⟨StableHlo.devRef_mem_tcRefs main_arg10, by decide⟩)).trans (V8_main_arg10 m (outs m) c)⟩
  · iexact HSI

/-- THE FRAME: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_main m ρ)

end Cert.Kernel.Hand

end
-- ==== Proof.KI.Conv0.lean ====
/-
  The first convolution call (pipeline 0), at any float instance and at ANY contents `V` of the core's buffers when the
  call is entered.  Over a grid of 20 points the call stages rows 5000·t … 5000·t + 4999 of the node features and of the
  aggregated features, the two 128 × 128 weight matrices and the bias row whole, and writes back rows 5000·t … of the
  result.  Here: each window's block at a point, what the body leaves in the output block as one function of the five
  input blocks, the pipeline's proof data, and the body's obligation at every point.
-/
import proofs.«407611_j90099823935523_1_alg».proof.Proof.Gen.KernelIdeal.Launch
import proofs.«407611_j90099823935523_1_alg».proof.Proof.Gen.KernelIdeal.Skeleton
import proofs.«407611_j90099823935523_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 5000 × 128 block, the whole 128 × 128 matrix, the whole 1 × 128 row: what the body loads and stores. -/
abbrev rRows0 : Rect S5000x128 := Rect.unit (s := S5000x128) ![0, 0] S5000x128.size inb_S5000x128_S5000x128_0_0
abbrev rMat0 : Rect S128x128 := Rect.unit (s := S128x128) ![0, 0] S128x128.size inb_S128x128_S128x128_0_0
abbrev rRow0 : Rect S1x128 := Rect.unit (s := S1x128) ![0, 0] S1x128.size inb_S1x128_S1x128_0_0

/-- The output block after the body, from the five input blocks: its one store, of the whole block. -/
def out0_5 (x0 x1 : Vec F S5000x128 .f32) (x2 x3 : Vec F S128x128 .f32) (x4 : Vec F S1x128 .f32) : Vec F S5000x128 .f32 :=
  View.canon [⟨rRows0, k0_pay1 (View.ld x0 rRows0) (View.ld x1 rRows0) (View.ld x2 rMat0) (View.ld x3 rMat0) (View.ld x4 rRow0)⟩]

/-- The offsets `![0, 0]` are the zero offsets, axis by axis. -/
private theorem c0_hz : (![0, 0] : Fin 2 → Nat) = fun _ => 0 := funext fun a => by fin_cases a <;> rfl

/-- The store covers the block and each load reads a whole block: the output block IS the body's arithmetic of the five blocks. -/
theorem out0_5_eq (x0 x1 : Vec F S5000x128 .f32) (x2 x3 : Vec F S128x128 .f32) (x4 : Vec F S1x128 .f32) :
    out0_5 x0 x1 x2 x3 x4 = k0_pay1 x0 x1 x2 x3 x4 := by
  unfold out0_5
  rw [View.canon_unit_zero (S := S5000x128) c0_hz]
  simp only [View.ld_unit_zero (S := S5000x128) c0_hz, View.ld_unit_zero (S := S128x128) c0_hz,
    View.ld_unit_zero (S := S1x128) c0_hz]

/-- The one store's rectangle is the whole block, so every index of the block lies in it. -/
private theorem cover0_5 (p0 : Vec F S5000x128 .f32) (y : S5000x128.Idx) :
    ∃ pc ∈ ([⟨rRows0, p0⟩] : List (View.Piece (Elt F) S5000x128 .f32)), y ∈ pc.1.set :=
  ⟨_, List.mem_singleton_self _, View.mem_set_unit_zero (S := S5000x128) c0_hz inb_S5000x128_S5000x128_0_0 y⟩

set_option maxHeartbeats 1000000 in
/-- The kernel body on whole staging buffers, the five inputs' at read contents `x0 … x4` and the output's at anything,
    runs to the continuation holding the inputs' as they were and the output's at `out0_5` of the inputs': its five
    loads read the inputs' contents, its load of the output buffer reads a value it never uses, and its one store
    covers the output buffer. -/
private theorem sound_kernel0 (c : Dev nD) (E : Set ℕ) (i : grid0.Coords)
    (arg0 : Memref sig .tc .vmem S5000x128 .f32) (harg0 : arg0.IsWhole)
    (arg1 : Memref sig .tc .vmem S5000x128 .f32) (harg1 : arg1.IsWhole)
    (arg2 : Memref sig .tc .vmem S128x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S5000x128 .f32) (harg5 : arg5.IsWhole)
    (x0 x1 : Vec F S5000x128 .f32) (x2 x3 : Vec F S128x128 .f32) (x4 : Vec F S1x128 .f32)
    (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4
            ∗ owns (c : Thread nD τ) arg5 fullShare (out0_5 x0 x1 x2 x3 x4)) -∗ K ⟨⟩))
      ⊢ wp frame (wpE (defs₀ (F := F)) Variants.none c none) E
          (cc0__graphconv_kernel i arg0 harg0 arg1 harg1 arg2 harg2 arg3 harg3 arg4 harg4 arg5 harg5) K := by
  simp only [cc0__graphconv_kernel_eq_skeleton]; unfold cc0__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The pipeline's proof data on core `c`: the arrays as the call finds them; after the body at point `t` each input's
    buffer at its block and the output's at `out0_5` of the input blocks; nothing kept between points; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

/-- What the body leaves in each input window's buffer: the block it found there. -/
private theorem after0_0 (c : Dev nD) (t : Fin cfg0.N) : (dat0 V c).after 0 t = iblk0 V c 0 t := by dsimp only [dat0]
private theorem after0_1 (c : Dev nD) (t : Fin cfg0.N) : (dat0 V c).after 1 t = iblk0 V c 1 t := by dsimp only [dat0]
private theorem after0_2 (c : Dev nD) (t : Fin cfg0.N) : (dat0 V c).after 2 t = iblk0 V c 2 t := by dsimp only [dat0]
private theorem after0_3 (c : Dev nD) (t : Fin cfg0.N) : (dat0 V c).after 3 t = iblk0 V c 3 t := by dsimp only [dat0]
private theorem after0_4 (c : Dev nD) (t : Fin cfg0.N) : (dat0 V c).after 4 t = iblk0 V c 4 t := by dsimp only [dat0]

/-- Each input's current staging buffer holds its block at every point, fetched there or not: an input not fetched
    at a point has the block index of the point before, and the body left that block in place. -/
private theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
private theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
private theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
private theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
private theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- What the body is called with at point `t`: the invariant, the core's debts, and each window's current staging
    buffer at what the pipeline left there, -/
private def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the same invariant and debts, and each buffer at what the proof data says the body leaves. -/
private def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the five inputs' buffers hold their blocks, so the body's triple applies; the invariant and
    the core's debts pass through unread. -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation at every point of the grid. -/
theorem body_obligation0 (c : Dev nD) : BodyObligation (dat0 (F := F) V c) (defs₀ (F := F)) Variants.none () Set.univ := by
  intro t
  rw [bigSep_W0, bigSep_W0]
  exact sound_body0 V c t

end Cert.KernelIdeal.Hand

end
-- ==== Proof.KI.Conv1.lean ====
/-
  The second convolution call (pipeline 1), at any float instance and at ANY contents `V` of the core's buffers when the
  call is entered.  Over a grid of 20 points the call stages rows 5000·t … 5000·t + 4999 of the node features and of the
  aggregated features, the two 128 × 128 weight matrices and the bias row whole, and writes back rows 5000·t … of the
  result.  Here: each window's block at a point, what the body leaves in the output block as one function of the five
  input blocks, the pipeline's proof data, and the body's obligation at every point.
-/
import proofs.«407611_j90099823935523_1_alg».proof.Proof.Gen.KernelIdeal.Launch
import proofs.«407611_j90099823935523_1_alg».proof.Proof.Gen.KernelIdeal.Skeleton
import proofs.«407611_j90099823935523_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 5000 × 128 block, the whole 128 × 128 matrix, the whole 1 × 128 row: what the body loads and stores. -/
abbrev rRows1 : Rect S5000x128 := Rect.unit (s := S5000x128) ![0, 0] S5000x128.size inb_S5000x128_S5000x128_0_0
abbrev rMat1 : Rect S128x128 := Rect.unit (s := S128x128) ![0, 0] S128x128.size inb_S128x128_S128x128_0_0
abbrev rRow1 : Rect S1x128 := Rect.unit (s := S1x128) ![0, 0] S1x128.size inb_S1x128_S1x128_0_0

/-- The output block after the body, from the five input blocks: its one store, of the whole block. -/
def out1_5 (x0 x1 : Vec F S5000x128 .f32) (x2 x3 : Vec F S128x128 .f32) (x4 : Vec F S1x128 .f32) : Vec F S5000x128 .f32 :=
  View.canon [⟨rRows1, k1_pay1 (View.ld x0 rRows1) (View.ld x1 rRows1) (View.ld x2 rMat1) (View.ld x3 rMat1) (View.ld x4 rRow1)⟩]

/-- The offsets `![0, 0]` are the zero offsets, axis by axis. -/
private theorem c1_hz : (![0, 0] : Fin 2 → Nat) = fun _ => 0 := funext fun a => by fin_cases a <;> rfl

/-- The store covers the block and each load reads a whole block: the output block IS the body's arithmetic of the five blocks. -/
theorem out1_5_eq (x0 x1 : Vec F S5000x128 .f32) (x2 x3 : Vec F S128x128 .f32) (x4 : Vec F S1x128 .f32) :
    out1_5 x0 x1 x2 x3 x4 = k1_pay1 x0 x1 x2 x3 x4 := by
  unfold out1_5
  rw [View.canon_unit_zero (S := S5000x128) c1_hz]
  simp only [View.ld_unit_zero (S := S5000x128) c1_hz, View.ld_unit_zero (S := S128x128) c1_hz,
    View.ld_unit_zero (S := S1x128) c1_hz]

/-- The one store's rectangle is the whole block, so every index of the block lies in it. -/
private theorem cover1_5 (p0 : Vec F S5000x128 .f32) (y : S5000x128.Idx) :
    ∃ pc ∈ ([⟨rRows1, p0⟩] : List (View.Piece (Elt F) S5000x128 .f32)), y ∈ pc.1.set :=
  ⟨_, List.mem_singleton_self _, View.mem_set_unit_zero (S := S5000x128) c1_hz inb_S5000x128_S5000x128_0_0 y⟩

set_option maxHeartbeats 1000000 in
/-- The kernel body on whole staging buffers, the five inputs' at read contents `x0 … x4` and the output's at anything,
    runs to the continuation holding the inputs' as they were and the output's at `out1_5` of the inputs': its five
    loads read the inputs' contents, its load of the output buffer reads a value it never uses, and its one store
    covers the output buffer. -/
private theorem sound_kernel1 (c : Dev nD) (E : Set ℕ) (i : grid1.Coords)
    (arg0 : Memref sig .tc .vmem S5000x128 .f32) (harg0 : arg0.IsWhole)
    (arg1 : Memref sig .tc .vmem S5000x128 .f32) (harg1 : arg1.IsWhole)
    (arg2 : Memref sig .tc .vmem S128x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S5000x128 .f32) (harg5 : arg5.IsWhole)
    (x0 x1 : Vec F S5000x128 .f32) (x2 x3 : Vec F S128x128 .f32) (x4 : Vec F S1x128 .f32)
    (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E
          (cc1__graphconv_kernel i arg0 harg0 arg1 harg1 arg2 harg2 arg3 harg3 arg4 harg4 arg5 harg5) K := by
  simp only [cc1__graphconv_kernel_eq_skeleton]; unfold cc1__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The pipeline's proof data on core `c`: the arrays as the call finds them; after the body at point `t` each input's
    buffer at its block and the output's at `out1_5` of the input blocks; nothing kept between points; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-- What the body leaves in each input window's buffer: the block it found there. -/
private theorem after1_0 (c : Dev nD) (t : Fin cfg1.N) : (dat1 V c).after 0 t = iblk1 V c 0 t := by dsimp only [dat1]
private theorem after1_1 (c : Dev nD) (t : Fin cfg1.N) : (dat1 V c).after 1 t = iblk1 V c 1 t := by dsimp only [dat1]
private theorem after1_2 (c : Dev nD) (t : Fin cfg1.N) : (dat1 V c).after 2 t = iblk1 V c 2 t := by dsimp only [dat1]
private theorem after1_3 (c : Dev nD) (t : Fin cfg1.N) : (dat1 V c).after 3 t = iblk1 V c 3 t := by dsimp only [dat1]
private theorem after1_4 (c : Dev nD) (t : Fin cfg1.N) : (dat1 V c).after 4 t = iblk1 V c 4 t := by dsimp only [dat1]

/-- Each input's current staging buffer holds its block at every point, fetched there or not: an input not fetched
    at a point has the block index of the point before, and the body left that block in place. -/
private theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
private theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
private theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
private theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
private theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- What the body is called with at point `t`: the invariant, the core's debts, and each window's current staging
    buffer at what the pipeline left there, -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the same invariant and debts, and each buffer at what the proof data says the body leaves. -/
private def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the five inputs' buffers hold their blocks, so the body's triple applies; the invariant and
    the core's debts pass through unread. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation at every point of the grid. -/
theorem body_obligation1 (c : Dev nD) : BodyObligation (dat1 (F := F) V c) (defs₀ (F := F)) Variants.none () Set.univ := by
  intro t
  rw [bigSep_W1, bigSep_W1]
  exact sound_body1 V c t

end Cert.KernelIdeal.Hand

end
-- ==== Proof.KI.Pool.lean ====
/-
  The pooling call (pipeline 2), at any float instance and at ANY contents `V` of the core's buffers when the call is
  entered.  Over a grid of 20 points the call stages rows 5000·t … 5000·t + 4999 of the label indicator (5000 × 64) and
  of the node features (5000 × 128); the counts column, the head's matrix and its bias row whole; and one 64 × 16 result
  block, written back after the last point only.  A 64 × 128 scratch carries the running sum: zeroed at the first
  point, at every point increased by (indicator block)ᵀ · (feature block); at the last point the body divides it by
  the counts (at least one), multiplies by the head's matrix, adds the bias and stores the result block.
  Here: each window's block at a point, the running sum after each point, the result block, the invariant that carries
  the scratch between points, the pipeline's proof data, and the body's obligation at every point.
-/
import proofs.«407611_j90099823935523_1_alg».proof.Proof.Gen.KernelIdeal.Launch
import proofs.«407611_j90099823935523_1_alg».proof.Proof.Gen.KernelIdeal.Skeleton
import proofs.«407611_j90099823935523_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- THE RUNNING SUM: what the scratch holds after the body at point `n` — zero plus the first product at the first
    point, the sum so far plus this point's product afterwards. -/
def accAt2 (c : Dev nD) : (n : ℕ) → n < cfg2.N → Vec F S64x128 .f32
  | 0, h => k2_pay2 (iblk2 V c 0 ⟨0, h⟩) (iblk2 V c 1 ⟨0, h⟩) (k2_pay1 (F := F))
  | n + 1, h => k2_pay2 (iblk2 V c 0 ⟨n + 1, h⟩) (iblk2 V c 1 ⟨n + 1, h⟩) (accAt2 c n (Nat.lt_of_succ_lt h))

/-- The result block as the body stores it at point `t` (it does so at the last point): the running sum after `t`
    divided by the counts, through the head. -/
def outAt2 (c : Dev nD) (t : Fin cfg2.N) : Vec F S64x16 .f32 :=
  k2_pay3 (iblk2 V c 2 t) (accAt2 V c t.val t.isLt) (iblk2 V c 3 t) (iblk2 V c 4 t)

/-- The scratch operand: a whole scoped buffer of the call's own. -/
abbrev scM2 : Memref sig .tc .vmem S64x128 .f32 := Memref.whole cc2_scratch0

/-- The core's scoped buffers that this call neither stages nor uses as scratch, each whole at some contents. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f))

/-- The invariant before position `n`: before the first point every scoped buffer the call does not stage at
    anything and the generator register at some state; afterwards the same with the scratch at the running sum the
    point before left. -/
def PhiS2 (c : Dev nD) : (n : ℕ) → n ≤ cfg2.N → sProp 𝕄
  | 0, _ => Pipeline.ΦA spec2 c
  | n + 1, hn => iprop(owns (c : Thread nD τ) scM2 fullShare (accAt2 V c n hn) ∗ others2 (F := F) c ∗ (∃ r, prngReg c r))

/-- The invariant with the scratch split off. -/
theorem PhiA2_eq (c : Dev nD) :
    (Pipeline.ΦA spec2 c : sProp 𝕄) = iprop((∃ d, owns (c : Thread nD τ) scM2 fullShare d) ∗ others2 (F := F) c ∗ (∃ r, prngReg c r)) := by
  unfold Pipeline.ΦA; rw [scopedRest2_eq]; unfold others2; simp only [scM2, owns_whole]
  refine BI.equiv_iff.mp ⟨show (_ : sProp 𝕄) ⊢ (_ : sProp 𝕄) from ?_, show (_ : sProp 𝕄) ⊢ (_ : sProp 𝕄) from ?_⟩
  · iintro ⟨⟨H1, H2, H3, H4, H5, H6, H7, H8, H9, H10, H11, H12, H13, H14, H15, H16, H17, H18, HS⟩, Hg⟩
    isplitl [HS]; · iexact HS
    isplitr [Hg]
    swap; · iexact Hg
    iframe
  · iintro ⟨HS, ⟨H1, H2, H3, H4, H5, H6, H7, H8, H9, H10, H11, H12, H13, H14, H15, H16, H17, H18⟩, Hg⟩
    isplitr [Hg]
    swap; · iexact Hg
    iframe

/-- Before the first point the invariant is the call's own. -/
theorem PhiS2_zero (c : Dev nD) (n : ℕ) (h : n ≤ cfg2.N) (hz : n = 0) : PhiS2 V c n h = Pipeline.ΦA spec2 c := by
  subst hz; rfl

/-- After point `n` (before point `n + 1`): the scratch at the running sum after `n`. -/
theorem PhiS2_succ (c : Dev nD) (n : ℕ) (hn : n < cfg2.N) :
    PhiS2 V c (n + 1) hn = iprop(owns (c : Thread nD τ) scM2 fullShare (accAt2 V c n hn) ∗ others2 (F := F) c ∗ (∃ r, prngReg c r)) := rfl

/-- Before a point that is not the first: the scratch at the running sum the point before left. -/
theorem PhiS2_pos (c : Dev nD) (n : ℕ) (h : n ≤ cfg2.N) (hz : n ≠ 0) :
    PhiS2 V c n h = iprop(owns (c : Thread nD τ) scM2 fullShare (accAt2 V c (n - 1) (by omega)) ∗ others2 (F := F) c ∗ (∃ r, prngReg c r)) := by
  cases n with
  | zero => exact absurd rfl hz
  | succ n => rfl

/-- The pipeline's proof data on core `c`: the arrays as the call finds them; after the body at point `t` each input's
    buffer at its block and the result's at `outAt2`; the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) : (dat2 V c).after 5 t = outAt2 V c t := by
  dsimp only [dat2]

/-- After any point but the first the invariant gives the call's own back: the running sum's value is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HS, Ho, Hg⟩
  isplitl [HS]
  · iexists _; iexact HS
  isplitl [Ho]; · iexact Ho
  iexact Hg

/-! ## The body's two conditions, decided over the grid -/

/-- The first conditional's test, from the grid coordinates: the point is the first. -/
abbrev cond2_0 (i : grid2.Coords) : Prop := (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val % 20 = 0 :=
  (by decide +kernel : ∀ t : Fin grid2.N, cond2_0 (grid2.coords t) ↔ t.val % 20 = 0)

/-- The second conditional's test: the point is the last. -/
abbrev cond2_1 (i : grid2.Coords) : Prop := k2_cond2 i = 1#1
/-- It holds at point 19 only. -/
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

/-- The five inputs are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
/-- Away from the last point the result window is idle: the body stores nothing into it, -/
theorem idleAt2_5 : ∀ t : Fin cfg2.N, ¬cond2_1 (grid2.coords t) → cfg2.idle 5 (grid2.coords t) = true := by decide +kernel
/-- and its block is not written back there. -/
theorem noFlush2_5 : ∀ t : Fin cfg2.N, ¬cond2_1 (grid2.coords t) → (cfg2.win 5).flush t = false := by decide +kernel
/-- At the last point it is live: the body stores the result block. -/
theorem liveAt2_5 : ∀ t : Fin cfg2.N, cond2_1 (grid2.coords t) → cfg2.idle 5 (grid2.coords t) = false := by decide +kernel

/-! ## The staging memrefs at a point, and what the inputs' hold -/

/-- Each window's current staging memref at point `t`, spelled as the pipeline passes it, and its wholeness. -/
abbrev ms2_0 (t : Fin cfg2.N) : Memref sig .tc .vmem S5000x64 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x16 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x16 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S64x16 .f32 := win2_5.stage (cfg2.slots t 5)
abbrev hs2_5 (t : Fin cfg2.N) : (ms2_5 t).IsWhole := hstage2_5 ((cfg2.slots t 5).cast nbuf2_5)

/-- What the body leaves in each input's buffer: its block (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]

/-- Each input's current staging buffer holds its block at every point, fetched there or not: an input not fetched
    at a point has the block index of the point before, and the body left that block in place. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- The running sum at the first point: the first product over zero. -/
theorem accAt2_first (c : Dev nD) (t : Fin cfg2.N) (hz : t.val = 0) :
    accAt2 V c t.val t.isLt = k2_pay2 (iblk2 V c 0 t) (iblk2 V c 1 t) (k2_pay1 (F := F)) := by
  obtain ⟨n, hn⟩ := t
  cases n with
  | zero => rfl
  | succ n => exact absurd hz (Nat.succ_ne_zero n)

/-- The running sum at a later point: this point's product over the sum the point before left. -/
theorem accAt2_next (c : Dev nD) (t : Fin cfg2.N) (hz : t.val ≠ 0) :
    accAt2 V c t.val t.isLt = k2_pay2 (iblk2 V c 0 t) (iblk2 V c 1 t) (accAt2 V c (t.val - 1) (Nat.lt_of_le_of_lt (Nat.sub_le _ _) t.isLt)) := by
  obtain ⟨n, hn⟩ := t
  cases n with
  | zero => exact absurd rfl hz
  | succ n => rfl

/-! ## The body on whole memrefs, case by case -/

/-- The zero offsets of a whole-buffer rectangle, however spelt. -/
theorem hz2 : (![0, 0] : Fin 2 → Nat) = fun _ => 0 := funext fun a => by fin_cases a <;> rfl

set_option maxHeartbeats 1000000 in
/-- At the first point: the scratch, at anything, is zeroed and then holds the first product over zero; the two
    staged blocks are handed back as they were. -/
theorem runA2 (c : Dev nD) (i : grid2.Coords) (arg1 : Memref sig .tc .vmem S5000x64 .bf16) (harg1 : arg1.IsWhole) (arg2 : Memref sig .tc .vmem S5000x128 .f32) (harg2 : arg2.IsWhole) (arg3 : Memref sig .tc .vmem S64x1 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S64x16 .f32) (harg6 : arg6.IsWhole) (arg7 : Memref sig .tc .vmem S64x128 .f32) (harg7 : arg7.IsWhole)
    (hc0 : cond2_0 i) (hc1 : ¬cond2_1 i) (x0 : Vec F S5000x64 .bf16) (x1 : Vec F S5000x128 .f32) (E : Set ℕ) (K : PUnit → sProp 𝕄) :
    iprop(owns (c : Thread nD τ) arg1 fullShare x0 ∗ owns (c : Thread nD τ) arg2 fullShare x1 ∗ (∃ d, owns (c : Thread nD τ) arg7 fullShare d)
        ∗ (iprop(owns (c : Thread nD τ) arg1 fullShare x0 ∗ owns (c : Thread nD τ) arg2 fullShare x1
            ∗ owns (c : Thread nD τ) arg7 fullShare (k2_pay2 x0 x1 (k2_pay1 (F := F)))) -∗ K ⟨⟩))
      ⊢ wp frame (wpE (defs₀ (F := F)) Variants.none c none) E (cc2__pool_head_kernel i arg1 harg1 arg2 harg2 arg3 harg3 arg4 harg4 arg5 harg5 arg6 harg6 arg7 harg7) K := by
  simp only [cc2__pool_head_kernel_eq_skeleton]; unfold cc2__pool_head_kernel_skel
  unfold owns
  iintro ⟨⟨%f0, %hf0, H0⟩, ⟨%f1, %hf1, H1⟩, ⟨%ds0, %fs0, -, HS0⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  rw [View.read_writes_eq_canon _ _ _ (fun y => ⟨_, List.mem_cons.mpr (.inl rfl), View.mem_set_unit_zero hz2 inb_S64x128_S64x128_0_0 y⟩)]
  sl_unfold_words
  rw [View.canon_cons_unit_zero (S := S64x128) hz2, View.readCov_unit_zero (S := S64x128) _ hz2]
  simp only [View.readAt_eq_ld, harg1.read_unread, harg2.read_unread, View.ld_unit_zero (S := S5000x64) hz2, View.ld_unit_zero (S := S5000x128) hz2]

set_option maxHeartbeats 1000000 in
/-- At a point that is neither the first nor the last: the scratch, at `xs`, ends at `xs` plus this point's product;
    the two staged blocks are handed back as they were. -/
theorem runB2 (c : Dev nD) (i : grid2.Coords) (arg1 : Memref sig .tc .vmem S5000x64 .bf16) (harg1 : arg1.IsWhole) (arg2 : Memref sig .tc .vmem S5000x128 .f32) (harg2 : arg2.IsWhole) (arg3 : Memref sig .tc .vmem S64x1 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S64x16 .f32) (harg6 : arg6.IsWhole) (arg7 : Memref sig .tc .vmem S64x128 .f32) (harg7 : arg7.IsWhole)
    (hc0 : ¬cond2_0 i) (hc1 : ¬cond2_1 i) (x0 : Vec F S5000x64 .bf16) (x1 : Vec F S5000x128 .f32) (xs : Vec F S64x128 .f32) (E : Set ℕ) (K : PUnit → sProp 𝕄) :
    iprop(owns (c : Thread nD τ) arg1 fullShare x0 ∗ owns (c : Thread nD τ) arg2 fullShare x1 ∗ owns (c : Thread nD τ) arg7 fullShare xs
        ∗ (iprop(owns (c : Thread nD τ) arg1 fullShare x0 ∗ owns (c : Thread nD τ) arg2 fullShare x1
            ∗ owns (c : Thread nD τ) arg7 fullShare (k2_pay2 x0 x1 xs)) -∗ K ⟨⟩))
      ⊢ wp frame (wpE (defs₀ (F := F)) Variants.none c none) E (cc2__pool_head_kernel i arg1 harg1 arg2 harg2 arg3 harg3 arg4 harg4 arg5 harg5 arg6 harg6 arg7 harg7) K := by
  simp only [cc2__pool_head_kernel_eq_skeleton]; unfold cc2__pool_head_kernel_skel
  unfold owns
  iintro ⟨⟨%f0, %hf0, H0⟩, ⟨%f1, %hf1, H1⟩, ⟨%fs0, %hfs0, HS0⟩, Hk⟩
  obtain rfl := harg1.eq_unread hf0; obtain rfl := harg2.eq_unread hf1; obtain rfl := harg7.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  rw [View.read_writes_eq_canon _ _ _ (fun y => ⟨_, List.mem_cons.mpr (.inl rfl), View.mem_set_unit_zero hz2 inb_S64x128_S64x128_0_0 y⟩)]
  sl_unfold_words
  rw [View.canon_unit_zero (S := S64x128) hz2]
  simp only [View.readAt_eq_ld, harg1.read_unread, harg2.read_unread, harg7.read_unread, View.ld_unit_zero (S := S5000x64) hz2, View.ld_unit_zero (S := S5000x128) hz2, View.ld_unit_zero (S := S64x128) hz2]

set_option maxHeartbeats 1000000 in
/-- At the last point: the scratch, at `xs`, ends at `xs` plus this point's product, and the result block, at anything,
    ends at that sum divided by the counts and passed through the head; every staged input is handed back as it was. -/
theorem runC2 (c : Dev nD) (i : grid2.Coords) (arg1 : Memref sig .tc .vmem S5000x64 .bf16) (harg1 : arg1.IsWhole) (arg2 : Memref sig .tc .vmem S5000x128 .f32) (harg2 : arg2.IsWhole) (arg3 : Memref sig .tc .vmem S64x1 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S64x16 .f32) (harg6 : arg6.IsWhole) (arg7 : Memref sig .tc .vmem S64x128 .f32) (harg7 : arg7.IsWhole)
    (hc0 : ¬cond2_0 i) (hc1 : cond2_1 i) (x0 : Vec F S5000x64 .bf16) (x1 : Vec F S5000x128 .f32) (x2 : Vec F S64x1 .f32) (x3 : Vec F S128x16 .f32) (x4 : Vec F S1x16 .f32) (xs : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k2_pay3 x2 (k2_pay2 x0 x1 xs) x3 x4)
            ∗ owns (c : Thread nD τ) arg7 fullShare (k2_pay2 x0 x1 xs)) -∗ K ⟨⟩))
      ⊢ wp frame (wpE (defs₀ (F := F)) Variants.none c none) E (cc2__pool_head_kernel i arg1 harg1 arg2 harg2 arg3 harg3 arg4 harg4 arg5 harg5 arg6 harg6 arg7 harg7) K := by
  simp only [cc2__pool_head_kernel_eq_skeleton]; unfold cc2__pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [View.read_writes_eq_canon _ _ _ (fun y => ⟨_, List.mem_cons.mpr (.inl rfl), View.mem_set_unit_zero hz2 inb_S64x16_S64x16_0_0 y⟩)]
    sl_unfold_words
    rw [View.canon_unit_zero (S := S64x16) hz2]
    simp only [View.readAt_eq_ld, harg1.read_unread, harg2.read_unread, harg3.read_unread, harg4.read_unread, harg5.read_unread, harg7.read_unread,
      View.readCov_unit_zero (S := S64x128) _ hz2,
      View.ld_unit_zero (S := S5000x64) hz2, View.ld_unit_zero (S := S5000x128) hz2, View.ld_unit_zero (S := S64x128) hz2,
      View.ld_unit_zero (S := S64x1) hz2, View.ld_unit_zero (S := S128x16) hz2, View.ld_unit_zero (S := S1x16) hz2]
  iexists _; isplitr
  swap; · iexact HS0
  ipureintro
  sl_unfold_words
  rw [View.read_writes_eq_canon _ _ _ (fun y => ⟨_, List.mem_cons.mpr (.inl rfl), View.mem_set_unit_zero hz2 inb_S64x128_S64x128_0_0 y⟩)]
  rw [View.canon_unit_zero (S := S64x128) hz2]
  simp only [View.readAt_eq_ld, harg1.read_unread, harg2.read_unread, harg7.read_unread, View.ld_unit_zero (S := S5000x64) hz2, View.ld_unit_zero (S := S5000x128) hz2, View.ld_unit_zero (S := S64x128) hz2]

/-! ## The body obligation at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point. Every input's memref holds its block; the closed forms say which of the three cases the
    point is in. At the first point the invariant hands the scratch over at anything and takes it back at the first
    product over zero; at a later point it hands it over at the running sum the point before left and takes it back
    at this point's; the other scoped buffers and the generator register ride along. Away from the last point the
    result window is idle and its buffer is handed back untouched; at the last point it is left at the result
    block. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val % 20 = 0
  · -- the first point
    have hz : t.val = 0 := by omega
    have h1 : ¬t.val % 20 = 19 := by omega
    rw [Dat.leavesExact_idle (dat2 V c) 5 t (idleAt2_5 t (fun h => h1 ((hcond2_1 t).mp h))) (noFlush2_5 t (fun h => h1 ((hcond2_1 t).mp h)))]
    rw [PhiS2_castSucc V c t, PhiS2_zero V c _ _ hz, PhiA2_eq, accAt2_first V c t hz]
    iintro ⟨⟨HS, Ho, Hg⟩, Hw, ⟨%d0, H0⟩, ⟨%d1, H1⟩, ⟨%d2, H2⟩, ⟨%d3, H3⟩, ⟨%d4, H4⟩, ⟨%d5, H5⟩⟩
    iapply (runA2 c (grid2.coords t) _ _ _ _ _ _ _ _ _ _ _ _ _ _ ((hcond2_0 t).mpr h0) (fun h => h1 ((hcond2_1 t).mp h)) (iblk2 V c 0 t) (iblk2 V c 1 t) Set.univ _)
    isplitl [H0]; · iexact H0
    isplitl [H1]; · iexact H1
    isplitl [HS]; · iexact HS
    iintro ⟨H0, H1, HS⟩
    isplitl [HS Ho Hg]
    · isplitl [HS]; · iexact HS
      isplitl [Ho]; · iexact Ho
      iexact Hg
    isplitl [Hw]; · iexact Hw
    isplitl [H0]; · iexact H0
    isplitl [H1]; · iexact H1
    isplitl [H2]; · iexact H2
    isplitl [H3]; · iexact H3
    isplitl [H4]; · iexact H4
    iexists _; iexact H5
  · have hz : t.val ≠ 0 := by omega
    by_cases h1 : t.val % 20 = 19
    · -- the last point
      rw [show (dat2 V c).leavesExact 5 t = owns (c : Thread nD τ) (ms2_5 t) fullShare ((dat2 V c).after 5 t) from by
        unfold Dat.leavesExact; rw [liveAt2_5 t ((hcond2_1 t).mpr h1)], after2_5]
      unfold outAt2
      rw [PhiS2_castSucc V c t, PhiS2_pos V c _ _ hz, accAt2_next V c t hz]
      iintro ⟨⟨HS, Ho, Hg⟩, Hw, ⟨%d0, H0⟩, ⟨%d1, H1⟩, ⟨%d2, H2⟩, ⟨%d3, H3⟩, ⟨%d4, H4⟩, ⟨%d5, H5⟩⟩
      iapply (runC2 c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (accAt2 V c (t.val - 1) _) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Ho Hg]
      · isplitl [HS]; · iexact HS
        isplitl [Ho]; · iexact Ho
        iexact Hg
      isplitl [Hw]; · iexact Hw
      isplitl [H0]; · iexact H0
      isplitl [H1]; · iexact H1
      isplitl [H2]; · iexact H2
      isplitl [H3]; · iexact H3
      isplitl [H4]; · iexact H4
      iexact H5
    · -- a point between
      rw [Dat.leavesExact_idle (dat2 V c) 5 t (idleAt2_5 t (fun h => h1 ((hcond2_1 t).mp h))) (noFlush2_5 t (fun h => h1 ((hcond2_1 t).mp h)))]
      rw [PhiS2_castSucc V c t, PhiS2_pos V c _ _ hz, accAt2_next V c t hz]
      iintro ⟨⟨HS, Ho, Hg⟩, Hw, ⟨%d0, H0⟩, ⟨%d1, H1⟩, ⟨%d2, H2⟩, ⟨%d3, H3⟩, ⟨%d4, H4⟩, ⟨%d5, H5⟩⟩
      iapply (runB2 c (grid2.coords t) _ _ _ _ _ _ _ _ _ _ _ _ _ _ (fun h => h0 ((hcond2_0 t).mp h)) (fun h => h1 ((hcond2_1 t).mp h)) (iblk2 V c 0 t) (iblk2 V c 1 t) (accAt2 V c (t.val - 1) _) Set.univ _)
      isplitl [H0]; · iexact H0
      isplitl [H1]; · iexact H1
      isplitl [HS]; · iexact HS
      iintro ⟨H0, H1, HS⟩
      isplitl [HS Ho Hg]
      · isplitl [HS]; · iexact HS
        isplitl [Ho]; · iexact Ho
        iexact Hg
      isplitl [Hw]; · iexact Hw
      isplitl [H0]; · iexact H0
      isplitl [H1]; · iexact H1
      isplitl [H2]; · iexact H2
      isplitl [H3]; · iexact H3
      isplitl [H4]; · iexact H4
      iexists _; iexact H5

/-- The body's obligation at every point of the grid. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped buffers back, the scratch's contents forgotten. -/
theorem hout2 (c : Dev nD) : (dat2 V c).Φ (Fin.last cfg2.N) ⊢ Pipeline.ΦA spec2 c :=
  Phi_out2 V c _ (by rw [Fin.val_last]; have : cfg2.N = 20 := N_2; omega)

end Cert.KernelIdeal.Hand

end
-- ==== Proof.KI.Chain.lean ====
/-
  The buffer contents at every boundary of the program, at any float instance.  Its three calls change one array each;
  the host lines between them write their own result buffers.  What each call leaves is what its pipeline's write-backs
  leave of its proof data, entered at the contents the lines before it left: so the contents are a chain from the launch
  memory — the host lines' results, the first call's array, more host lines, the second call's array, more host lines,
  the pooling call's array.  The chain is built in order (each call's result over the contents that read only the
  earlier ones), then gathered into one family of results; and every pipeline's proof data at its call's entry contents.
-/
import proofs.«407611_j90099823935523_1_alg».proof.Proof.KI.Conv0
import proofs.«407611_j90099823935523_1_alg».proof.Proof.KI.Conv1
import proofs.«407611_j90099823935523_1_alg».proof.Proof.KI.Pool
import proofs.«407611_j90099823935523_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation read at the TensorCore's references. -/
abbrev rd (W : Dev nD → Valuation τ sig (Elt F)) : (c : Dev nD) → (b : Ref sig .tc) → Buf (Elt F) ((c : Thread nD τ).loc b) :=
  fun c b => W c b

/-! ## What each call leaves, in order -/

/-- What the first call leaves in its result array. -/
def o2 (c : Dev nD) : Buf (Elt F) ((c : Thread nD τ).loc main_v20) := (dat0 (rd (V1 m)) c).arrAt 5 cfg0.N

/-- The calls' results so far: the first call's only. -/
def outsA : Outs (F := F) := fun _ r c => if h : r = main_v20 then h ▸ o2 m c else m ((c : Thread nD τ).loc r)

/-- What the second call leaves in its result array. -/
def o4 (c : Dev nD) : Buf (Elt F) ((c : Thread nD τ).loc main_v31) := (dat1 (rd (V3 m (outsA m))) c).arrAt 5 cfg1.N

/-- The calls' results so far: the first two. -/
def outsB : Outs (F := F) := fun _ r c =>
  if h : r = main_v20 then h ▸ o2 m c else if h : r = main_v31 then h ▸ o4 m c else m ((c : Thread nD τ).loc r)

/-- What the pooling call leaves in the result buffer. -/
def o8 (c : Dev nD) : Buf (Elt F) ((c : Thread nD τ).loc main_v53) := (dat2 (rd (V7 m (outsB m))) c).arrAt 5 cfg2.N

/-- What the three calls leave. -/
def outs : Outs (F := F) := fun _ r c =>
  if h : r = main_v20 then h ▸ o2 m c else if h : r = main_v31 then h ▸ o4 m c
  else if h : r = main_v53 then h ▸ o8 m c else m ((c : Thread nD τ).loc r)

theorem outsA_v20 (j : ℕ) (c : Dev nD) : outsA m j main_v20 c = o2 m c := by unfold outsA; rw [dif_pos rfl]
theorem outsB_v20 (j : ℕ) (c : Dev nD) : outsB m j main_v20 c = o2 m c := by unfold outsB; rw [dif_pos rfl]
theorem outsB_v31 (j : ℕ) (c : Dev nD) : outsB m j main_v31 c = o4 m c := by
  unfold outsB; rw [dif_neg (by decide), dif_pos rfl]
theorem outs_v20 (j : ℕ) (c : Dev nD) : outs m j main_v20 c = o2 m c := by unfold outs; rw [dif_pos rfl]
theorem outs_v31 (j : ℕ) (c : Dev nD) : outs m j main_v31 c = o4 m c := by
  unfold outs; rw [dif_neg (by decide), dif_pos rfl]
theorem outs_v53 (j : ℕ) (c : Dev nD) : outs m j main_v53 c = o8 m c := by
  unfold outs; rw [dif_neg (by decide), dif_neg (by decide), dif_pos rfl]

/-- The contents before the second call read only the first call's result, and before the pooling call the first two. -/
theorem V2_outs (c : Dev nD) : V2 m (outs m) c = V2 m (outsA m) c := by
  show Function.update (V1 m c) main_v20 (outs m 2 main_v20 c) = Function.update (V1 m c) main_v20 (outsA m 2 main_v20 c)
  rw [outs_v20, outsA_v20]
theorem V3_outs (c : Dev nD) : V3 m (outs m) c = V3 m (outsA m) c := by
  show StableHlo.after hostOps1 (V2 m (outs m) c) = StableHlo.after hostOps1 (V2 m (outsA m) c)
  rw [V2_outs]
theorem V2_outsB (c : Dev nD) : V2 m (outs m) c = V2 m (outsB m) c := by
  show Function.update (V1 m c) main_v20 (outs m 2 main_v20 c) = Function.update (V1 m c) main_v20 (outsB m 2 main_v20 c)
  rw [outs_v20, outsB_v20]
theorem V4_outsB (c : Dev nD) : V4 m (outs m) c = V4 m (outsB m) c := by
  show Function.update (StableHlo.after hostOps1 (V2 m (outs m) c)) main_v31 (outs m 4 main_v31 c)
    = Function.update (StableHlo.after hostOps1 (V2 m (outsB m) c)) main_v31 (outsB m 4 main_v31 c)
  rw [V2_outsB, outs_v31, outsB_v31]
theorem V7_outs (c : Dev nD) : V7 m (outs m) c = V7 m (outsB m) c := by
  show StableHlo.after hostOps2_2 (StableHlo.after hostOps2_1 (StableHlo.after hostOps2 (V4 m (outs m) c)))
    = StableHlo.after hostOps2_2 (StableHlo.after hostOps2_1 (StableHlo.after hostOps2 (V4 m (outsB m) c)))
  rw [V4_outsB]

/-! ## The proof data family and what rides beside the buffers -/

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (rd (V1 m)) c
  | ⟨1, _⟩ => fun c => dat1 (rd (V3 m (outsA m))) c
  | ⟨2, _⟩ => fun c => dat2 (rd (V7 m (outsB m))) c

abbrev 𝒱₀ : Variants := Variants.none
abbrev L : GSem nD τ sig → Finset Unit := fun _ => ∅
abbrev lv : GSem nD τ sig → Unit → ℕ := fun _ _ => 0

/-- What rides beside the buffers through every segment: the generator register at some state, and nothing owed. -/
abbrev Rr (c : Dev nD) : sProp 𝕄 := iprop((∃ r, prngReg c r) ∗ ∃ W, owes (c : Thread nD τ) (0 : CellTallies nD τ sig Unit) W)

end Cert.KernelIdeal.Hand

end
-- ==== Proof.KI.Exits.lean ====
/-
  Each call's arrays at its exit: the call's result array holds what the pipeline's write-backs leave, its input arrays
  what they held at entry (the pipeline writes no input back), and every buffer that is no array of the call what it held.
-/
import proofs.«407611_j90099823935523_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Each call's arrays at its exit -/

/-- An input window of call 0: the pipeline never writes it back, so at the call's exit its array holds what the call
    found there; and the call's one update, at its result array, leaves every other reference as it was. -/
private theorem in0 (c : Dev nD) (w : Fin cfg0.W) (hin : (cfg0.win w).isOut = false)
    (hne : Pipeline.arrRef spec0 w ∉ ([main_v20] : List (Ref sig .tc))) :
    (pdats m 0 c).arrAt w cfg0.N = rd (V2 m (outs m)) c (Pipeline.arrRef spec0 w) := by
  have h1 : (pdats m 0 c).arrAt w cfg0.N = V1 m c (Pipeline.arrRef spec0 w) :=
    ((dat0 (rd (V1 m)) c).arrAt_in w hin _).trans (A_eq0 (rd (V1 m)) c w)
  have h2 : rd (V2 m (outs m)) c (Pipeline.arrRef spec0 w) = V1 m c (Pipeline.arrRef spec0 w) :=
    V2_of m (outs m) c _ hne
  rw [h1, h2]

/-- After the first call each of its arrays holds what the pipeline leaves, and every other buffer what it held. -/
theorem hF0 (c : Dev nD) (w : Fin cfg0.W) : (pdats m 0 c).arrAt w cfg0.N = rd (V2 m (outs m)) c (Pipeline.arrRef spec0 w) := by
  match w with
  | ⟨0, _⟩ => exact in0 m c 0 rfl (by decide)
  | ⟨1, _⟩ => exact in0 m c 1 rfl (by decide)
  | ⟨2, _⟩ => exact in0 m c 2 rfl (by decide)
  | ⟨3, _⟩ => exact in0 m c 3 rfl (by decide)
  | ⟨4, _⟩ => exact in0 m c 4 rfl (by decide)
  | ⟨5, _⟩ =>
    show (dat0 (rd (V1 m)) c).arrAt 5 cfg0.N = Function.update (V1 m c) main_v20 (outs m 2 main_v20 c) main_v20
    rw [Function.update_self, outs_v20]
    rfl
theorem hrest0 (c : Dev nD) : ∀ b, b ∉ Finset.univ.image (Pipeline.arrRef spec0) → rd (V2 m (outs m)) c b = rd (V1 m) c b := by
  intro b hb
  have hne : b ∉ ([main_v20] : List (Ref sig .tc)) := fun hmem =>
    hb (Finset.mem_image.mpr ⟨5, Finset.mem_univ _, (List.mem_singleton.mp hmem).symm⟩)
  have h2 : rd (V2 m (outs m)) c b = V1 m c b := V2_of m (outs m) c b hne
  rw [h2]

/-- An input window of call 1: the pipeline never writes it back, so at the call's exit its array holds what the call
    found there; and the call's one update, at its result array, leaves every other reference as it was. -/
private theorem in1 (c : Dev nD) (w : Fin cfg1.W) (hin : (cfg1.win w).isOut = false)
    (hne : Pipeline.arrRef spec1 w ∉ ([main_v31] : List (Ref sig .tc))) :
    (pdats m 1 c).arrAt w cfg1.N = rd (V4 m (outs m)) c (Pipeline.arrRef spec1 w) := by
  have h1 : (pdats m 1 c).arrAt w cfg1.N = V3 m (outsA m) c (Pipeline.arrRef spec1 w) :=
    ((dat1 (rd (V3 m (outsA m))) c).arrAt_in w hin _).trans (A_eq1 (rd (V3 m (outsA m))) c w)
  have h2 : rd (V4 m (outs m)) c (Pipeline.arrRef spec1 w) = V3 m (outs m) c (Pipeline.arrRef spec1 w) :=
    V4_of m (outs m) c _ hne
  rw [h1, h2, V3_outs]

theorem hF1 (c : Dev nD) (w : Fin cfg1.W) : (pdats m 1 c).arrAt w cfg1.N = rd (V4 m (outs m)) c (Pipeline.arrRef spec1 w) := by
  match w with
  | ⟨0, _⟩ => exact in1 m c 0 rfl (by decide)
  | ⟨1, _⟩ => exact in1 m c 1 rfl (by decide)
  | ⟨2, _⟩ => exact in1 m c 2 rfl (by decide)
  | ⟨3, _⟩ => exact in1 m c 3 rfl (by decide)
  | ⟨4, _⟩ => exact in1 m c 4 rfl (by decide)
  | ⟨5, _⟩ =>
    show (dat1 (rd (V3 m (outsA m))) c).arrAt 5 cfg1.N = Function.update (V3 m (outs m) c) main_v31 (outs m 4 main_v31 c) main_v31
    rw [Function.update_self, outs_v31]
    rfl
theorem hrest1 (c : Dev nD) : ∀ b, b ∉ Finset.univ.image (Pipeline.arrRef spec1) → rd (V4 m (outs m)) c b = rd (V3 m (outsA m)) c b := by
  intro b hb
  have hne : b ∉ ([main_v31] : List (Ref sig .tc)) := fun hmem =>
    hb (Finset.mem_image.mpr ⟨5, Finset.mem_univ _, (List.mem_singleton.mp hmem).symm⟩)
  have h2 : rd (V4 m (outs m)) c b = V3 m (outs m) c b := V4_of m (outs m) c b hne
  rw [h2, V3_outs]

/-- An input window of call 2: the pipeline never writes it back, so at the call's exit its array holds what the call
    found there; and the call's one update, at its result array, leaves every other reference as it was. -/
private theorem in2 (c : Dev nD) (w : Fin cfg2.W) (hin : (cfg2.win w).isOut = false)
    (hne : Pipeline.arrRef spec2 w ∉ ([main_v53] : List (Ref sig .tc))) :
    (pdats m 2 c).arrAt w cfg2.N = rd (V8 m (outs m)) c (Pipeline.arrRef spec2 w) := by
  have h1 : (pdats m 2 c).arrAt w cfg2.N = V7 m (outsB m) c (Pipeline.arrRef spec2 w) :=
    ((dat2 (rd (V7 m (outsB m))) c).arrAt_in w hin _).trans (A_eq2 (rd (V7 m (outsB m))) c w)
  have h2 : rd (V8 m (outs m)) c (Pipeline.arrRef spec2 w) = V7 m (outs m) c (Pipeline.arrRef spec2 w) :=
    V8_of m (outs m) c _ hne
  rw [h1, h2, V7_outs]

theorem hF2 (c : Dev nD) (w : Fin cfg2.W) : (pdats m 2 c).arrAt w cfg2.N = rd (V8 m (outs m)) c (Pipeline.arrRef spec2 w) := by
  match w with
  | ⟨0, _⟩ => exact in2 m c 0 rfl (by decide)
  | ⟨1, _⟩ => exact in2 m c 1 rfl (by decide)
  | ⟨2, _⟩ => exact in2 m c 2 rfl (by decide)
  | ⟨3, _⟩ => exact in2 m c 3 rfl (by decide)
  | ⟨4, _⟩ => exact in2 m c 4 rfl (by decide)
  | ⟨5, _⟩ =>
    show (dat2 (rd (V7 m (outsB m))) c).arrAt 5 cfg2.N = Function.update (V7 m (outs m) c) main_v53 (outs m 8 main_v53 c) main_v53
    rw [Function.update_self, outs_v53]
    rfl
theorem hrest2 (c : Dev nD) : ∀ b, b ∉ Finset.univ.image (Pipeline.arrRef spec2) → rd (V8 m (outs m)) c b = rd (V7 m (outsB m)) c b := by
  intro b hb
  have hne : b ∉ ([main_v53] : List (Ref sig .tc)) := fun hmem =>
    hb (Finset.mem_image.mpr ⟨5, Finset.mem_univ _, (List.mem_singleton.mp hmem).symm⟩)
  have h2 : rd (V8 m (outs m)) c b = V7 m (outs m) c b := V8_of m (outs m) c b hne
  rw [h2, V7_outs]

end Cert.KernelIdeal.Hand

end
-- ==== Proof.KI.Run.lean ====
/-
  The whole program as one run, at any float instance: each call as a segment of the program over the thread state
  "every unscoped buffer at the boundary's contents, the generator register at some state, nothing owed", and the run —
  every weakly fair execution terminates, nothing faulting, with the result buffer at what the pooling call leaves and
  every argument array as launched.
-/
import proofs.«407611_j90099823935523_1_alg».proof.Proof.KI.Chain
import proofs.«407611_j90099823935523_1_alg».proof.Proof.KI.Exits

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The calls as segments -/

set_option backward.isDefEq.respectTransparency.types false in
/-- Call 0 as a segment of the program: entered with every unscoped buffer at the contents before it, left with the
    same buffers, the call's result array now at what the call's write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (V1 m)) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (rd (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (V1 m) c) (rd (V2 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of the program: entered with every unscoped buffer at the contents before it, left with the
    same buffers, the call's result array now at what the call's write-backs leave. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (V3 m (outsA m))) c).loose
  hwaits := Pipeline.hwaits_of_owed_zero _ _ _ _ L lv 1 fun _ _ => rfl
  pre c := iprop(StableHlo.held (c : Thread nD τ) (Pipeline.ucRefs τ sig) (V3 m (outsA m) c) ∗ Rr c)
  post c := iprop(StableHlo.held (c : Thread nD τ) (Pipeline.ucRefs τ sig) (V4 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (rd (V3 m (outsA m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (V3 m (outsA m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (V3 m (outsA m)) c) (rd (V4 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment of the program: entered with every unscoped buffer at the contents before it, left with the
    same buffers, the call's result array now at what the call's write-backs leave. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (V7 m (outsB m))) c).loose
  hwaits := Pipeline.hwaits_of_owed_zero _ _ _ _ L lv 2 fun _ _ => rfl
  pre c := iprop(StableHlo.held (c : Thread nD τ) (Pipeline.ucRefs τ sig) (V7 m (outsB m) c) ∗ Rr c)
  post c := iprop(StableHlo.held (c : Thread nD τ) (Pipeline.ucRefs τ sig) (V8 m (outs m) c) ∗ Rr c)
  X c := iprop(∃ r, prngReg c r)
  Y c := iprop(∃ r, prngReg c r)
  Z c := Pipeline.unscopedRest (Ix := Unit) (Name := ℕ) (U := UR sig nD τ) (Lvl := ℕ) spec2 c (rd (V7 m (outsB m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (V7 m (outsB m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : (_ : sProp 𝕄) ⊢ Pipeline.ΦA spec2 c).trans (hin2 (rd (V7 m (outsB m))) c)
    unfold Pipeline.ΦA
    iintro ⟨Hp, -, Hr⟩
    isplitl [Hr]; · iexact Hr
    iexact Hp
  hout c := by
    rw [Pipeline.ownSems0_none]
    refine (hout2 (rd (V7 m (outsB m))) c).trans (?_ : (Pipeline.ΦA spec2 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (V7 m (outsB m)) c) (rd (V8 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The result buffer after the last segment holds what the pooling call leaves. -/
theorem V8_v53 (c : Dev nD) : V8 m (outs m) c main_v53 = o8 m c := by
  show Function.update (V7 m (outs m) c) main_v53 (outs m 8 main_v53 c) main_v53 = o8 m c
  rw [Function.update_self, outs_v53]

/-- What rides beside the buffers ends owing nothing. -/
theorem hE3 (c : Dev nD) : (Rr (F := F) c) ⊢ (iprop(∃ W, owes (c : Thread nD τ) (0 : CellTallies nD τ sig Unit) W) : sProp 𝕄) := by
  iintro ⟨-, H⟩
  iexact H

set_option backward.isDefEq.respectTransparency.types false in
/-- THE RUN: every weakly fair execution of the program from memory `m` with zero counters terminates, nothing
    faulting, with the result buffer at what the pooling call leaves and every argument array as launched. -/
theorem run_main : θ_run defs (onTc (τ := τ) (main (F := F))) ⟨m, fun _ => 0, ρ⟩ (fun r => ∀ c : Dev nD,
      r.2.mem ((c.tc : Thread nD τ).loc main_v53) = o8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm (pdats m) () cellOf_inj emb₁ defs₀ 𝒱₀ L lv m ρ main
    (segs m (outs m) 𝒱₀ L lv (fun _ c => Rr c) () (pdats m) (reg0 m) (reg1 m) (reg2 m))
    (fun c Q => by
      rewrite [main_chain c, Seg.run_eq_chain,
        show (segs m (outs m) 𝒱₀ L lv (fun _ c => Rr c) () (pdats m) (reg0 m) (reg1 m) (reg2 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => StableHlo.held (c : Thread nD τ) (Pipeline.ucRefs τ sig) (V8 m (outs m) c))
    (hch := fun c => ⟨.rfl, .rfl, .rfl,
      (by
        show iprop(StableHlo.held (c : Thread nD τ) (Pipeline.ucRefs τ sig) (V3 m (outs m) c) ∗ Rr c)
          ⊢ (iprop(StableHlo.held (c : Thread nD τ) (Pipeline.ucRefs τ sig) (V3 m (outsA m) c) ∗ Rr c) : sProp 𝕄)
        rw [V3_outs]),
      .rfl, .rfl, .rfl,
      (by
        show iprop(StableHlo.held (c : Thread nD τ) (Pipeline.ucRefs τ sig) (V7 m (outs m) c) ∗ Rr c)
          ⊢ (iprop(StableHlo.held (c : Thread nD τ) (Pipeline.ucRefs τ sig) (V7 m (outsB m) c) ∗ Rr c) : sProp 𝕄)
        rw [V7_outs]),
      sep_mono .rfl (hE3 c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v53) = o8 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10))
    (hfin := fun c s' => ?_) (hQ := fun _ h => h)
  -- the end: the result buffer and each argument's buffer read off the last valuation
  unfold StableHlo.held
  iintro ⟨Hh, HSI⟩
  ihave Hr := (pointsTo_read_all (Pipeline.ucRefs τ sig) (fun b => ((c : Thread nD τ).1, b)) (V8 m (outs m) c) s') $$ [Hh HSI]
  · isplitl [Hh] <;> iassumption
  icases Hr with ⟨%h, HSI⟩
  imodintro
  isplitr
  · ipureintro
    exact ⟨(h (Proc.devRef .tc main_v53) (Finset.mem_filter.mpr ⟨StableHlo.devRef_mem_tcRefs main_v53, by decide⟩)).trans (V8_v53 m c),
      (h (Proc.devRef .tc main_arg0) (Finset.mem_filter.mpr ⟨StableHlo.devRef_mem_tcRefs main_arg0, by decide⟩)).trans (V8_main_arg0 m (outs m) c),
      (h (Proc.devRef .tc main_arg1) (Finset.mem_filter.mpr ⟨StableHlo.devRef_mem_tcRefs main_arg1, by decide⟩)).trans (V8_main_arg1 m (outs m) c),
      (h (Proc.devRef .tc main_arg2) (Finset.mem_filter.mpr ⟨StableHlo.devRef_mem_tcRefs main_arg2, by decide⟩)).trans (V8_main_arg2 m (outs m) c),
      (h (Proc.devRef .tc main_arg3) (Finset.mem_filter.mpr ⟨StableHlo.devRef_mem_tcRefs main_arg3, by decide⟩)).trans (V8_main_arg3 m (outs m) c),
      (h (Proc.devRef .tc main_arg4) (Finset.mem_filter.mpr ⟨StableHlo.devRef_mem_tcRefs main_arg4, by decide⟩)).trans (V8_main_arg4 m (outs m) c),
      (h (Proc.devRef .tc main_arg5) (Finset.mem_filter.mpr ⟨StableHlo.devRef_mem_tcRefs main_arg5, by decide⟩)).trans (V8_main_arg5 m (outs m) c),
      (h (Proc.devRef .tc main_arg6) (Finset.mem_filter.mpr ⟨StableHlo.devRef_mem_tcRefs main_arg6, by decide⟩)).trans (V8_main_arg6 m (outs m) c),
      (h (Proc.devRef .tc main_arg7) (Finset.mem_filter.mpr ⟨StableHlo.devRef_mem_tcRefs main_arg7, by decide⟩)).trans (V8_main_arg7 m (outs m) c),
      (h (Proc.devRef .tc main_arg8) (Finset.mem_filter.mpr ⟨StableHlo.devRef_mem_tcRefs main_arg8, by decide⟩)).trans (V8_main_arg8 m (outs m) c),
      (h (Proc.devRef .tc main_arg9) (Finset.mem_filter.mpr ⟨StableHlo.devRef_mem_tcRefs main_arg9, by decide⟩)).trans (V8_main_arg9 m (outs m) c),
      (h (Proc.devRef .tc main_arg10) (Finset.mem_filter.mpr ⟨StableHlo.devRef_mem_tcRefs main_arg10, by decide⟩)).trans (V8_main_arg10 m (outs m) c)⟩
  · iexact HSI

/-- THE FRAME: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_main m ρ)

end Cert.KernelIdeal.Hand

end
-- ==== Proof.Spec.lean ====
/-
  The specification both programs are compared with, as ONE function of the eleven argument arrays.

  A graph network of two convolution layers and a pooled linear head.  For node features `x` (one row per node),
  edges `e` (row 0 the source node of each edge, row 1 its destination) and a graph label `batch` per node:

  * `agg x e`      — for every node, the sum of the rows `x[src]` over the edges whose destination is that node
                      (a source index below zero counts from the end; an edge whose destination is no node adds nothing);
  * `layer x a Wroot Wrel b` — `max (a · Wrelᵀ + b + x · Wrootᵀ) 0`, row by row;
  * `segSum h batch`, `segCount batch` — per graph label, the sum of the rows of `h` carrying it and their number;
  * `pooled h batch` — the mean row per label, the divisor at least one;
  * `head p Wfc bfc` — `p · Wfcᵀ + bfc`.

  Every piece is spelt with the host operations of the printed reference, over its dimension records: the
  reference's composed term is this function of the arguments.
-/
import proofs.«407611_j90099823935523_1_alg».proof.Proof.Gen.ReferenceIdeal

noncomputable section

namespace Cert.Spec

open Cert.ReferenceIdeal Cert.ReferenceIdeal.Gen Idealize.ShloMosaic Idealize.ShloMosaic.TcCoe Idealize.SL.Sem Idealize.ShloMosaic.StableHlo

variable {F : FTy → Type} [FloatOps F]

/-- A float array of shape `s`, and an integer one. -/
abbrev TF (s : Shape) : Type := (⟨s, .f32⟩ : BufTy).Contents (Elt F)
abbrev TI (s : Shape) : Type := (⟨s, .i32⟩ : BufTy).Contents (Elt F)

/-- Row 0 of the edge list: each edge's source node. -/
def srcOf (e : TI (F := F) S2x1600000) : TI (F := F) S1600000 :=
  shapeCast _ (extractStridedSlice S1x1600000 ![0, 0] e slices_S2x1600000_S1x1600000_0_0) shapeCasts_S1x1600000_S1600000

/-- Row 1 of the edge list: each edge's destination node. -/
def dstOf (e : TI (F := F) S2x1600000) : TI (F := F) S1600000 :=
  shapeCast _ (extractStridedSlice S1x1600000 ![1, 0] e slices_S2x1600000_S1x1600000_1_0) shapeCasts_S1x1600000_S1600000

/-- The source indices as the gather reads them: an index below zero counts from the end of the node axis. -/
def srcIdx (e : TI (F := F) S2x1600000) : TI (F := F) S1600000x1 :=
  broadcastInDim S1600000x1 ![0] bcast_S1600000_S1600000x1_0
    (select (cmpi .slt (srcOf e) (broadcastInDim S1600000 ![] bcast_S_S1600000 (constantI S_ 32 0#32)))
      (addi (srcOf e) (broadcastInDim S1600000 ![] bcast_S_S1600000 (constantI S_ 32 100000#32))) (srcOf e))

/-- Per node, the sum of `x[src]` over the edges arriving at it. -/
def agg (x : TF (F := F) S100000x128) (e : TI (F := F) S2x1600000) : TF (F := F) S100000x128 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dstOf e))
    (Host.gather gather_S100000x128_S1600000x1_S1600000x128_1_0_n_n_0_1_1128 x (srcIdx e))

/-- One convolution layer: `max (a · Wrelᵀ + b + x · Wrootᵀ) 0`. -/
def layer (x a : TF (F := F) S100000x128) (Wroot Wrel : TF (F := F) S128x128) (b : TF (F := F) S128) : TF (F := F) S100000x128 :=
  maximumf
    (addf
      (addf (Host.dotGeneral dot_S100000x128_S128x128_S100000x128_1_0_0_1_n_n none a (transpose S128x128 [1, 0] Wrel transposes_S128x128_S128x128_1_0))
        (broadcastInDim S100000x128 ![0, 1] bcast_S1x128_S100000x128_0_1 (broadcastInDim S1x128 ![1] bcast_S128_S1x128_1 b)))
      (Host.dotGeneral dot_S100000x128_S128x128_S100000x128_1_0_0_1_n_n none x (transpose S128x128 [1, 0] Wroot transposes_S128x128_S128x128_1_0)))
    (broadcastInDim S100000x128 ![] bcast_S_S100000x128 (constant S_ .f32 0x00000000#32))

/-- The layer over the weights already transposed and the bias already a row: `max (a · WrelT + brow + x · WrootT) 0`. -/
def layerT (x a : TF (F := F) S100000x128) (WrootT WrelT : TF (F := F) S128x128) (brow : TF (F := F) S1x128) : TF (F := F) S100000x128 :=
  maximumf
    (addf
      (addf (Host.dotGeneral dot_S100000x128_S128x128_S100000x128_1_0_0_1_n_n none a WrelT)
        (broadcastInDim S100000x128 ![0, 1] bcast_S1x128_S100000x128_0_1 brow))
      (Host.dotGeneral dot_S100000x128_S128x128_S100000x128_1_0_0_1_n_n none x WrootT))
    (broadcastInDim S100000x128 ![] bcast_S_S100000x128 (constant S_ .f32 0x00000000#32))

/-- A layer is `layerT` of the transposed weights and the bias as a row. -/
theorem layer_eq_layerT (x a : TF (F := F) S100000x128) (Wroot Wrel : TF (F := F) S128x128) (b : TF (F := F) S128) :
    layer x a Wroot Wrel b
      = layerT x a (transpose S128x128 [1, 0] Wroot transposes_S128x128_S128x128_1_0) (transpose S128x128 [1, 0] Wrel transposes_S128x128_S128x128_1_0)
          (broadcastInDim S1x128 ![1] bcast_S128_S1x128_1 b) := rfl

/-- Per graph label, the sum of the rows of `h` that carry it. -/
def segSum (h : TF (F := F) S100000x128) (batch : TI (F := F) S100000) : TF (F := F) S64x128 :=
  Host.scatterAdd scatter_S64x128_S100000x1_S100000x128_1_0_0_1
    (broadcastInDim S64x128 ![] bcast_S_S64x128 (constant S_ .f32 0x00000000#32))
    (broadcastInDim S100000x1 ![0] bcast_S100000_S100000x1_0 batch) h

/-- Per graph label, the number of nodes that carry it. -/
def segCount (batch : TI (F := F) S100000) : TF (F := F) S64 :=
  Host.scatterAdd scatter_S64_S100000x1_S100000_n_0_0_1
    (broadcastInDim S64 ![] bcast_S_S64 (constant S_ .f32 0x00000000#32))
    (broadcastInDim S100000x1 ![0] bcast_S100000_S100000x1_0 batch)
    (broadcastInDim S100000 ![] bcast_S_S100000 (constant S_ .f32 0x3F800000#32))

/-- The mean row per graph label, the divisor at least one. -/
def pooled (h : TF (F := F) S100000x128) (batch : TI (F := F) S100000) : TF (F := F) S64x128 :=
  Host.divf (segSum h batch)
    (broadcastInDim S64x128 ![0, 1] bcast_S64x1_S64x128_0_1
      (broadcastInDim S64x1 ![0] bcast_S64_S64x1_0
        (maximumf (segCount batch) (broadcastInDim S64 ![] bcast_S_S64 (constant S_ .f32 0x3F800000#32)))))

/-- The linear head: `p · Wfcᵀ + bfc`. -/
def head (p : TF (F := F) S64x128) (Wfc : TF (F := F) S16x128) (bfc : TF (F := F) S16) : TF (F := F) S64x16 :=
  addf (Host.dotGeneral dot_S64x128_S128x16_S64x16_1_0_0_1_n_n none p (transpose S128x16 [1, 0] Wfc transposes_S16x128_S128x16_1_0))
    (broadcastInDim S64x16 ![0, 1] bcast_S1x16_S64x16_0_1 (broadcastInDim S1x16 ![1] bcast_S16_S1x16_1 bfc))

/-- The first layer's node features. -/
def hidden1 (x : TF (F := F) S100000x128) (e : TI (F := F) S2x1600000) (W1root W1rel : TF (F := F) S128x128) (b1 : TF (F := F) S128) :
    TF (F := F) S100000x128 :=
  layer x (agg x e) W1root W1rel b1

/-- The second layer's node features. -/
def hidden2 (x : TF (F := F) S100000x128) (e : TI (F := F) S2x1600000) (W1root W1rel : TF (F := F) S128x128) (b1 : TF (F := F) S128)
    (W2root W2rel : TF (F := F) S128x128) (b2 : TF (F := F) S128) : TF (F := F) S100000x128 :=
  layer (hidden1 x e W1root W1rel b1) (agg (hidden1 x e W1root W1rel b1) e) W2root W2rel b2

/-- The whole network: two layers, the mean per graph, the head. -/
def G (x : TF (F := F) S100000x128) (e : TI (F := F) S2x1600000) (batch : TI (F := F) S100000)
    (W1root W1rel : TF (F := F) S128x128) (b1 : TF (F := F) S128) (W2root W2rel : TF (F := F) S128x128) (b2 : TF (F := F) S128)
    (Wfc : TF (F := F) S16x128) (bfc : TF (F := F) S16) : TF (F := F) S64x16 :=
  head (pooled (hidden2 x e W1root W1rel b1 W2root W2rel b2) batch) Wfc bfc

end Cert.Spec

end
-- ==== Proof.KI.ConvValue.lean ====
/-
  One entry of a convolution layer, over the extended reals: for node features x, aggregated features a, transposed
  weights WrootT and WrelT and a bias row brow,

      max ( (Σ_k x[n, k] · WrootT[k, q]  +  Σ_k a[n, k] · WrelT[k, q])  +  brow[0, q] )  0 .

  The body arithmetic of either convolution call, on a 5000-row block, computes this at every entry of the block; and the
  specification's layer over transposed weights and a bias row is the same three terms, summed in another order.
-/
import proofs.«407611_j90099823935523_1_alg».proof.Proof.KI.Conv0
import proofs.«407611_j90099823935523_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- One entry of a layer over transposed weights and a bias row, in the kernel's order of the three terms. -/
def convEntry (x a : (⟨2, ![100000, 128]⟩ : Shape).Idx → EReal) (wr wl : (⟨2, ![128, 128]⟩ : Shape).Idx → EReal)
    (br : (⟨2, ![1, 128]⟩ : Shape).Idx → EReal) (n : Fin 100000) (q : Fin 128) : EReal :=
  max (((∑ k : Fin 128, x (ix2 n k) * wr (ix2 k q)) + ∑ k : Fin 128, a (ix2 n k) * wl (ix2 k q)) + br (ix2 (0 : Fin 1) q)) 0

/-! ## The block product at an entry

The body multiplies a 5000 × 128 block by a 128 × 128 matrix, contracting the block's columns with the matrix's rows.
At an output entry (p, q) and contraction position k the left operand is read at (p, k) and the right at (k, q): the four
coordinate facts, one per operand axis, stated for any contraction index. -/

theorem lhs_blk_0 (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem lhs_blk_1 (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r

theorem rhs_blk_0 (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r

theorem rhs_blk_1 (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block product into a zero accumulator, at entry (p, q): the sum over the 128 contraction positions of the
    products of the block's row p and the matrix's column q. -/
theorem blockProduct_apply {φ₁ φ₂ : FTy} (l : FVec Ideal S5000x128 φ₁) (m : FVec Ideal S128x128 φ₂) (p : Fin 5000) (q : Fin 128) :
    matmul dot_S5000x128_S128x128_S5000x128_1_0_0_1_n_n none l m (constant (F := Ideal) S5000x128 .f32 0x00000000#32) (ix2 p q)
      = ∑ k : Fin 128, l (ix2 p k) * m (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]

/-- The body's arithmetic with the identity reshapes taken away, at an entry: the two block products, the bias row
    repeated down the rows, the maximum with zero.  A change of float format is the identity on extended reals. -/
theorem bodyTerm_apply (x a : FVec Ideal S5000x128 .f32) (wr wl : FVec Ideal S128x128 .f32) (br : FVec Ideal S1x128 .f32)
    (p : Fin 5000) (q : Fin 128) :
    maximumf
        (addf
          (addf
            (matmul dot_S5000x128_S128x128_S5000x128_1_0_0_1_n_n none (truncf .bf16 x bitsLt_bf16_f32) (truncf .bf16 wr bitsLt_bf16_f32)
              (constant (F := Ideal) S5000x128 .f32 0x00000000#32))
            (matmul dot_S5000x128_S128x128_S5000x128_1_0_0_1_n_n none (truncf .bf16 a bitsLt_bf16_f32) (truncf .bf16 wl bitsLt_bf16_f32)
              (constant (F := Ideal) S5000x128 .f32 0x00000000#32)))
          (broadcastTo S5000x128 br broadcasts_S1x128_S5000x128))
        (broadcast S5000x128 (Scalar.ofBits (F := Ideal) .f32 0x00000000#32)) (ix2 p q)
      = max (((∑ k : Fin 128, x (ix2 p k) * wr (ix2 k q)) + ∑ k : Fin 128, a (ix2 p k) * wl (ix2 k q)) + br (ix2 (0 : Fin 1) q)) 0 := by
  rw [maximumf_apply, addf_apply, addf_apply, blockProduct_apply, blockProduct_apply, broadcastTo_1b_ab_apply, broadcast_apply]
  simp only [truncf_apply]
  exact congrArg (max _) Ideal.ofBits_zero_f32

/-- The first call's body arithmetic on one 5000-row block, read at an entry. -/
theorem pay0_apply (x a : Vec Ideal S5000x128 .f32) (wr wl : Vec Ideal S128x128 .f32) (br : Vec Ideal S1x128 .f32) (p : Fin 5000) (q : Fin 128) :
    k0_pay1 (F := Ideal) x a wr wl br (ix2 p q)
      = max (((∑ k : Fin 128, x (ix2 p k) * wr (ix2 k q)) + ∑ k : Fin 128, a (ix2 p k) * wl (ix2 k q)) + br (ix2 (0 : Fin 1) q)) 0 := by
  unfold k0_pay1
  simp only [shapeCast_self]
  exact bodyTerm_apply x a wr wl br p q

/-- The second call's body arithmetic (the same, its first operand through one more identity reshape), read at an entry. -/
theorem pay1_apply (x a : Vec Ideal S5000x128 .f32) (wr wl : Vec Ideal S128x128 .f32) (br : Vec Ideal S1x128 .f32) (p : Fin 5000) (q : Fin 128) :
    k1_pay1 (F := Ideal) x a wr wl br (ix2 p q)
      = max (((∑ k : Fin 128, x (ix2 p k) * wr (ix2 k q)) + ∑ k : Fin 128, a (ix2 p k) * wl (ix2 k q)) + br (ix2 (0 : Fin 1) q)) 0 := by
  unfold k1_pay1
  simp only [shapeCast_self]
  exact bodyTerm_apply x a wr wl br p q

/-! ## The specification's products at an entry

The specification multiplies the whole 100000 × 128 array by a 128 × 128 matrix with the same dimension numbers: at entry
(n, q) and contraction position k the operands are read at (n, k) and (k, q). -/

theorem lhs_arr_0 (i : Cert.ReferenceIdeal.S100000x128.Idx) (r : Cert.ReferenceIdeal.dot_S100000x128_S128x128_S100000x128_1_0_0_1_n_n.contr.Idx) :
    (Cert.ReferenceIdeal.dot_S100000x128_S128x128_S100000x128_1_0_0_1_n_n.lhsIdx i r 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide),
    dif_pos (show (0 : Fin Cert.ReferenceIdeal.S100000x128.rank) ∈ Cert.ReferenceIdeal.dot_S100000x128_S128x128_S100000x128_1_0_0_1_n_n.lhsNonContracting by decide)]
  rfl

theorem lhs_arr_1 (i : Cert.ReferenceIdeal.S100000x128.Idx) (r : Cert.ReferenceIdeal.dot_S100000x128_S128x128_S100000x128_1_0_0_1_n_n.contr.Idx) :
    (Cert.ReferenceIdeal.dot_S100000x128_S128x128_S100000x128_1_0_0_1_n_n.lhsIdx i r 1).val = (r ⟨0, by decide⟩).val :=
  Cert.ReferenceIdeal.dot_S100000x128_S128x128_S100000x128_1_0_0_1_n_n.lhsIdx_val_of_single rfl i r

theorem rhs_arr_0 (i : Cert.ReferenceIdeal.S100000x128.Idx) (r : Cert.ReferenceIdeal.dot_S100000x128_S128x128_S100000x128_1_0_0_1_n_n.contr.Idx) :
    (Cert.ReferenceIdeal.dot_S100000x128_S128x128_S100000x128_1_0_0_1_n_n.rhsIdx i r 0).val = (r ⟨0, by decide⟩).val :=
  Cert.ReferenceIdeal.dot_S100000x128_S128x128_S100000x128_1_0_0_1_n_n.rhsIdx_val_of_single rfl i r

theorem rhs_arr_1 (i : Cert.ReferenceIdeal.S100000x128.Idx) (r : Cert.ReferenceIdeal.dot_S100000x128_S128x128_S100000x128_1_0_0_1_n_n.contr.Idx) :
    (Cert.ReferenceIdeal.dot_S100000x128_S128x128_S100000x128_1_0_0_1_n_n.rhsIdx i r 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide),
    dif_pos (show (1 : Fin Cert.ReferenceIdeal.S128x128.rank) ∈ Cert.ReferenceIdeal.dot_S100000x128_S128x128_S100000x128_1_0_0_1_n_n.rhsNonContracting by decide)]
  rfl

/-- The specification's product of the array with a matrix, at entry (n, q): the sum over the 128 contraction positions. -/
theorem arrayProduct_apply {φ₁ φ₂ : FTy} (l : FVec Ideal Cert.ReferenceIdeal.S100000x128 φ₁) (m : FVec Ideal Cert.ReferenceIdeal.S128x128 φ₂)
    (n : Fin 100000) (q : Fin 128) :
    Host.dotGeneral Cert.ReferenceIdeal.dot_S100000x128_S128x128_S100000x128_1_0_0_1_n_n none l m (ix2 n q) = ∑ k : Fin 128, l (ix2 n k) * m (ix2 k q) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 n q) ((contrEquiv1 Cert.ReferenceIdeal.dot_S100000x128_S128x128_S100000x128_1_0_0_1_n_n 128 rfl rfl).symm k) = ix2 n k := funext fun a => Fin.ext (by
    match a with
    | ⟨0, _⟩ => exact lhs_arr_0 _ _
    | ⟨1, _⟩ => exact (lhs_arr_1 _ _).trans hk)
  have er : Cert.ReferenceIdeal.dot_S100000x128_S128x128_S100000x128_1_0_0_1_n_n.rhsIdx (ix2 n q) ((contrEquiv1 Cert.ReferenceIdeal.dot_S100000x128_S128x128_S100000x128_1_0_0_1_n_n 128 rfl rfl).symm k) = ix2 k q := funext fun a => Fin.ext (by
    match a with
    | ⟨0, _⟩ => exact (rhs_arr_0 _ _).trans hk
    | ⟨1, _⟩ => exact rhs_arr_1 _ _)
  rw [el, er]

/-- A 1 × 128 row repeated down the 100000 rows, at entry (n, q): the row's entry q. -/
theorem rowDown_apply {α : Type} (v : Cert.ReferenceIdeal.S1x128.Idx → α)
    (h : Cert.ReferenceIdeal.S1x128.BroadcastsInDim Cert.ReferenceIdeal.S100000x128 (![0, 1] : Fin 2 → Fin Cert.ReferenceIdeal.S100000x128.rank))
    (n : Fin 100000) (q : Fin 128) :
    broadcastInDim Cert.ReferenceIdeal.S100000x128 ![0, 1] h v (ix2 n q) = v (ix2 (0 : Fin 1) q) :=
  broadcastInDim_apply _ h v (ix2 n q) (ix2 (0 : Fin 1) q) fun ax => by
    match ax with
    | ⟨0, _⟩ => rfl
    | ⟨1, _⟩ => rfl

/-- The specification's layer with its operations written out, at an entry, in the order product of the node features,
    product of the aggregated features, bias: addition of extended reals is commutative and associative. -/
theorem layerTerm_apply (x a : FVec Ideal Cert.ReferenceIdeal.S100000x128 .f32) (wr wl : FVec Ideal Cert.ReferenceIdeal.S128x128 .f32)
    (br : FVec Ideal Cert.ReferenceIdeal.S1x128 .f32)
    (hb : Cert.ReferenceIdeal.S1x128.BroadcastsInDim Cert.ReferenceIdeal.S100000x128 (![0, 1] : Fin 2 → Fin Cert.ReferenceIdeal.S100000x128.rank))
    (hz : Cert.ReferenceIdeal.S_.BroadcastsInDim Cert.ReferenceIdeal.S100000x128 (![] : Fin 0 → Fin Cert.ReferenceIdeal.S100000x128.rank))
    (n : Fin 100000) (q : Fin 128) :
    maximumf
        (addf
          (addf (Host.dotGeneral Cert.ReferenceIdeal.dot_S100000x128_S128x128_S100000x128_1_0_0_1_n_n none a wl) (broadcastInDim Cert.ReferenceIdeal.S100000x128 ![0, 1] hb br))
          (Host.dotGeneral Cert.ReferenceIdeal.dot_S100000x128_S128x128_S100000x128_1_0_0_1_n_n none x wr))
        (broadcastInDim Cert.ReferenceIdeal.S100000x128 ![] hz (constant (F := Ideal) Cert.ReferenceIdeal.S_ .f32 0x00000000#32)) (ix2 n q)
      = max (((∑ k : Fin 128, x (ix2 n k) * wr (ix2 k q)) + ∑ k : Fin 128, a (ix2 n k) * wl (ix2 k q)) + br (ix2 (0 : Fin 1) q)) 0 := by
  rw [maximumf_apply, addf_apply, addf_apply, arrayProduct_apply, arrayProduct_apply, rowDown_apply, broadcastInDim_scalar_apply,
    constant_apply, Ideal.ofBits_zero_f32]
  refine congrArg (max · 0) ?_
  rw [add_comm, ← add_assoc]

/-- The specification's layer over transposed weights and a bias row, read at an entry: the same three terms, the
    aggregated product and the bias first. -/
theorem layerT_apply (x a : Cert.Spec.TF (F := Ideal) Cert.ReferenceIdeal.S100000x128) (wr wl : Cert.Spec.TF (F := Ideal) Cert.ReferenceIdeal.S128x128)
    (br : Cert.Spec.TF (F := Ideal) Cert.ReferenceIdeal.S1x128) (n : Fin 100000) (q : Fin 128) :
    Cert.Spec.layerT (F := Ideal) x a wr wl br (ix2 n q) = convEntry x a wr wl br n q :=
  layerTerm_apply x a wr wl br _ _ n q

end Cert.KernelIdeal.Hand

end
-- ==== Proof.KI.ConvValue0.lean ====
/-
  What this convolution call leaves in its result array, over the extended reals: the specification's layer of
  the five arrays the call reads.  Over a grid of 20 points the call stages rows 5000·t … 5000·t + 4999 of the node
  features and of the aggregated features and the two weight matrices and the bias row whole, and point t writes back
  rows 5000·t … of the result.  Row n of the array lies in the block of point n / 5000, at row n % 5000 of it; the blocks
  of the 20 points tile the array, and every block is the layer's entries at its rows.
-/
import proofs.«407611_j90099823935523_1_alg».proof.Proof.KI.Conv0
import proofs.«407611_j90099823935523_1_alg».proof.Proof.KI.ConvValue

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the core's buffer contents when the call is entered, over the extended reals
variable (V : (c : Dev nD) → (b : Ref sig .tc) → Buf (Elt Ideal) ((c : Thread nD τ).loc b))

/-- The printed index maps, decided over the grid: at point t the two row windows and the result window are at block
    (t, 0), the two matrices and the bias row at block (0, 0). -/
theorem c0_idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the node features' block at point t is row 5000·t + p of the array. -/
theorem c0_read_x (c : Dev nD) (t : Fin cfg0.N) (p : Fin 5000) (k : Fin 128) (n : Fin 100000) (hn : n.val = 5000 * t.val + p.val) :
    (iblk0 V c 0 t : Vec Ideal S5000x128 .f32) (ix2 p k) = V c main_arg0 (ix2 n k) := by
  obtain ⟨e0, e1, -⟩ := c0_idx_facts t
  show V c main_arg0 (((cfg0.win 0).blk t).view.emb (ix2 p k)) = V c main_arg0 (ix2 n k)
  refine congrArg (V c main_arg0) (funext fun a => Fin.ext ?_)
  match a with
  | ⟨0, _⟩ => show win0_0.index t (0 : Fin 2) * 5000 + 1 * p.val = n.val; omega
  | ⟨1, _⟩ => show win0_0.index t (1 : Fin 2) * 128 + 1 * k.val = k.val; omega

/-- Row p of the aggregated features' block at point t is row 5000·t + p of the array. -/
theorem c0_read_a (c : Dev nD) (t : Fin cfg0.N) (p : Fin 5000) (k : Fin 128) (n : Fin 100000) (hn : n.val = 5000 * t.val + p.val) :
    (iblk0 V c 1 t : Vec Ideal S5000x128 .f32) (ix2 p k) = V c main_v19 (ix2 n k) := by
  obtain ⟨-, -, e0, e1, -⟩ := c0_idx_facts t
  show V c main_v19 (((cfg0.win 1).blk t).view.emb (ix2 p k)) = V c main_v19 (ix2 n k)
  refine congrArg (V c main_v19) (funext fun a => Fin.ext ?_)
  match a with
  | ⟨0, _⟩ => show win0_1.index t (0 : Fin 2) * 5000 + 1 * p.val = n.val; omega
  | ⟨1, _⟩ => show win0_1.index t (1 : Fin 2) * 128 + 1 * k.val = k.val; omega

/-- The first weight matrix's block at any point is the whole matrix. -/
theorem c0_read_wr (c : Dev nD) (t : Fin cfg0.N) (k q : Fin 128) :
    (iblk0 V c 2 t : Vec Ideal S128x128 .f32) (ix2 k q) = V c main_v4 (ix2 k q) := by
  obtain ⟨-, -, -, -, e0, e1, -⟩ := c0_idx_facts t
  show V c main_v4 (((cfg0.win 2).blk t).view.emb (ix2 k q)) = V c main_v4 (ix2 k q)
  refine congrArg (V c main_v4) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The second weight matrix's block at any point is the whole matrix. -/
theorem c0_read_wl (c : Dev nD) (t : Fin cfg0.N) (k q : Fin 128) :
    (iblk0 V c 3 t : Vec Ideal S128x128 .f32) (ix2 k q) = V c main_v5 (ix2 k q) := by
  obtain ⟨-, -, -, -, -, -, e0, e1, -⟩ := c0_idx_facts t
  show V c main_v5 (((cfg0.win 3).blk t).view.emb (ix2 k q)) = V c main_v5 (ix2 k q)
  refine congrArg (V c main_v5) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias row's block at any point is the whole row. -/
theorem c0_read_br (c : Dev nD) (t : Fin cfg0.N) (q : Fin 128) :
    (iblk0 V c 4 t : Vec Ideal S1x128 .f32) (ix2 (0 : Fin 1) q) = V c main_v8 (ix2 (0 : Fin 1) q) := by
  obtain ⟨-, -, -, -, -, -, -, -, e0, e1, -⟩ := c0_idx_facts t
  show V c main_v8 (((cfg0.win 4).blk t).view.emb (ix2 (0 : Fin 1) q)) = V c main_v8 (ix2 (0 : Fin 1) q)
  refine congrArg (V c main_v8) (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 128 + 1 * q.val = q.val; omega

/-- Entry (p, q) of what the body leaves at point t is the layer's entry (5000·t + p, q). -/
theorem c0_block_entry (c : Dev nD) (t : Fin cfg0.N) (p : Fin 5000) (q : Fin 128) (n : Fin 100000) (hn : n.val = 5000 * t.val + p.val) :
    k0_pay1 (F := Ideal) (iblk0 V c 0 t) (iblk0 V c 1 t) (iblk0 V c 2 t) (iblk0 V c 3 t) (iblk0 V c 4 t) (ix2 p q) = Cert.Spec.layerT (F := Ideal) (V c main_arg0) (V c main_v19) (V c main_v4) (V c main_v5) (V c main_v8) (ix2 n q) := by
  rw [pay0_apply, layerT_apply]
  unfold convEntry
  simp only [c0_read_x V c t p _ n hn, c0_read_a V c t p _ n hn, c0_read_wr V c t, c0_read_wl V c t, c0_read_br V c t]

/-- WHAT POINT t WRITES BACK is block t of the layer of the five arrays. -/
theorem c0_flushed_eq (c : Dev nD) (t : Fin cfg0.N) :
    (dat0 (F := Ideal) V c).flushed 5 t = ((cfg0.win 5).blk t).view.read (Elt Ideal) (Cert.Spec.layerT (F := Ideal) (V c main_arg0) (V c main_v19) (V c main_v4) (V c main_v5) (V c main_v8)) := by
  show (cfg0.win 5).cut (grid0.coords t) ((dat0 V c).after 5 t) = _
  rw [after0_5, out0_5_eq]
  funext j
  have hN : cfg0.N = 20 := N_0
  have ht : t.val < 20 := hN ▸ t.isLt
  have hj0 : (j 0).val < 5000 := (j 0).isLt
  have hj1 : (j 1).val < 128 := (j 1).isLt
  obtain ⟨-, -, -, -, -, -, -, -, -, -, e0, e1⟩ := c0_idx_facts t
  show k0_pay1 (F := Ideal) (iblk0 V c 0 t) (iblk0 V c 1 t) (iblk0 V c 2 t) (iblk0 V c 3 t) (iblk0 V c 4 t) j = Cert.Spec.layerT (F := Ideal) (V c main_arg0) (V c main_v19) (V c main_v4) (V c main_v5) (V c main_v8) (((cfg0.win 5).blk t).view.emb j)
  have ej : (j : S5000x128.Idx) = ix2 (⟨(j 0).val, hj0⟩ : Fin 5000) (⟨(j 1).val, hj1⟩ : Fin 128) := funext fun a => Fin.ext (by
    match a with
    | ⟨0, _⟩ => rfl
    | ⟨1, _⟩ => rfl)
  have ei : ((cfg0.win 5).blk t).view.emb j = ix2 (⟨5000 * t.val + (j 0).val, by omega⟩ : Fin 100000) (⟨(j 1).val, hj1⟩ : Fin 128) := funext fun a => Fin.ext (by
    match a with
    | ⟨0, _⟩ => show win0_5.index t (0 : Fin 2) * 5000 + 1 * (j 0).val = 5000 * t.val + (j 0).val; omega
    | ⟨1, _⟩ => show win0_5.index t (1 : Fin 2) * 128 + 1 * (j 1).val = (j 1).val; omega)
  exact (congrArg (k0_pay1 (F := Ideal) (iblk0 V c 0 t) (iblk0 V c 1 t) (iblk0 V c 2 t) (iblk0 V c 3 t) (iblk0 V c 4 t)) ej).trans
    ((c0_block_entry V c t _ _ _ rfl).trans (congrArg (Cert.Spec.layerT (F := Ideal) (V c main_arg0) (V c main_v19) (V c main_v4) (V c main_v5) (V c main_v8)) ei.symm))

/-- An index of the array is in point t's block iff each coordinate is in the block's range on its axis. -/
theorem c0_mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v20).slice (win0_5.rect t)).set ↔ _
  rw [View.set_slice_whole, Rect.mem_set_unit]
  exact Iff.rfl

/-- THE BLOCKS TILE THE ARRAY: row n lies in the block of point n / 5000. -/
theorem c0_cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨-, -, -, -, -, -, -, -, -, -, e0, e1⟩ := c0_idx_facts ⟨(i 0).val / 5000, hlt⟩
  refine ⟨⟨(i 0).val / 5000, hlt⟩, flush0_5 _, ?_⟩
  rw [c0_mem_blk]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hlt⟩ (1 : Fin 2) * 128 ≤ (i 1).val ∧ (i 1).val < win0_5.index ⟨(i 0).val / 5000, hlt⟩ (1 : Fin 2) * 128 + 128
    rw [e1]; omega

/-- THE FIRST CALL'S RESULT ARRAY after the call: the specification's layer of the five arrays the call reads. -/
theorem conv0_arr (c : Dev nD) :
    (dat0 (F := Ideal) V c).arrAt 5 cfg0.N
      = Cert.Spec.layerT (F := Ideal) (V c main_arg0) (V c main_v19) (V c main_v4) (V c main_v5) (V c main_v8) :=
  (dat0 (F := Ideal) V c).arrAt_eq_of_cover 5 _ (fun t _ => c0_flushed_eq V c t) c0_cover

end Cert.KernelIdeal.Hand

end
-- ==== Proof.KI.ConvValue1.lean ====
/-
  What this convolution call leaves in its result array, over the extended reals: the specification's layer of
  the five arrays the call reads.  Over a grid of 20 points the call stages rows 5000·t … 5000·t + 4999 of the node
  features and of the aggregated features and the two weight matrices and the bias row whole, and point t writes back
  rows 5000·t … of the result.  Row n of the array lies in the block of point n / 5000, at row n % 5000 of it; the blocks
  of the 20 points tile the array, and every block is the layer's entries at its rows.
-/
import proofs.«407611_j90099823935523_1_alg».proof.Proof.KI.Conv1
import proofs.«407611_j90099823935523_1_alg».proof.Proof.KI.ConvValue

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the core's buffer contents when the call is entered, over the extended reals
variable (V : (c : Dev nD) → (b : Ref sig .tc) → Buf (Elt Ideal) ((c : Thread nD τ).loc b))

/-- The printed index maps, decided over the grid: at point t the two row windows and the result window are at block
    (t, 0), the two matrices and the bias row at block (0, 0). -/
theorem c1_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the node features' block at point t is row 5000·t + p of the array. -/
theorem c1_read_x (c : Dev nD) (t : Fin cfg1.N) (p : Fin 5000) (k : Fin 128) (n : Fin 100000) (hn : n.val = 5000 * t.val + p.val) :
    (iblk1 V c 0 t : Vec Ideal S5000x128 .f32) (ix2 p k) = V c main_v20 (ix2 n k) := by
  obtain ⟨e0, e1, -⟩ := c1_idx_facts t
  show V c main_v20 (((cfg1.win 0).blk t).view.emb (ix2 p k)) = V c main_v20 (ix2 n k)
  refine congrArg (V c main_v20) (funext fun a => Fin.ext ?_)
  match a with
  | ⟨0, _⟩ => show win1_0.index t (0 : Fin 2) * 5000 + 1 * p.val = n.val; omega
  | ⟨1, _⟩ => show win1_0.index t (1 : Fin 2) * 128 + 1 * k.val = k.val; omega

/-- Row p of the aggregated features' block at point t is row 5000·t + p of the array. -/
theorem c1_read_a (c : Dev nD) (t : Fin cfg1.N) (p : Fin 5000) (k : Fin 128) (n : Fin 100000) (hn : n.val = 5000 * t.val + p.val) :
    (iblk1 V c 1 t : Vec Ideal S5000x128 .f32) (ix2 p k) = V c main_v30 (ix2 n k) := by
  obtain ⟨-, -, e0, e1, -⟩ := c1_idx_facts t
  show V c main_v30 (((cfg1.win 1).blk t).view.emb (ix2 p k)) = V c main_v30 (ix2 n k)
  refine congrArg (V c main_v30) (funext fun a => Fin.ext ?_)
  match a with
  | ⟨0, _⟩ => show win1_1.index t (0 : Fin 2) * 5000 + 1 * p.val = n.val; omega
  | ⟨1, _⟩ => show win1_1.index t (1 : Fin 2) * 128 + 1 * k.val = k.val; omega

/-- The first weight matrix's block at any point is the whole matrix. -/
theorem c1_read_wr (c : Dev nD) (t : Fin cfg1.N) (k q : Fin 128) :
    (iblk1 V c 2 t : Vec Ideal S128x128 .f32) (ix2 k q) = V c main_v6 (ix2 k q) := by
  obtain ⟨-, -, -, -, e0, e1, -⟩ := c1_idx_facts t
  show V c main_v6 (((cfg1.win 2).blk t).view.emb (ix2 k q)) = V c main_v6 (ix2 k q)
  refine congrArg (V c main_v6) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The second weight matrix's block at any point is the whole matrix. -/
theorem c1_read_wl (c : Dev nD) (t : Fin cfg1.N) (k q : Fin 128) :
    (iblk1 V c 3 t : Vec Ideal S128x128 .f32) (ix2 k q) = V c main_v7 (ix2 k q) := by
  obtain ⟨-, -, -, -, -, -, e0, e1, -⟩ := c1_idx_facts t
  show V c main_v7 (((cfg1.win 3).blk t).view.emb (ix2 k q)) = V c main_v7 (ix2 k q)
  refine congrArg (V c main_v7) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias row's block at any point is the whole row. -/
theorem c1_read_br (c : Dev nD) (t : Fin cfg1.N) (q : Fin 128) :
    (iblk1 V c 4 t : Vec Ideal S1x128 .f32) (ix2 (0 : Fin 1) q) = V c main_v9 (ix2 (0 : Fin 1) q) := by
  obtain ⟨-, -, -, -, -, -, -, -, e0, e1, -⟩ := c1_idx_facts t
  show V c main_v9 (((cfg1.win 4).blk t).view.emb (ix2 (0 : Fin 1) q)) = V c main_v9 (ix2 (0 : Fin 1) q)
  refine congrArg (V c main_v9) (funext fun a => Fin.ext ?_)
  match a with
  | ⟨0, _⟩ => show win1_4.index t (0 : Fin 2) * 1 + 1 * (0 : Fin 1).val = (0 : Fin 1).val; omega
  | ⟨1, _⟩ => show win1_4.index t (1 : Fin 2) * 128 + 1 * q.val = q.val; omega

/-- Entry (p, q) of what the body leaves at point t is the layer's entry (5000·t + p, q). -/
theorem c1_block_entry (c : Dev nD) (t : Fin cfg1.N) (p : Fin 5000) (q : Fin 128) (n : Fin 100000) (hn : n.val = 5000 * t.val + p.val) :
    k1_pay1 (F := Ideal) (iblk1 V c 0 t) (iblk1 V c 1 t) (iblk1 V c 2 t) (iblk1 V c 3 t) (iblk1 V c 4 t) (ix2 p q) = Cert.Spec.layerT (F := Ideal) (V c main_v20) (V c main_v30) (V c main_v6) (V c main_v7) (V c main_v9) (ix2 n q) := by
  rw [pay1_apply, layerT_apply]
  unfold convEntry
  simp only [c1_read_x V c t p _ n hn, c1_read_a V c t p _ n hn, c1_read_wr V c t, c1_read_wl V c t, c1_read_br V c t]

/-- WHAT POINT t WRITES BACK is block t of the layer of the five arrays. -/
theorem c1_flushed_eq (c : Dev nD) (t : Fin cfg1.N) :
    (dat1 (F := Ideal) V c).flushed 5 t = ((cfg1.win 5).blk t).view.read (Elt Ideal) (Cert.Spec.layerT (F := Ideal) (V c main_v20) (V c main_v30) (V c main_v6) (V c main_v7) (V c main_v9)) := by
  show (cfg1.win 5).cut (grid1.coords t) ((dat1 V c).after 5 t) = _
  rw [after1_5, out1_5_eq]
  funext j
  have hN : cfg1.N = 20 := N_1
  have ht : t.val < 20 := hN ▸ t.isLt
  have hj0 : (j 0).val < 5000 := (j 0).isLt
  have hj1 : (j 1).val < 128 := (j 1).isLt
  obtain ⟨-, -, -, -, -, -, -, -, -, -, e0, e1⟩ := c1_idx_facts t
  show k1_pay1 (F := Ideal) (iblk1 V c 0 t) (iblk1 V c 1 t) (iblk1 V c 2 t) (iblk1 V c 3 t) (iblk1 V c 4 t) j = Cert.Spec.layerT (F := Ideal) (V c main_v20) (V c main_v30) (V c main_v6) (V c main_v7) (V c main_v9) (((cfg1.win 5).blk t).view.emb j)
  have ej : (j : S5000x128.Idx) = ix2 (⟨(j 0).val, hj0⟩ : Fin 5000) (⟨(j 1).val, hj1⟩ : Fin 128) := funext fun a => Fin.ext (by
    match a with
    | ⟨0, _⟩ => rfl
    | ⟨1, _⟩ => rfl)
  have ei : ((cfg1.win 5).blk t).view.emb j = ix2 (⟨5000 * t.val + (j 0).val, by omega⟩ : Fin 100000) (⟨(j 1).val, hj1⟩ : Fin 128) := funext fun a => Fin.ext (by
    match a with
    | ⟨0, _⟩ => show win1_5.index t (0 : Fin 2) * 5000 + 1 * (j 0).val = 5000 * t.val + (j 0).val; omega
    | ⟨1, _⟩ => show win1_5.index t (1 : Fin 2) * 128 + 1 * (j 1).val = (j 1).val; omega)
  exact (congrArg (k1_pay1 (F := Ideal) (iblk1 V c 0 t) (iblk1 V c 1 t) (iblk1 V c 2 t) (iblk1 V c 3 t) (iblk1 V c 4 t)) ej).trans
    ((c1_block_entry V c t _ _ _ rfl).trans (congrArg (Cert.Spec.layerT (F := Ideal) (V c main_v20) (V c main_v30) (V c main_v6) (V c main_v7) (V c main_v9)) ei.symm))

/-- An index of the array is in point t's block iff each coordinate is in the block's range on its axis. -/
theorem c1_mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v31).slice (win1_5.rect t)).set ↔ _
  rw [View.set_slice_whole, Rect.mem_set_unit]
  exact Iff.rfl

/-- THE BLOCKS TILE THE ARRAY: row n lies in the block of point n / 5000. -/
theorem c1_cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨-, -, -, -, -, -, -, -, -, -, e0, e1⟩ := c1_idx_facts ⟨(i 0).val / 5000, hlt⟩
  refine ⟨⟨(i 0).val / 5000, hlt⟩, flush1_5 _, ?_⟩
  rw [c1_mem_blk]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hlt⟩ (1 : Fin 2) * 128 ≤ (i 1).val ∧ (i 1).val < win1_5.index ⟨(i 0).val / 5000, hlt⟩ (1 : Fin 2) * 128 + 128
    rw [e1]; omega

/-- THE FIRST CALL'S RESULT ARRAY after the call: the specification's layer of the five arrays the call reads. -/
theorem conv1_arr (c : Dev nD) :
    (dat1 (F := Ideal) V c).arrAt 5 cfg1.N
      = Cert.Spec.layerT (F := Ideal) (V c main_v20) (V c main_v30) (V c main_v6) (V c main_v7) (V c main_v9) :=
  (dat1 (F := Ideal) V c).arrAt_eq_of_cover 5 _ (fun t _ => c1_flushed_eq V c t) c1_cover

end Cert.KernelIdeal.Hand

end
-- ==== Proof.PoolSpec.lean ====
/-
  The pooled head as the pooling call lays it out, over the extended reals, as ONE function of the five arrays the call
  reads: a label indicator `oh` (one row per node, one column per label), the node features `h`, a column of counts
  `cnt`, the head's matrix `wT` (features × outputs) and its bias row `brow`:

      out[g, o] = Σ_d ( (Σ_n oh[n, g] · h[n, d]) / max cnt[g, 0] 1 ) · wT[d, o]  +  brow[0, o].
-/
import Idealize.ShloMosaic.PureOps.Ideal
import Idealize.ShloMosaic.Lib.ValueIdx

noncomputable section

open scoped BigOperators

namespace Cert.PoolSpec

open Idealize.ShloMosaic Idealize.ShloMosaic.ValueIdx

/-- The sum over the nodes of indicator × feature, per label `g` and feature `d`. -/
def ohSum (oh : (⟨2, ![100000, 64]⟩ : Shape).Idx → EReal) (h : (⟨2, ![100000, 128]⟩ : Shape).Idx → EReal) (g : Fin 64) (d : Fin 128) : EReal :=
  ∑ n : Fin 100000, oh (ix2 n g) * h (ix2 n d)

/-- The pooled head. -/
def poolK (oh : (⟨2, ![100000, 64]⟩ : Shape).Idx → EReal) (h : (⟨2, ![100000, 128]⟩ : Shape).Idx → EReal)
    (cnt : (⟨2, ![64, 1]⟩ : Shape).Idx → EReal) (wT : (⟨2, ![128, 16]⟩ : Shape).Idx → EReal) (brow : (⟨2, ![1, 16]⟩ : Shape).Idx → EReal) :
    (⟨2, ![64, 16]⟩ : Shape).Idx → EReal :=
  fun i =>
    let g : Fin 64 := i 0
    let o : Fin 16 := i 1
    (∑ d : Fin 128, Ideal.div (ohSum oh h g d) (max (cnt (ix2 g (0 : Fin 1))) ((1 : ℝ) : EReal)) * wT (ix2 d o)) + brow (ix2 (0 : Fin 1) o)

end Cert.PoolSpec

end
-- ==== Proof.KI.PoolValue.lean ====
/-
  What the pooling call leaves in its result array, over the extended reals: the pooled head `PoolSpec.poolK` of the
  five arrays the call reads.  The scratch after point t holds, at entry (g, d), the sum over the rows n < 5000·(t + 1)
  of indicator[n, g] · feature[n, d] — zero plus the first block's product at the first point, the sum so far plus the
  block's product afterwards —, so after the last point the sum over all 100000 rows; the body then divides by the
  counts (at least one), multiplies by the head's matrix and adds the bias row; the one result block is the whole array
  and is written back after the last point only.
-/
import proofs.«407611_j90099823935523_1_alg».proof.Proof.KI.Pool
import proofs.«407611_j90099823935523_1_alg».proof.Proof.PoolSpec
import Idealize.ShloMosaic.Lib.ValueIdx
import Idealize.ShloMosaic.Lib.Pipeline.Value
import Idealize.ShloMosaic.PureOps.Ideal.Laws
import Idealize.ShloMosaic.Lib.IdealHost
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The reset value of the scratch is zero everywhere. -/
theorem pay2_zero (g : Fin 64) (d : Fin 128) : k2_pay1 (F := Ideal) (ix2 g d) = 0 := by
  unfold k2_pay1
  rw [shapeCast_self, broadcast_apply]
  exact Ideal.ofBits_zero_f32

/-- The indicator block's index on its contracted axis (the rows) is the contraction position. -/
theorem lhs_sum_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q

/-- The indicator block's index on its free axis (the labels) is the result's row. -/
theorem lhs_sum_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide),
    dif_pos (show (1 : Fin S5000x64.rank) ∈ dot_S5000x64_S5000x128_S64x128_0_0_1_1_n_n.lhsNonContracting by decide)]
  rfl

/-- The feature block's index on its contracted axis (the rows) is the contraction position. -/
theorem rhs_sum_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q

/-- The feature block's index on its free axis (the features) is the result's column. -/
theorem rhs_sum_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide),
    dif_pos (show (1 : Fin S5000x128.rank) ∈ dot_S5000x64_S5000x128_S64x128_0_0_1_1_n_n.rhsNonContracting by decide)]
  rfl

/-- One point's update of the scratch, read at an entry: the entry so far plus the block's product. -/
theorem pay2_apply (oh : Vec Ideal S5000x64 .bf16) (h : Vec Ideal S5000x128 .f32) (acc : Vec Ideal S64x128 .f32) (g : Fin 64) (d : Fin 128) :
    k2_pay2 (F := Ideal) oh h acc (ix2 g d) = acc (ix2 g d) + ∑ r : Fin 5000, oh (ix2 r g) * h (ix2 r d) := by
  unfold k2_pay2
  simp only [shapeCast_self]
  rw [addf_apply]
  congr 1
  simp only [matmul]
  rw [Ideal.matmul_constant_zero_apply,
    ← Equiv.sum_comp (contrEquiv1 dot_S5000x64_S5000x128_S64x128_0_0_1_1_n_n 5000 rfl rfl).symm]
  refine Finset.sum_congr rfl fun k _ => ?_
  have hk := contrEquiv1_symm_val dot_S5000x64_S5000x128_S64x128_0_0_1_1_n_n 5000 rfl rfl k
  have el : dot_S5000x64_S5000x128_S64x128_0_0_1_1_n_n.lhsIdx (ix2 g d)
      ((contrEquiv1 dot_S5000x64_S5000x128_S64x128_0_0_1_1_n_n 5000 rfl rfl).symm k) = ix2 k g := funext fun a => Fin.ext (by
    match a with
    | ⟨0, _⟩ => exact (lhs_sum_0 _ _).trans hk
    | ⟨1, _⟩ => exact lhs_sum_1 _ _)
  have er : dot_S5000x64_S5000x128_S64x128_0_0_1_1_n_n.rhsIdx (ix2 g d)
      ((contrEquiv1 dot_S5000x64_S5000x128_S64x128_0_0_1_1_n_n 5000 rfl rfl).symm k) = ix2 k d := funext fun a => Fin.ext (by
    match a with
    | ⟨0, _⟩ => exact (rhs_sum_0 _ _).trans hk
    | ⟨1, _⟩ => exact rhs_sum_1 _ _)
  rw [el, er, truncf_apply]

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The pooled operand's index on its free axis (the labels) is the result's row. -/
theorem lhs_head_0 (i : S64x16.Idx) (q : dot_S64x128_S128x16_S64x16_1_0_0_1_n_n.contr.Idx) :
    (dot_S64x128_S128x16_S64x16_1_0_0_1_n_n.lhsIdx i q 0).val = (i 0).val := by
  unfold DotDims.lhsIdx
  rw [dif_neg (show ¬(0 : Fin S64x128.rank) ∈ dot_S64x128_S128x16_S64x16_1_0_0_1_n_n.lhsBatch by decide),
    dif_pos (show (0 : Fin S64x128.rank) ∈ dot_S64x128_S128x16_S64x16_1_0_0_1_n_n.lhsNonContracting by decide)]
  rfl

/-- The pooled operand's index on its contracted axis (the features) is the contraction position. -/
theorem lhs_head_1 (i : S64x16.Idx) (q : dot_S64x128_S128x16_S64x16_1_0_0_1_n_n.contr.Idx) :
    (dot_S64x128_S128x16_S64x16_1_0_0_1_n_n.lhsIdx i q 1).val = (q ⟨0, by decide⟩).val :=
  dot_S64x128_S128x16_S64x16_1_0_0_1_n_n.lhsIdx_val_of_single rfl i q

/-- The head matrix's index on its contracted axis (the features) is the contraction position. -/
theorem rhs_head_0 (i : S64x16.Idx) (q : dot_S64x128_S128x16_S64x16_1_0_0_1_n_n.contr.Idx) :
    (dot_S64x128_S128x16_S64x16_1_0_0_1_n_n.rhsIdx i q 0).val = (q ⟨0, by decide⟩).val :=
  dot_S64x128_S128x16_S64x16_1_0_0_1_n_n.rhsIdx_val_of_single rfl i q

/-- The head matrix's index on its free axis (the outputs) is the result's column. -/
theorem rhs_head_1 (i : S64x16.Idx) (q : dot_S64x128_S128x16_S64x16_1_0_0_1_n_n.contr.Idx) :
    (dot_S64x128_S128x16_S64x16_1_0_0_1_n_n.rhsIdx i q 1).val = (i 1).val := by
  unfold DotDims.rhsIdx
  rw [dif_neg (show ¬(1 : Fin S128x16.rank) ∈ dot_S64x128_S128x16_S64x16_1_0_0_1_n_n.rhsBatch by decide),
    dif_pos (show (1 : Fin S128x16.rank) ∈ dot_S64x128_S128x16_S64x16_1_0_0_1_n_n.rhsNonContracting by decide)]
  rfl

/-- The last point's result block, read at an entry. -/
theorem pay3_apply (cnt : Vec Ideal S64x1 .f32) (acc : Vec Ideal S64x128 .f32) (wT : Vec Ideal S128x16 .f32) (brow : Vec Ideal S1x16 .f32)
    (g : Fin 64) (o : Fin 16) :
    k2_pay3 (F := Ideal) cnt acc wT brow (ix2 g o)
      = (∑ d : Fin 128, Ideal.div (acc (ix2 g d)) (max (cnt (ix2 g (0 : Fin 1))) ((1 : ℝ) : EReal)) * wT (ix2 d o)) + brow (ix2 (0 : Fin 1) o) := by
  unfold k2_pay3
  simp only [shapeCast_self]
  rw [addf_apply, broadcastTo_1b_ab_apply]
  congr 1
  simp only [matmul]
  rw [Ideal.matmul_constant_zero_apply,
    ← Equiv.sum_comp (contrEquiv1 dot_S64x128_S128x16_S64x16_1_0_0_1_n_n 128 rfl rfl).symm]
  refine Finset.sum_congr rfl fun k _ => ?_
  have hk := contrEquiv1_symm_val dot_S64x128_S128x16_S64x16_1_0_0_1_n_n 128 rfl rfl k
  have el : dot_S64x128_S128x16_S64x16_1_0_0_1_n_n.lhsIdx (ix2 g o)
      ((contrEquiv1 dot_S64x128_S128x16_S64x16_1_0_0_1_n_n 128 rfl rfl).symm k) = ix2 g k := funext fun a => Fin.ext (by
    match a with
    | ⟨0, _⟩ => exact lhs_head_0 _ _
    | ⟨1, _⟩ => exact (lhs_head_1 _ _).trans hk)
  have er : dot_S64x128_S128x16_S64x16_1_0_0_1_n_n.rhsIdx (ix2 g o)
      ((contrEquiv1 dot_S64x128_S128x16_S64x16_1_0_0_1_n_n 128 rfl rfl).symm k) = ix2 k o := funext fun a => Fin.ext (by
    match a with
    | ⟨0, _⟩ => exact (rhs_head_0 _ _).trans hk
    | ⟨1, _⟩ => exact rhs_head_1 _ _)
  rw [el, er, truncf_apply, truncf_apply, divf_apply, broadcastTo_a1_ab_apply, maximumf_apply, broadcast_apply]
  rw [show (Scalar.ofBits (F := Ideal) .f32 0x3F800000#32 : EReal) = ((1 : ℝ) : EReal) from
    Ideal.ofBits_one_f32.trans EReal.coe_one.symm]

/-- Row `n`'s term of the sum over the rows at entry (g, d); zero past the last row. -/
def rowTerm (oh : (⟨2, ![100000, 64]⟩ : Shape).Idx → EReal) (hh : (⟨2, ![100000, 128]⟩ : Shape).Idx → EReal)
    (g : Fin 64) (d : Fin 128) (n : ℕ) : EReal :=
  if h : n < 100000 then oh (ix2 (⟨n, h⟩ : Fin 100000) g) * hh (ix2 (⟨n, h⟩ : Fin 100000) d) else 0

/-- The sum over all the rows is the sum of the rows' terms over the first 100000 naturals. -/
theorem ohSum_eq_range (oh : (⟨2, ![100000, 64]⟩ : Shape).Idx → EReal) (hh : (⟨2, ![100000, 128]⟩ : Shape).Idx → EReal)
    (g : Fin 64) (d : Fin 128) :
    Cert.PoolSpec.ohSum oh hh g d = ∑ n ∈ Finset.range 100000, rowTerm oh hh g d n := by
  unfold Cert.PoolSpec.ohSum
  rw [Finset.sum_range]
  refine Finset.sum_congr rfl fun n _ => ?_
  unfold rowTerm
  rw [dif_pos n.isLt]

/-- The rows below 5000·(n + 2) are the rows below 5000·(n + 1) and the 5000 rows of the next block. -/
theorem rows_succ (f : ℕ → EReal) (n : ℕ) :
    ∑ k ∈ Finset.range (5000 * (n + 1 + 1)), f k
      = ∑ k ∈ Finset.range (5000 * (n + 1)), f k + ∑ r ∈ Finset.range 5000, f (5000 * (n + 1) + r) := by
  rw [show 5000 * (n + 1 + 1) = 5000 * (n + 1) + 5000 by omega, Finset.sum_range_add]

/-- The rows of the first block are the rows below 5000. -/
theorem rows_zero (f : ℕ → EReal) :
    ∑ r ∈ Finset.range 5000, f (5000 * 0 + r) = ∑ k ∈ Finset.range (5000 * (0 + 1)), f k := by
  simp only [Nat.mul_zero, Nat.zero_add, Nat.mul_one]

/-- One block's product at an entry, for a block whose rows are rows 5000·t … 5000·t + 4999 of the two arrays: the
    sum of those rows' terms. -/
theorem block_sum_of (oh : Vec Ideal S5000x64 .bf16) (h : Vec Ideal S5000x128 .f32)
    (A : (⟨2, ![100000, 64]⟩ : Shape).Idx → EReal) (B : (⟨2, ![100000, 128]⟩ : Shape).Idx → EReal)
    (g : Fin 64) (d : Fin 128) (t : ℕ) (ht : t < 20)
    (h0 : ∀ (r : Fin 5000) (hn : 5000 * t + r.val < 100000), oh (ix2 r g) = A (ix2 (⟨5000 * t + r.val, hn⟩ : Fin 100000) g))
    (h1 : ∀ (r : Fin 5000) (hn : 5000 * t + r.val < 100000), h (ix2 r d) = B (ix2 (⟨5000 * t + r.val, hn⟩ : Fin 100000) d)) :
    ∑ r : Fin 5000, oh (ix2 r g) * h (ix2 r d) = ∑ r ∈ Finset.range 5000, rowTerm A B g d (5000 * t + r) := by
  rw [Finset.sum_range]
  refine Finset.sum_congr rfl fun r _ => ?_
  have hn : 5000 * t + r.val < 100000 := by have := r.isLt; omega
  unfold rowTerm
  rw [dif_pos hn, h0 r hn, h1 r hn]

/-- The pooled head read at an entry. -/
theorem poolK_apply (oh : (⟨2, ![100000, 64]⟩ : Shape).Idx → EReal) (hh : (⟨2, ![100000, 128]⟩ : Shape).Idx → EReal)
    (cnt : (⟨2, ![64, 1]⟩ : Shape).Idx → EReal) (wT : (⟨2, ![128, 16]⟩ : Shape).Idx → EReal) (brow : (⟨2, ![1, 16]⟩ : Shape).Idx → EReal)
    (g : Fin 64) (o : Fin 16) :
    Cert.PoolSpec.poolK oh hh cnt wT brow (ix2 g o)
      = (∑ d : Fin 128, Ideal.div (Cert.PoolSpec.ohSum oh hh g d) (max (cnt (ix2 g (0 : Fin 1))) ((1 : ℝ) : EReal)) * wT (ix2 d o))
        + brow (ix2 (0 : Fin 1) o) := rfl

/-- The last point's result block is the pooled head once its four operands are known: the counts, the head's matrix
    and the bias row entry by entry, the scratch as the sum over all the rows. -/
theorem pay3_of (cnt : Vec Ideal S64x1 .f32) (acc : Vec Ideal S64x128 .f32) (wT : Vec Ideal S128x16 .f32) (brow : Vec Ideal S1x16 .f32)
    (oh : (⟨2, ![100000, 64]⟩ : Shape).Idx → EReal) (hh : (⟨2, ![100000, 128]⟩ : Shape).Idx → EReal)
    (cnt' : (⟨2, ![64, 1]⟩ : Shape).Idx → EReal) (wT' : (⟨2, ![128, 16]⟩ : Shape).Idx → EReal) (brow' : (⟨2, ![1, 16]⟩ : Shape).Idx → EReal)
    (hc : ∀ x, cnt x = cnt' x) (hw : ∀ x, wT x = wT' x) (hb : ∀ x, brow x = brow' x)
    (ha : ∀ (g : Fin 64) (d : Fin 128), acc (ix2 g d) = Cert.PoolSpec.ohSum oh hh g d) (g : Fin 64) (o : Fin 16) :
    k2_pay3 (F := Ideal) cnt acc wT brow (ix2 g o) = Cert.PoolSpec.poolK oh hh cnt' wT' brow' (ix2 g o) := by
  rw [pay3_apply, poolK_apply, hc, hb]
  refine congrArg (· + brow' (ix2 (0 : Fin 1) o)) (Finset.sum_congr rfl fun d _ => ?_)
  rw [ha, hw]

-- the core's buffer contents when the call is entered, over the extended reals
variable (V : (c : Dev nD) → (b : Ref sig .tc) → Buf (Elt Ideal) ((c : Thread nD τ).loc b))

/-- The windows' block-index maps, decided once over the 20 grid points: the two row-blocked windows sit at block
    (t, 0); the counts, the head's matrix, the bias row and the result have their one block at (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- The indicator window's block at point `t` is rows 5000·t … 5000·t + 4999 of the indicator. -/
theorem blk0_apply (c : Dev nD) (t : Fin cfg2.N) (r : Fin 5000) (g : Fin 64) (hn : 5000 * t.val + r.val < 100000) :
    (iblk2 (F := Ideal) V c 0 t : Vec Ideal S5000x64 .bf16) (ix2 r g)
      = (V c main_v38 : (⟨2, ![100000, 64]⟩ : Shape).Idx → EReal) (ix2 (⟨5000 * t.val + r.val, hn⟩ : Fin 100000) g) := by
  obtain ⟨e0, e1, -⟩ := idx_facts2 t
  show V c main_v38 (((cfg2.win 0).blk t).view.emb (ix2 r g)) = _
  congr 1
  funext a
  apply Fin.ext
  match a with
  | ⟨0, _⟩ => show win2_0.index t (0 : Fin 2) * 5000 + 1 * r.val = 5000 * t.val + r.val; omega
  | ⟨1, _⟩ => show win2_0.index t (1 : Fin 2) * 64 + 1 * g.val = g.val; omega

/-- The feature window's block at point `t` is rows 5000·t … 5000·t + 4999 of the features. -/
theorem blk1_apply (c : Dev nD) (t : Fin cfg2.N) (r : Fin 5000) (d : Fin 128) (hn : 5000 * t.val + r.val < 100000) :
    (iblk2 (F := Ideal) V c 1 t : Vec Ideal S5000x128 .f32) (ix2 r d)
      = (V c main_v31 : (⟨2, ![100000, 128]⟩ : Shape).Idx → EReal) (ix2 (⟨5000 * t.val + r.val, hn⟩ : Fin 100000) d) := by
  obtain ⟨-, -, e0, e1, -⟩ := idx_facts2 t
  show V c main_v31 (((cfg2.win 1).blk t).view.emb (ix2 r d)) = _
  congr 1
  funext a
  apply Fin.ext
  match a with
  | ⟨0, _⟩ => show win2_1.index t (0 : Fin 2) * 5000 + 1 * r.val = 5000 * t.val + r.val; omega
  | ⟨1, _⟩ => show win2_1.index t (1 : Fin 2) * 128 + 1 * d.val = d.val; omega

/-- One point's update of the scratch in terms of the two arrays: the entry so far plus the terms of the 5000 rows
    from row 5000·t on. -/
theorem pay2_block (c : Dev nD) (g : Fin 64) (d : Fin 128) (t : Fin cfg2.N) (acc : Vec Ideal S64x128 .f32) :
    k2_pay2 (F := Ideal) (iblk2 V c 0 t) (iblk2 V c 1 t) acc (ix2 g d)
      = acc (ix2 g d) + ∑ r ∈ Finset.range 5000, rowTerm (V c main_v38) (V c main_v31) g d (5000 * t.val + r) := by
  have hN : cfg2.N = 20 := N_2
  refine (pay2_apply (iblk2 V c 0 t) (iblk2 V c 1 t) acc g d).trans (congrArg (acc (ix2 g d) + ·) ?_)
  exact block_sum_of (iblk2 V c 0 t) (iblk2 V c 1 t) (V c main_v38) (V c main_v31) g d t.val (by have := t.isLt; omega)
    (fun r hn => blk0_apply V c t r g hn) (fun r hn => blk1_apply V c t r d hn)

/-- THE SCRATCH AFTER POINT n, at an entry: the sum of the terms of the rows below 5000·(n + 1). -/
theorem acc_at (c : Dev nD) (g : Fin 64) (d : Fin 128) : ∀ (n : ℕ) (h : n < cfg2.N),
    accAt2 (F := Ideal) V c n h (ix2 g d)
      = ∑ k ∈ Finset.range (5000 * (n + 1)), rowTerm (V c main_v38) (V c main_v31) g d k
  | 0, h => by
    refine (pay2_block V c g d ⟨0, h⟩ (k2_pay1 (F := Ideal))).trans ?_
    rw [pay2_zero, zero_add]
    exact rows_zero (rowTerm (V c main_v38) (V c main_v31) g d)
  | n + 1, h => by
    refine (pay2_block V c g d ⟨n + 1, h⟩ (accAt2 V c n (Nat.lt_of_succ_lt h))).trans ?_
    rw [rows_succ (rowTerm (V c main_v38) (V c main_v31) g d)]
    exact congrArg (· + _) (acc_at c g d n (Nat.lt_of_succ_lt h))

/-- The scratch after the last point: the sum over all the rows. -/
theorem acc_last (c : Dev nD) (g : Fin 64) (d : Fin 128) :
    accAt2 (F := Ideal) V c 19 (by decide) (ix2 g d) = Cert.PoolSpec.ohSum (V c main_v38) (V c main_v31) g d := by
  rw [ohSum_eq_range]
  exact acc_at V c g d 19 _

/-- The counts' one block is the whole counts column. -/
theorem blk2_apply (c : Dev nD) (t : Fin cfg2.N) (x : S64x1.Idx) :
    (iblk2 (F := Ideal) V c 2 t : Vec Ideal S64x1 .f32) x = (V c main_v50 : (⟨2, ![64, 1]⟩ : Shape).Idx → EReal) x := by
  obtain ⟨-, -, -, -, e0, e1, -⟩ := idx_facts2 t
  show V c main_v50 (((cfg2.win 2).blk t).view.emb x) = _
  congr 1
  funext a
  apply Fin.ext
  match a with
  | ⟨0, _⟩ => show win2_2.index t (0 : Fin 2) * 64 + 1 * (x 0).val = (x 0).val; omega
  | ⟨1, _⟩ => show win2_2.index t (1 : Fin 2) * 1 + 1 * (x 1).val = (x 1).val; omega

/-- The head matrix's one block is the whole matrix. -/
theorem blk3_apply (c : Dev nD) (t : Fin cfg2.N) (x : S128x16.Idx) :
    (iblk2 (F := Ideal) V c 3 t : Vec Ideal S128x16 .f32) x = (V c main_v51 : (⟨2, ![128, 16]⟩ : Shape).Idx → EReal) x := by
  obtain ⟨-, -, -, -, -, -, e0, e1, -⟩ := idx_facts2 t
  show V c main_v51 (((cfg2.win 3).blk t).view.emb x) = _
  congr 1
  funext a
  apply Fin.ext
  match a with
  | ⟨0, _⟩ => show win2_3.index t (0 : Fin 2) * 128 + 1 * (x 0).val = (x 0).val; omega
  | ⟨1, _⟩ => show win2_3.index t (1 : Fin 2) * 16 + 1 * (x 1).val = (x 1).val; omega

/-- The bias row's one block is the whole row. -/
theorem blk4_apply (c : Dev nD) (t : Fin cfg2.N) (x : S1x16.Idx) :
    (iblk2 (F := Ideal) V c 4 t : Vec Ideal S1x16 .f32) x = (V c main_v52 : (⟨2, ![1, 16]⟩ : Shape).Idx → EReal) x := by
  obtain ⟨-, -, -, -, -, -, -, -, e0, e1, -⟩ := idx_facts2 t
  show V c main_v52 (((cfg2.win 4).blk t).view.emb x) = _
  congr 1
  funext a
  apply Fin.ext
  match a with
  | ⟨0, _⟩ => show win2_4.index t (0 : Fin 2) * 1 + 1 * (x 0).val = (x 0).val; omega
  | ⟨1, _⟩ => show win2_4.index t (1 : Fin 2) * 16 + 1 * (x 1).val = (x 1).val; omega

/-- THE RESULT BLOCK THE BODY STORES AT THE LAST POINT is the pooled head of the five arrays. -/
theorem out_last (c : Dev nD) (hn : 19 < cfg2.N) :
    outAt2 (F := Ideal) V c ⟨19, hn⟩
      = Cert.PoolSpec.poolK (V c main_v38) (V c main_v31) (V c main_v50) (V c main_v51) (V c main_v52) := by
  funext j
  obtain ⟨g, o, rfl⟩ : ∃ (g : Fin 64) (o : Fin 16), j = ix2 g o := ⟨j 0, j 1, eq_ix2 j⟩
  exact pay3_of (iblk2 V c 2 ⟨19, hn⟩) (accAt2 V c 19 hn) (iblk2 V c 3 ⟨19, hn⟩) (iblk2 V c 4 ⟨19, hn⟩)
    (V c main_v38) (V c main_v31) (V c main_v50) (V c main_v51) (V c main_v52)
    (blk2_apply V c ⟨19, hn⟩) (blk3_apply V c ⟨19, hn⟩) (blk4_apply V c ⟨19, hn⟩) (acc_last V c) g o

/-- WHAT A POINT THAT WRITES BACK WRITES — only the last point does — is the one block, the whole, of the pooled head. -/
theorem flushed5_eq (c : Dev nD) (t : Fin cfg2.N) (hf : (cfg2.win 5).flush t = true) :
    (dat2 (F := Ideal) V c).flushed 5 t
      = ((cfg2.win 5).blk t).view.read (Elt Ideal)
          (Cert.PoolSpec.poolK (V c main_v38) (V c main_v31) (V c main_v50) (V c main_v51) (V c main_v52)) := by
  have hN : cfg2.N = 20 := N_2
  have h19 : t.val = 19 := by have := (flush2_5 t).mp hf; have := t.isLt; omega
  obtain ⟨n, hn⟩ := t
  obtain rfl : n = 19 := h19
  obtain ⟨-, -, -, -, -, -, -, -, -, -, e0, e1⟩ := idx_facts2 ⟨19, hn⟩
  show (cfg2.win 5).cut (cfg2.grid.coords ⟨19, hn⟩) ((dat2 (F := Ideal) V c).after 5 ⟨19, hn⟩) = _
  rw [after2_5, out_last V c hn]
  funext j
  show Cert.PoolSpec.poolK (V c main_v38) (V c main_v31) (V c main_v50) (V c main_v51) (V c main_v52)
      ((cfg2.win 5).xinj (cfg2.grid.coords ⟨19, hn⟩) j)
    = Cert.PoolSpec.poolK (V c main_v38) (V c main_v31) (V c main_v50) (V c main_v51) (V c main_v52)
      (((cfg2.win 5).blk ⟨19, hn⟩).view.emb j)
  congr 1
  funext a
  apply Fin.ext
  match a with
  | ⟨0, _⟩ => show (j 0).val = win2_5.index ⟨19, hn⟩ (0 : Fin 2) * 64 + 1 * (j 0).val; omega
  | ⟨1, _⟩ => show (j 1).val = win2_5.index ⟨19, hn⟩ (1 : Fin 2) * 16 + 1 * (j 1).val; omega

/-- THE POOLING CALL'S RESULT ARRAY after the call: the pooled head of the five arrays the call reads. -/
theorem pool_arr (c : Dev nD) :
    (dat2 (F := Ideal) V c).arrAt 5 cfg2.N
      = Cert.PoolSpec.poolK (V c main_v38) (V c main_v31) (V c main_v50) (V c main_v51) (V c main_v52) := by
  have hN : cfg2.N = 20 := N_2
  have h19 : 19 < cfg2.N := by omega
  refine (dat2 (F := Ideal) V c).arrAt_eq_of_cover 5 _ (fun t hf => flushed5_eq V c t hf) fun i => ?_
  obtain ⟨-, -, -, -, -, -, -, -, -, -, e0, e1⟩ := idx_facts2 ⟨19, h19⟩
  refine ⟨⟨19, h19⟩, (flush2_5 ⟨19, h19⟩).mpr rfl, ?_⟩
  show i ∈ ((View.whole main_v53).slice (win2_5.rect ⟨19, h19⟩)).set
  rw [View.set_slice_whole, Rect.mem_set_unit]
  intro a
  have h0 : (i 0 : ℕ) < 64 := (i 0).isLt
  have h1 : (i 1 : ℕ) < 16 := (i 1).isLt
  match a with
  | ⟨0, _⟩ =>
    show win2_5.index ⟨19, h19⟩ (0 : Fin 2) * 64 ≤ (i 0 : ℕ) ∧ (i 0 : ℕ) < win2_5.index ⟨19, h19⟩ (0 : Fin 2) * 64 + 64
    omega
  | ⟨1, _⟩ =>
    show win2_5.index ⟨19, h19⟩ (1 : Fin 2) * 16 ≤ (i 1 : ℕ) ∧ (i 1 : ℕ) < win2_5.index ⟨19, h19⟩ (1 : Fin 2) * 16 + 16
    omega

end Cert.KernelIdeal.Hand

end
-- ==== Proof.KI.HostTerms.lean ====
/-
  What the kernel's host lines compute between its calls, as named functions of the argument arrays (each the printed
  operations composed, at any float instance):

  * `aggK x e`        — per node, the sum of `x[src]` over the edges arriving at it (the lines before each convolution call);
  * `rowOf b`         — a bias vector as a 1 × 128 row;  `wT W` — a weight matrix transposed;
  * `onehotOf batch`  — the label indicator: entry (n, g) is one where node `n` carries label `g`, else zero;
  * `clipped batch`   — the labels with the negative ones replaced by zero;
  * `countIdx batch`  — those as scatter indices (a negative one would count from the end: none is, after the clip);
  * `countsOf batch`  — per label, the number of nodes whose clipped label it is, as a 64 × 1 column of floats;
  * `wfcTOf Wfc`, `bfcRowOf bfc` — the head's matrix transposed and its bias as a 1 × 16 row.
-/
import proofs.«407611_j90099823935523_1_alg».proof.Proof.Gen.KernelIdeal

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

abbrev KF (s : Shape) : Type := (⟨s, .f32⟩ : BufTy).Contents (Elt F)
abbrev KI (s : Shape) : Type := (⟨s, .i32⟩ : BufTy).Contents (Elt F)

/-- Row 0 of the edge list (sources) and row 1 (destinations). -/
def srcK (e : KI (F := F) S2x1600000) : KI (F := F) S1600000 :=
  shapeCast _ (extractStridedSlice S1x1600000 ![0, 0] e slices_S2x1600000_S1x1600000_0_0) shapeCasts_S1x1600000_S1600000
def dstK (e : KI (F := F) S2x1600000) : KI (F := F) S1600000 :=
  shapeCast _ (extractStridedSlice S1x1600000 ![1, 0] e slices_S2x1600000_S1x1600000_1_0) shapeCasts_S1x1600000_S1600000

/-- The source indices as the gather reads them. -/
def srcIdxK (e : KI (F := F) S2x1600000) : KI (F := F) S1600000x1 :=
  broadcastInDim S1600000x1 ![0] bcast_S1600000_S1600000x1_0
    (select (cmpi .slt (srcK e) (broadcastInDim S1600000 ![] bcast_S_S1600000 (constantI S_ 32 0#32)))
      (addi (srcK e) (broadcastInDim S1600000 ![] bcast_S_S1600000 (constantI S_ 32 100000#32))) (srcK e))

/-- Per node, the sum of `x[src]` over the edges arriving at it. -/
def aggK (x : KF (F := F) S100000x128) (e : KI (F := F) S2x1600000) : KF (F := F) S100000x128 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dstK e))
    (Host.gather gather_S100000x128_S1600000x1_S1600000x128_1_0_n_n_0_1_1128 x (srcIdxK e))

/-- A weight matrix transposed; a bias vector as a row. -/
def wT (W : KF (F := F) S128x128) : KF (F := F) S128x128 := transpose S128x128 [1, 0] W transposes_S128x128_S128x128_1_0
def rowOf (b : KF (F := F) S128) : KF (F := F) S1x128 := shapeCast _ b shapeCasts_S128_S1x128

/-- The label indicator. -/
def onehotOf (batch : KI (F := F) S100000) : (⟨S100000x64, .bf16⟩ : BufTy).Contents (Elt F) :=
  uitofp .bf16
    (cmpi .eq
      (broadcastInDim S100000x64 ![0, 1] bcast_S100000x1_S100000x64_0_1 (broadcastInDim S100000x1 ![0] bcast_S100000_S100000x1_0 batch))
      (broadcastInDim S100000x64 ![0, 1] bcast_S1x64_S100000x64_0_1 (broadcastInDim S1x64 ![1] bcast_S64_S1x64_1 (iotaInDim S64 32 0))))

/-- The labels, the negative ones replaced by zero. -/
def clipped (batch : KI (F := F) S100000) : KI (F := F) S100000 :=
  maxsi (broadcastInDim S100000 ![] bcast_S_S100000 (id (constantI S_ 32 0#32))) batch

/-- The clipped labels as scatter indices. -/
def countIdx (batch : KI (F := F) S100000) : KI (F := F) S100000x1 :=
  broadcastInDim S100000x1 ![0] bcast_S100000_S100000x1_0
    (select (cmpi .slt (clipped batch) (broadcastInDim S100000 ![] bcast_S_S100000 (constantI S_ 32 0#32)))
      (addi (clipped batch) (broadcastInDim S100000 ![] bcast_S_S100000 (constantI S_ 32 64#32))) (clipped batch))

/-- Per label, the number of nodes whose clipped label it is, as a column of floats. -/
def countsOf (batch : KI (F := F) S100000) : KF (F := F) S64x1 :=
  shapeCast _
    (sitofp .f32
      (Host.scatter scatter_S64_S100000x1_S100000_n_0_0_1 IntOp.addi
        (broadcastInDim S64 ![] bcast_S_S64 (constantI S_ 32 0#32)) (countIdx batch)
        (broadcastInDim S100000 ![] bcast_S_S100000 (constantI S_ 32 1#32))))
    shapeCasts_S64_S64x1

/-- The head's matrix transposed and its bias as a row. -/
def wfcTOf (Wfc : KF (F := F) S16x128) : KF (F := F) S128x16 := transpose S128x16 [1, 0] Wfc transposes_S16x128_S128x16_1_0
def bfcRowOf (bfc : KF (F := F) S16) : KF (F := F) S1x16 := shapeCast _ bfc shapeCasts_S16_S1x16

end Cert.KernelIdeal.Hand

end
-- ==== Proof.KI.HostValues.lean ====
/-
  What the kernel's host lines leave in the buffers its three calls read, as the named functions of `HostTerms` applied
  to the launch contents of the arguments and to what the earlier calls left (`outs`): before the first call the
  aggregated features of `x`, the first layer's weights transposed and its bias as a row; before the second call the
  same of the first call's result and the second layer's parameters; before the pooling call the label indicator, the
  counts column, the head's matrix transposed and its bias row.  And: each of those functions is the specification's
  (the same operations over the reference's records; a vector reshaped to a row is the vector broadcast to a row).
-/
import proofs.«407611_j90099823935523_1_alg».proof.Proof.Gen.KernelIdeal.Regions
import proofs.«407611_j90099823935523_1_alg».proof.Proof.KI.HostTerms
import proofs.«407611_j90099823935523_1_alg».proof.Proof.Spec
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (outs : Outs (F := F))

/-! ## Before the first call -/
theorem V1_arg0 (c : Dev nD) : V1 m c main_arg0 = m ((c : Thread nD τ).loc main_arg0) :=
  (V1_of m c main_arg0 (by decide)).trans rfl
theorem V1_v19 (c : Dev nD) : V1 m c main_v19 = aggK (m ((c : Thread nD τ).loc main_arg0)) (m ((c : Thread nD τ).loc main_arg1)) := by
  show StableHlo.after hostOps0 (fun b => m (c, b)) (Proc.devRef .tc main_v19) = _
  after_results_simp
  rfl
theorem V1_v4 (c : Dev nD) : V1 m c main_v4 = wT (m ((c : Thread nD τ).loc main_arg3)) := by
  show StableHlo.after hostOps0 (fun b => m (c, b)) (Proc.devRef .tc main_v4) = _
  after_results
  rfl
theorem V1_v5 (c : Dev nD) : V1 m c main_v5 = wT (m ((c : Thread nD τ).loc main_arg4)) := by
  show StableHlo.after hostOps0 (fun b => m (c, b)) (Proc.devRef .tc main_v5) = _
  after_results
  rfl
theorem V1_v8 (c : Dev nD) : V1 m c main_v8 = rowOf (m ((c : Thread nD τ).loc main_arg5)) := by
  show StableHlo.after hostOps0 (fun b => m (c, b)) (Proc.devRef .tc main_v8) = _
  after_results
  rfl

/-! ## Before the second call -/
/-- What the first call's result buffer holds once that call has run. -/
theorem V2_v20 (c : Dev nD) : V2 m outs c main_v20 = outs 2 main_v20 c :=
  Function.update_self _ _ _

/-- The edge list's two rows, written before the first call, are still there after it. -/
theorem V2_v1 (c : Dev nD) : V2 m outs c main_v1 = srcK (m ((c : Thread nD τ).loc main_arg1)) := by
  refine (V2_of m outs c main_v1 (by decide)).trans ?_
  show StableHlo.after hostOps0 (fun b => m (c, b)) (Proc.devRef .tc main_v1) = _
  after_results
  rfl
theorem V2_v3 (c : Dev nD) : V2 m outs c main_v3 = dstK (m ((c : Thread nD τ).loc main_arg1)) := by
  refine (V2_of m outs c main_v3 (by decide)).trans ?_
  show StableHlo.after hostOps0 (fun b => m (c, b)) (Proc.devRef .tc main_v3) = _
  after_results
  rfl

theorem V3_v20 (c : Dev nD) : V3 m outs c main_v20 = outs 2 main_v20 c :=
  (V3_of m outs c main_v20 (by decide)).trans (V2_v20 m outs c)

theorem V3_v30 (c : Dev nD) : V3 m outs c main_v30 = aggK (outs 2 main_v20 c) (m ((c : Thread nD τ).loc main_arg1)) := by
  show StableHlo.after hostOps1 (V2 m outs c) (Proc.devRef .tc main_v30) = _
  after_results_simp
  rw [V2_v1, V2_v3, V2_v20]
  rfl

theorem V3_v6 (c : Dev nD) : V3 m outs c main_v6 = wT (m ((c : Thread nD τ).loc main_arg6)) := by
  refine (V3_of m outs c main_v6 (by decide)).trans ((V2_of m outs c main_v6 (by decide)).trans ?_)
  show StableHlo.after hostOps0 (fun b => m (c, b)) (Proc.devRef .tc main_v6) = _
  after_results
  rfl
theorem V3_v7 (c : Dev nD) : V3 m outs c main_v7 = wT (m ((c : Thread nD τ).loc main_arg7)) := by
  refine (V3_of m outs c main_v7 (by decide)).trans ((V2_of m outs c main_v7 (by decide)).trans ?_)
  show StableHlo.after hostOps0 (fun b => m (c, b)) (Proc.devRef .tc main_v7) = _
  after_results
  rfl
theorem V3_v9 (c : Dev nD) : V3 m outs c main_v9 = rowOf (m ((c : Thread nD τ).loc main_arg8)) := by
  refine (V3_of m outs c main_v9 (by decide)).trans ((V2_of m outs c main_v9 (by decide)).trans ?_)
  show StableHlo.after hostOps0 (fun b => m (c, b)) (Proc.devRef .tc main_v9) = _
  after_results
  rfl

/-! ## Before the pooling call -/
/-- The labels and the head's matrix and bias are arguments: no item up to the second call's result writes them. -/
theorem V4_arg2 (c : Dev nD) : V4 m outs c main_arg2 = m ((c : Thread nD τ).loc main_arg2) :=
  (V4_of m outs c main_arg2 (by decide)).trans <| (V3_of m outs c main_arg2 (by decide)).trans <|
    (V2_of m outs c main_arg2 (by decide)).trans <| (V1_of m c main_arg2 (by decide)).trans rfl
theorem V4_arg9 (c : Dev nD) : V4 m outs c main_arg9 = m ((c : Thread nD τ).loc main_arg9) :=
  (V4_of m outs c main_arg9 (by decide)).trans <| (V3_of m outs c main_arg9 (by decide)).trans <|
    (V2_of m outs c main_arg9 (by decide)).trans <| (V1_of m c main_arg9 (by decide)).trans rfl
theorem V4_arg10 (c : Dev nD) : V4 m outs c main_arg10 = m ((c : Thread nD τ).loc main_arg10) :=
  (V4_of m outs c main_arg10 (by decide)).trans <| (V3_of m outs c main_arg10 (by decide)).trans <|
    (V2_of m outs c main_arg10 (by decide)).trans <| (V1_of m c main_arg10 (by decide)).trans rfl

theorem V7_v38 (c : Dev nD) : V7 m outs c main_v38 = onehotOf (m ((c : Thread nD τ).loc main_arg2)) := by
  refine (V7_of m outs c main_v38 (by decide)).trans ((V6_of m outs c main_v38 (by decide)).trans ?_)
  show StableHlo.after hostOps2 (V4 m outs c) (Proc.devRef .tc main_v38) = _
  after_results
  rw [V4_arg2]
  rfl

theorem V7_v31 (c : Dev nD) : V7 m outs c main_v31 = outs 4 main_v31 c :=
  (V7_of m outs c main_v31 (by decide)).trans <| (V6_of m outs c main_v31 (by decide)).trans <|
    (V5_of m outs c main_v31 (by decide)).trans (Function.update_self _ _ _)

/-- The counts column is written by the third pooling stretch from the clipped labels the second leaves and the zero
    vector the first leaves. -/
theorem V7_v50 (c : Dev nD) : V7 m outs c main_v50 = countsOf (m ((c : Thread nD τ).loc main_arg2)) := by
  show StableHlo.after hostOps2_2 (V6 m outs c) (Proc.devRef .tc main_v50) = _
  after_results_simp
  rw [V4_arg2]
  rfl

theorem V7_v51 (c : Dev nD) : V7 m outs c main_v51 = wfcTOf (m ((c : Thread nD τ).loc main_arg9)) := by
  show StableHlo.after hostOps2_2 (V6 m outs c) (Proc.devRef .tc main_v51) = _
  after_results
  rw [V4_arg9]
  rfl
theorem V7_v52 (c : Dev nD) : V7 m outs c main_v52 = bfcRowOf (m ((c : Thread nD τ).loc main_arg10)) := by
  show StableHlo.after hostOps2_2 (V6 m outs c) (Proc.devRef .tc main_v52) = _
  after_results
  rw [V4_arg10]
  rfl

/-! ## The same functions in the specification's spelling -/
theorem aggK_eq (x : KF (F := F) S100000x128) (e : KI (F := F) S2x1600000) : aggK x e = Cert.Spec.agg (F := F) x e := rfl
theorem wT_eq (W : KF (F := F) S128x128) :
    wT W = transpose Cert.ReferenceIdeal.S128x128 [1, 0] W Cert.ReferenceIdeal.Facts₀.transposes_S128x128_S128x128_1_0 := rfl

open Idealize.ShloMosaic.ValueIdx in
/-- A vector of 128 entries reshaped to a 1 × 128 row is the vector broadcast along axis 1 into that row: at
    `(u, i)` both read the vector at `i`. -/
theorem row_cast_eq_bcast {α : Type} (b : (⟨1, ![128]⟩ : Shape).Idx → α)
    (hc : (⟨1, ![128]⟩ : Shape).ShapeCasts ⟨2, ![1, 128]⟩)
    (hb : (⟨1, ![128]⟩ : Shape).BroadcastsInDim ⟨2, ![1, 128]⟩ (![1] : Fin 1 → Fin 2)) :
    shapeCast ⟨2, ![1, 128]⟩ b hc = broadcastInDim ⟨2, ![1, 128]⟩ ![1] hb b := by
  funext j
  obtain ⟨u, i, rfl⟩ : ∃ (u : Fin 1) (i : Fin 128), j = ix2 u i := ⟨j 0, j 1, eq_ix2 j⟩
  rw [shapeCast_a_1a_apply]
  exact (broadcastInDim_apply _ hb b _ (ix1 i) (fun a => by
    match a with
    | ⟨0, _⟩ => rfl)).symm

theorem rowOf_eq (b : KF (F := F) S128) :
    rowOf b = broadcastInDim Cert.ReferenceIdeal.S1x128 ![1] Cert.ReferenceIdeal.Facts₀.bcast_S128_S1x128_1 b :=
  row_cast_eq_bcast b _ _

end Cert.KernelIdeal.Hand

end
-- ==== Proof.PoolMath.lean ====
/-
  Why the kernel's pooling is the specification's, over the extended reals, when no node's label is negative.

  The kernel multiplies the node features by a label INDICATOR (entry (n, g) one where node n carries label g, else
  zero) and sums over the nodes; the specification adds each node's row to the row of its label and drops a node whose
  label is no row.  A product with zero is zero and with one the factor itself, on every extended real, so the two sums
  have the same terms: Σ_n [batch n = g] · h[n, d] = Σ_{n : batch n = g} h[n, d], whatever the labels are.
  The COUNTS differ in how a label outside 0 … 63 is treated: the kernel first replaces a negative label by zero and
  then counts, so a negative label would be counted under label 0, where the specification drops it; a label of 64 or
  more is dropped by both.  With every label at least zero the clip changes nothing and both count, per label g, the
  nodes whose label is g; the integer count, at most 100000, converts to the same real the specification's sum of ones
  gives.  The division, the head's product and the bias are then the same operations on equal operands.
-/
import proofs.«407611_j90099823935523_1_alg».proof.Defs
import proofs.«407611_j90099823935523_1_alg».proof.Proof.Gen.Pre_finite_inputs
import proofs.«407611_j90099823935523_1_alg».proof.Proof.KI.HostTerms
import proofs.«407611_j90099823935523_1_alg».proof.Proof.Spec
import proofs.«407611_j90099823935523_1_alg».proof.Proof.PoolSpec
import Idealize.ShloMosaic.Lib.ValueIdx
import Idealize.ShloMosaic.Lib.Pipeline.Value
import Idealize.ShloMosaic.Lib.ReduceAll
import Idealize.ShloMosaic.Lib.StableHlo.Predicate
import Idealize.ShloMosaic.PureOps.Ideal.Laws
import Idealize.ShloMosaic.Lib.IdealHost
import Idealize.ShloMosaic.Lib.ValueLayout

set_option maxRecDepth 16384

noncomputable section

open scoped BigOperators

namespace Cert.PoolMath

open Idealize.ShloMosaic Idealize.ShloMosaic.TcCoe Idealize.ShloMosaic.ValueIdx Idealize.SL.Sem
open Cert.KernelIdeal.Hand

instance : Subsingleton Cert.Pre_finite_inputs.S_.Idx := ⟨fun a b => funext fun d => d.elim0⟩

/-- The precondition says, among its conjuncts, that no label is negative. -/
theorem batch_nonneg (m : (ℓ : Loc Cert.KernelIdeal.nD Cert.KernelIdeal.τ Cert.KernelIdeal.sig) → Buf (Elt Ideal) ℓ)
    (hpre : Cert.Pre_KernelIdeal m) (c : Dev Cert.KernelIdeal.nD) (n : Fin 100000) :
    0 ≤ (m ((c.tc : Thread Cert.KernelIdeal.nD Cert.KernelIdeal.τ).loc Cert.KernelIdeal.main_arg2) (ix1 n)).toInt := by
  -- the printed predicate is a conjunction of ten "all" reductions; the last one is "every label ≥ 0"
  have h := congrFun (hpre c) ix0
  dsimp only [Cert.Pre_finite_inputs.fn, Cert.Pre_finite_inputs.fn_part1, Cert.Pre_finite_inputs.fn_part2] at h
  have h46 := (IntOp.andi_eq_one.1 h).2
  have h1 := Host.reduce_andi_all _ _ _ _ _ h46 (ix1 n)
  -- at node n the signed compare "label ≥ 0" is the bit of 0 ≤ label
  have h2 : BitVec.ofBool ((0#32 : BitVec 32).sle
      (m ((c.tc : Thread Cert.KernelIdeal.nD Cert.KernelIdeal.τ).loc Cert.KernelIdeal.main_arg2) (ix1 n))) = 1#1 := h1
  rw [StableHlo.Predicate.ofBool_eq_one_iff] at h2
  simpa [BitVec.sle] using h2

/-! ### Broadcasts read at an entry -/

/-- A vector as a column reads, at (p, z), the vector at p. -/
theorem col1_apply {α : Type} {n : Nat} (h₁ : (⟨1, ![n]⟩ : Shape).BroadcastsInDim ⟨2, ![n, 1]⟩ ![0])
    (v : (⟨1, ![n]⟩ : Shape).Idx → α) (p : Fin n) (z : Fin 1) :
    broadcastInDim ⟨2, ![n, 1]⟩ ![0] h₁ v (ix2 p z) = v (ix1 p) := by
  refine broadcastInDim_apply _ _ _ _ (ix1 p) (fun a => ?_)
  have hp := p.isLt
  match a with
  | ⟨0, _⟩ => show p.val = if n = 1 then 0 else p.val; split <;> omega

/-- A vector as a row reads, at (z, q), the vector at q. -/
theorem row1_apply {α : Type} {m : Nat} (h₁ : (⟨1, ![m]⟩ : Shape).BroadcastsInDim ⟨2, ![1, m]⟩ ![1])
    (v : (⟨1, ![m]⟩ : Shape).Idx → α) (z : Fin 1) (q : Fin m) :
    broadcastInDim ⟨2, ![1, m]⟩ ![1] h₁ v (ix2 z q) = v (ix1 q) := by
  refine broadcastInDim_apply _ _ _ _ (ix1 q) (fun a => ?_)
  have hq := q.isLt
  match a with
  | ⟨0, _⟩ => show q.val = if m = 1 then 0 else q.val; split <;> omega

/-- A column laid across a rectangle reads, at (p, q), the column at (p, 0). -/
theorem ofCol_apply {α : Type} {n m : Nat} (h₂ : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h₂ v (ix2 p q) = v (ix2 p (0 : Fin 1)) := by
  refine broadcastInDim_apply _ _ _ _ (ix2 p (0 : Fin 1)) (fun a => ?_)
  have hp := p.isLt
  match a with
  | ⟨0, _⟩ => show p.val = if n = 1 then 0 else p.val; split <;> omega
  | ⟨1, _⟩ => show (0 : Nat) = if 1 = 1 then 0 else q.val; rfl

/-- A row laid down a rectangle reads, at (p, q), the row at (0, q). -/
theorem ofRow_apply {α : Type} {n m : Nat} (h₂ : (⟨2, ![1, m]⟩ : Shape).BroadcastsInDim ⟨2, ![n, m]⟩ ![0, 1])
    (v : (⟨2, ![1, m]⟩ : Shape).Idx → α) (p : Fin n) (q : Fin m) :
    broadcastInDim ⟨2, ![n, m]⟩ ![0, 1] h₂ v (ix2 p q) = v (ix2 (0 : Fin 1) q) := by
  refine broadcastInDim_apply _ _ _ _ (ix2 (0 : Fin 1) q) (fun a => ?_)
  have hq := q.isLt
  match a with
  | ⟨0, _⟩ => show (0 : Nat) = if 1 = 1 then 0 else p.val; rfl
  | ⟨1, _⟩ => show q.val = if m = 1 then 0 else q.val; split <;> omega

/-! ### The label indicator at an entry -/

/-- Entry (n, g) of the indicator is one where node n carries label g, else zero. -/
theorem onehot_apply (batch : KI (F := Ideal) Cert.KernelIdeal.S100000) (n : Fin 100000) (g : Fin 64) :
    onehotOf (F := Ideal) batch (ix2 n g) = if batch (ix1 n) = BitVec.ofNat 32 g.val then (1 : EReal) else 0 := by
  unfold onehotOf
  show (((IntOp.cmpi .eq (broadcastInDim _ _ _ (broadcastInDim _ _ _ batch) (ix2 n g))
      (broadcastInDim _ _ _ (broadcastInDim _ _ _ (iotaInDim Cert.KernelIdeal.S64 32 0)) (ix2 n g))).toNat : ℝ) : EReal) = _
  rw [ofCol_apply, col1_apply, ofRow_apply, row1_apply]
  show (((IntOp.cmpi .eq (batch (ix1 n)) (BitVec.ofNat 32 g.val)).toNat : ℝ) : EReal) = _
  by_cases h : batch (ix1 n) = BitVec.ofNat 32 g.val
  · rw [if_pos h, StableHlo.Predicate.cmpi_eq_iff.2 h]; simp
  · rw [if_neg h, eq_zero_of_ne_one (fun e => h (StableHlo.Predicate.cmpi_eq_iff.1 e))]; simp

/-! ### Where the row scatter puts an update

The specification's row scatter adds row n of the updates to row (label of n) of the operand: update index (n, d)
lands at (label n, d), the label read signed and not clamped, and is dropped when the label is no row. -/

abbrev dR : ScatterDims Cert.ReferenceIdeal.S64x128 Cert.ReferenceIdeal.S100000x1 Cert.ReferenceIdeal.S100000x128 :=
  Cert.ReferenceIdeal.scatter_S64x128_S100000x1_S100000x128_1_0_0_1

theorem dR_start1 (j : Cert.ReferenceIdeal.S100000x128.Idx) (idx : IVec Cert.ReferenceIdeal.S100000x1 32) :
    dR.start j idx 1 = 0 := by
  unfold ScatterDims.start
  exact dif_neg (by decide)

theorem dR_window0 (j : Cert.ReferenceIdeal.S100000x128.Idx) : dR.window j 0 = 0 := by
  unfold ScatterDims.window
  exact dif_neg (by decide)

theorem dR_window1 (j : Cert.ReferenceIdeal.S100000x128.Idx) : dR.window j 1 = (j 1).val := by
  unfold ScatterDims.window
  rw [dif_pos (by decide)]
  rfl

theorem dR_start0 (j : Cert.ReferenceIdeal.S100000x128.Idx) (idx : IVec Cert.ReferenceIdeal.S100000x1 32) :
    dR.start j idx 0 = (idx (ix2 (j 0) (0 : Fin 1))).toInt := by
  unfold ScatterDims.start
  rw [dif_pos (by decide)]
  congr 2
  funext b
  match b with
  | ⟨0, _⟩ => rfl
  | ⟨1, _⟩ => rfl

theorem dR_sum0 (j : Cert.ReferenceIdeal.S100000x128.Idx) (idx : IVec Cert.ReferenceIdeal.S100000x1 32) :
    dR.start j idx 0 + (dR.window j 0 : ℤ) = (idx (ix2 (j 0) (0 : Fin 1))).toInt := by
  rw [dR_start0, dR_window0]; simp

theorem dR_sum1 (j : Cert.ReferenceIdeal.S100000x128.Idx) (idx : IVec Cert.ReferenceIdeal.S100000x1 32) :
    dR.start j idx 1 + (dR.window j 1 : ℤ) = ((j 1).val : ℤ) := by
  rw [dR_start1, dR_window1]; simp

/-- Update (n, d') lands at (g, d) exactly when the label of n, read signed, is g and d' is d. -/
theorem dR_resultIdx (idx : IVec Cert.ReferenceIdeal.S100000x1 32) (j : Cert.ReferenceIdeal.S100000x128.Idx)
    (i : Cert.ReferenceIdeal.S64x128.Idx) :
    dR.resultIdx? j idx = some i ↔ (idx (ix2 (j 0) (0 : Fin 1))).toInt = ((i 0).val : ℤ) ∧ (j 1).val = (i 1).val := by
  have hi0 : (i 0).val < 64 := (i 0).isLt
  have hj1 : (j 1).val < 128 := (j 1).isLt
  unfold ScatterDims.resultIdx?
  by_cases hall : ∀ a, 0 ≤ dR.start j idx a + dR.window j a ∧ dR.start j idx a + dR.window j a < Cert.ReferenceIdeal.S64x128.size a
  · rw [dif_pos hall, Option.some.injEq]
    have h0 := (hall 0).1
    rw [dR_sum0] at h0
    constructor
    · intro e
      have e0 : (dR.start j idx 0 + dR.window j 0).toNat = (i 0).val := congrArg (fun i => (i 0).val) e
      have e1 : (dR.start j idx 1 + dR.window j 1).toNat = (i 1).val := congrArg (fun i => (i 1).val) e
      rw [dR_sum0] at e0; rw [dR_sum1] at e1
      exact ⟨by omega, by omega⟩
    · rintro ⟨h0', h1'⟩
      funext a
      refine Fin.ext ?_
      match a with
      | ⟨0, _⟩ =>
        show (dR.start j idx 0 + dR.window j 0).toNat = (i 0).val
        rw [dR_sum0]; omega
      | ⟨1, _⟩ =>
        show (dR.start j idx 1 + dR.window j 1).toNat = (i 1).val
        rw [dR_sum1]; omega
  · rw [dif_neg hall]
    constructor
    · intro e; exact absurd e (by simp)
    · rintro ⟨h0', h1'⟩
      exfalso; apply hall
      refine (Fin.forall_fin_two (p := fun a => 0 ≤ dR.start j idx a + dR.window j a ∧ dR.start j idx a + dR.window j a < (Cert.ReferenceIdeal.S64x128.size a : ℤ))).2 ⟨?_, ?_⟩
      · rw [dR_sum0, h0']; exact ⟨by omega, by show ((i 0).val : ℤ) < (64 : ℕ); omega⟩
      · rw [dR_sum1]; exact ⟨by omega, by show ((j 1).val : ℤ) < (128 : ℕ); omega⟩

/-! ### The two pooled sums -/

/-- A label word is the word of g (below 64) exactly when it reads, signed, as g. -/
theorem label_eq_iff (b : BitVec 32) (g : Fin 64) : b = BitVec.ofNat 32 g.val ↔ b.toInt = (g.val : ℤ) := by
  have hg : g.val < 2 ^ 31 := lt_trans g.isLt (by norm_num)
  constructor
  · rintro rfl; exact StableHlo.Predicate.toInt_ofNat_small g.val hg
  · intro e
    apply BitVec.eq_of_toInt_eq
    rw [e, StableHlo.Predicate.toInt_ofNat_small g.val hg]

/-- The kernel's sum of indicator × feature keeps the features of the nodes labelled g. -/
theorem ohSum_eq (batch : KI (F := Ideal) Cert.KernelIdeal.S100000) (h : KF (F := Ideal) Cert.KernelIdeal.S100000x128)
    (g : Fin 64) (d : Fin 128) :
    Cert.PoolSpec.ohSum (onehotOf (F := Ideal) batch) h g d
      = ∑ n : Fin 100000, if (batch (ix1 n)).toInt = (g.val : ℤ) then h (ix2 n d) else 0 := by
  unfold Cert.PoolSpec.ohSum
  refine Finset.sum_congr rfl (fun n _ => ?_)
  rw [onehot_apply]
  by_cases e : batch (ix1 n) = BitVec.ofNat 32 g.val
  · rw [if_pos e, if_pos ((label_eq_iff _ g).1 e), one_mul]
  · rw [if_neg e, if_neg (fun e' => e ((label_eq_iff _ g).2 e')), zero_mul]

/-- The specification's row sum at (g, d) is the same filtered sum. -/
theorem segSum_apply (batch : KI (F := Ideal) Cert.KernelIdeal.S100000) (h : KF (F := Ideal) Cert.KernelIdeal.S100000x128)
    (g : Fin 64) (d : Fin 128) :
    Cert.Spec.segSum (F := Ideal) h batch (ix2 g d)
      = ∑ n : Fin 100000, if (batch (ix1 n)).toInt = (g.val : ℤ) then h (ix2 n d) else 0 := by
  unfold Cert.Spec.segSum
  show Ideal.ofBits .f32 0x00000000#32
      + ∑ j ∈ Finset.univ.filter (fun j => dR.resultIdx? j (broadcastInDim _ _ _ batch) = some (ix2 g d)), h j = _
  rw [Ideal.ofBits_zero_f32, zero_add, Finset.sum_filter, sum_idx2]
  refine Finset.sum_congr rfl (fun n _ => ?_)
  have key : ∀ d' : Fin 128, (dR.resultIdx? (ix2 n d') (broadcastInDim _ _ Cert.ReferenceIdeal.Facts₀.bcast_S100000_S100000x1_0 batch) = some (ix2 g d))
      ↔ ((batch (ix1 n)).toInt = (g.val : ℤ) ∧ d' = d) := by
    intro d'
    rw [dR_resultIdx]
    show (broadcastInDim _ _ _ batch (ix2 n (0 : Fin 1))).toInt = (g.val : ℤ) ∧ d'.val = d.val ↔ _
    rw [col1_apply, Fin.val_inj]
  simp only [key]
  by_cases hA : (batch (ix1 n)).toInt = (g.val : ℤ)
  · simp [hA, Finset.sum_ite_eq']
  · simp [hA]

/-! ### Rank-one indices, and where the count scatter puts an update -/

/-- A rank-one index set is its coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

abbrev dC : ScatterDims Cert.ReferenceIdeal.S64 Cert.ReferenceIdeal.S100000x1 Cert.ReferenceIdeal.S100000 :=
  Cert.ReferenceIdeal.scatter_S64_S100000x1_S100000_n_0_0_1

theorem dC_window0 (j : Cert.ReferenceIdeal.S100000.Idx) : dC.window j 0 = 0 := by
  unfold ScatterDims.window
  exact dif_neg (by decide)

theorem dC_start0 (j : Cert.ReferenceIdeal.S100000.Idx) (idx : IVec Cert.ReferenceIdeal.S100000x1 32) :
    dC.start j idx 0 = (idx (ix2 (j 0) (0 : Fin 1))).toInt := by
  unfold ScatterDims.start
  rw [dif_pos (by decide)]
  congr 2
  funext b
  match b with
  | ⟨0, _⟩ => rfl
  | ⟨1, _⟩ => rfl

theorem dC_sum0 (j : Cert.ReferenceIdeal.S100000.Idx) (idx : IVec Cert.ReferenceIdeal.S100000x1 32) :
    dC.start j idx 0 + (dC.window j 0 : ℤ) = (idx (ix2 (j 0) (0 : Fin 1))).toInt := by
  rw [dC_start0, dC_window0]; simp

/-- Update n lands at g exactly when the label of n, read signed, is g. -/
theorem dC_resultIdx (idx : IVec Cert.ReferenceIdeal.S100000x1 32) (j : Cert.ReferenceIdeal.S100000.Idx)
    (i : Cert.ReferenceIdeal.S64.Idx) :
    dC.resultIdx? j idx = some i ↔ (idx (ix2 (j 0) (0 : Fin 1))).toInt = ((i 0).val : ℤ) := by
  have hi0 : (i 0).val < 64 := (i 0).isLt
  unfold ScatterDims.resultIdx?
  by_cases hall : ∀ a, 0 ≤ dC.start j idx a + dC.window j a ∧ dC.start j idx a + dC.window j a < Cert.ReferenceIdeal.S64.size a
  · rw [dif_pos hall, Option.some.injEq]
    have h0 := (hall 0).1
    rw [dC_sum0] at h0
    constructor
    · intro e
      have e0 : (dC.start j idx 0 + dC.window j 0).toNat = (i 0).val := congrArg (fun i => (i 0).val) e
      rw [dC_sum0] at e0
      omega
    · intro h0'
      funext a
      refine Fin.ext ?_
      match a with
      | ⟨0, _⟩ =>
        show (dC.start j idx 0 + dC.window j 0).toNat = (i 0).val
        rw [dC_sum0]; omega
  · rw [dif_neg hall]
    constructor
    · intro e; exact absurd e (by simp)
    · intro h0'
      exfalso; apply hall
      refine (Fin.forall_fin_one (p := fun a => 0 ≤ dC.start j idx a + dC.window j a ∧ dC.start j idx a + dC.window j a < (Cert.ReferenceIdeal.S64.size a : ℤ))).2 ?_
      rw [dC_sum0, h0']; exact ⟨by omega, by show ((i 0).val : ℤ) < (64 : ℕ); omega⟩

/-- The number of nodes labelled g. -/
def labelCount (batch : KI (F := Ideal) Cert.KernelIdeal.S100000) (g : Fin 64) : ℕ :=
  (Finset.univ.filter (fun n : Fin 100000 => (batch (ix1 n)).toInt = (g.val : ℤ))).card

theorem labelCount_le (batch : KI (F := Ideal) Cert.KernelIdeal.S100000) (g : Fin 64) : labelCount batch g ≤ 100000 := by
  unfold labelCount
  exact (Finset.card_le_univ _).trans (by simp)

/-- The specification's count at g is the number of nodes labelled g. -/
theorem segCount_apply (batch : KI (F := Ideal) Cert.KernelIdeal.S100000) (g : Fin 64) :
    Cert.Spec.segCount (F := Ideal) batch (ix1 g) = (labelCount batch g : EReal) := by
  unfold Cert.Spec.segCount labelCount
  show Ideal.ofBits .f32 0x00000000#32
      + ∑ j ∈ Finset.univ.filter (fun j => dC.resultIdx? j (broadcastInDim _ _ _ batch) = some (ix1 g)), Ideal.ofBits .f32 0x3F800000#32 = _
  rw [Ideal.ofBits_zero_f32, zero_add, Ideal.ofBits_one_f32, Finset.sum_filter, sum_idx1]
  have key : ∀ n : Fin 100000, (dC.resultIdx? (ix1 n) (broadcastInDim _ _ Cert.ReferenceIdeal.Facts₀.bcast_S100000_S100000x1_0 batch) = some (ix1 g))
      ↔ (batch (ix1 n)).toInt = (g.val : ℤ) := by
    intro n
    rw [dC_resultIdx]
    show (broadcastInDim _ _ _ batch (ix2 n (0 : Fin 1))).toInt = (g.val : ℤ) ↔ _
    rw [col1_apply]
  simp only [key]
  exact Finset.sum_boole _ _

/-! ### The integer scatter of ones is a count -/

/-- A left fold whose step adds, at the watched place i, one for each element with property P and nothing otherwise,
    ends at the start plus the number of such elements. -/
theorem foldl_count {κ ι : Type} (st : (κ → BitVec 32) → ι → (κ → BitVec 32)) (i : κ) (P : ι → Prop) [DecidablePred P]
    (hst : ∀ r n, st r n i = r i + (if P n then 1#32 else 0#32)) :
    ∀ (l : List ι) (r : κ → BitVec 32), (l.foldl st r) i = r i + BitVec.ofNat 32 (l.countP (fun n => decide (P n)))
  | [], r => by simp
  | a :: l, r => by
    rw [List.foldl_cons, foldl_count st i P hst l, hst, List.countP_cons]
    by_cases hp : P a
    · simp only [hp, if_true, decide_true]
      rw [BitVec.ofNat_add, BitVec.add_assoc, BitVec.add_comm (1#32)]
    · simp [hp]

/-- The integer scatter-add of ones reads, at i, the operand plus the number of updates landing at i. -/
theorem scatter_ones_apply {s si u : Shape} (d : ScatterDims s si u) (idx : IVec si 32) (x : s.Idx → BitVec 32) (i : s.Idx) :
    Host.scatter d IntOp.addi x idx (fun _ => 1#32) i
      = x i + BitVec.ofNat 32 ((List.finRange u.numel).countP
          (fun n => decide (d.resultIdx? (u.rowMajor.symm n) idx = some i))) := by
  unfold Host.scatter
  refine foldl_count _ i (fun n => d.resultIdx? (u.rowMajor.symm n) idx = some i) (fun r n => ?_) _ _
  dsimp only
  cases hres : d.resultIdx? (u.rowMajor.symm n) idx with
  | none => simp
  | some i0 =>
    dsimp only
    by_cases hi : i = i0
    · subst hi; simp [IntOp.addi]
    · simp [hi, Ne.symm hi]

/-- Counting over the list of all positions is the cardinality of the filtered set. -/
theorem countP_finRange {N : Nat} (p : Fin N → Prop) [DecidablePred p] :
    (List.finRange N).countP (fun n => decide (p n)) = (Finset.univ.filter p).card := by
  rw [List.countP_eq_length_filter]
  rfl

/-! ### The kernel's count column -/

/-- With no negative label the clip keeps every label, and the scatter index of node n is its label. -/
theorem countIdx_apply (batch : KI (F := Ideal) Cert.KernelIdeal.S100000) (hb : ∀ n : Fin 100000, 0 ≤ (batch (ix1 n)).toInt)
    (n : Fin 100000) (z : Fin 1) : countIdx (F := Ideal) batch (ix2 n z) = batch (ix1 n) := by
  have h0 : (0#32 : BitVec 32).toInt = 0 := by decide
  have hslt : (batch (ix1 n)).slt 0#32 = false := by
    simp only [BitVec.slt, h0, decide_eq_false_iff_not, not_lt]; exact hb n
  have hclip : clipped (F := Ideal) batch (ix1 n) = batch (ix1 n) := by
    show IntOp.maxsi (0#32) (batch (ix1 n)) = batch (ix1 n)
    unfold IntOp.maxsi
    rw [hslt]; rfl
  unfold countIdx
  rw [col1_apply]
  show Scalar.select (IntOp.cmpi .slt (clipped (F := Ideal) batch (ix1 n)) (0#32))
      (IntOp.addi (clipped (F := Ideal) batch (ix1 n)) (64#32)) (clipped (F := Ideal) batch (ix1 n)) = _
  rw [hclip]
  have hc : IntOp.cmpi .slt (batch (ix1 n)) (0#32) = 0#1 := by
    unfold IntOp.cmpi
    show BitVec.ofBool ((batch (ix1 n)).slt 0#32) = 0#1
    rw [hslt]; rfl
  rw [hc, select_zero]

/-- The kernel's count at g is the number of nodes labelled g, as a real. -/
theorem countsOf_apply (batch : KI (F := Ideal) Cert.KernelIdeal.S100000) (hb : ∀ n : Fin 100000, 0 ≤ (batch (ix1 n)).toInt)
    (g : Fin 64) (z : Fin 1) : countsOf (F := Ideal) batch (ix2 g z) = (labelCount batch g : EReal) := by
  have hz : z.val = 0 := by omega
  unfold countsOf
  refine (shapeCast_apply _ _ _ (ix1 g) ?_).trans ?_
  · rw [Shape.rowMajor_val_one, Shape.rowMajor_val_two]
    show g.val = g.val * 1 + z.val
    omega
  show (((Host.scatter dC IntOp.addi (fun _ => 0#32) (countIdx (F := Ideal) batch) (fun _ => 1#32) (ix1 g)).toInt : ℝ) : EReal) = _
  rw [scatter_ones_apply, countP_finRange, BitVec.zero_add]
  -- the updates landing at g are the nodes labelled g
  have hcard : (Finset.univ.filter (fun n : Fin Cert.ReferenceIdeal.S100000.numel =>
      dC.resultIdx? (Cert.ReferenceIdeal.S100000.rowMajor.symm n) (countIdx (F := Ideal) batch) = some (ix1 g))).card
      = labelCount batch g := by
    unfold labelCount
    refine Finset.card_equiv (Cert.ReferenceIdeal.S100000.rowMajor.symm.trans idxEquiv1) (fun n => ?_)
    simp only [Finset.mem_filter, Finset.mem_univ, true_and]
    refine (dC_resultIdx _ _ _).trans ?_
    have hci : countIdx (F := Ideal) batch (ix2 (idxEquiv1 (Cert.ReferenceIdeal.S100000.rowMajor.symm n)) (0 : Fin 1))
        = batch (ix1 (idxEquiv1 (Cert.ReferenceIdeal.S100000.rowMajor.symm n))) := countIdx_apply batch hb _ _
    exact Eq.to_iff (congrArg (fun w : BitVec 32 => w.toInt = (g.val : ℤ)) hci)
  rw [hcard, StableHlo.Predicate.toInt_ofNat_small _ (lt_of_le_of_lt (labelCount_le batch g) (by norm_num))]
  show ((((labelCount batch g : ℕ) : ℤ) : ℝ) : EReal) = _
  rw [Int.cast_natCast]
  rfl

/-! ### The head's product, its one contracted axis re-indexed by the feature -/

theorem lhs_head_0 (i : Cert.ReferenceIdeal.S64x16.Idx) (q : Cert.ReferenceIdeal.dot_S64x128_S128x16_S64x16_1_0_0_1_n_n.contr.Idx) :
    (Cert.ReferenceIdeal.dot_S64x128_S128x16_S64x16_1_0_0_1_n_n.lhsIdx i q 0).val = (i 0).val := by
  unfold DotDims.lhsIdx
  rw [dif_neg (show ¬(0 : Fin Cert.ReferenceIdeal.S64x128.rank) ∈ Cert.ReferenceIdeal.dot_S64x128_S128x16_S64x16_1_0_0_1_n_n.lhsBatch by decide),
    dif_pos (show (0 : Fin Cert.ReferenceIdeal.S64x128.rank) ∈ Cert.ReferenceIdeal.dot_S64x128_S128x16_S64x16_1_0_0_1_n_n.lhsNonContracting by decide)]
  rfl

theorem lhs_head_1 (i : Cert.ReferenceIdeal.S64x16.Idx) (q : Cert.ReferenceIdeal.dot_S64x128_S128x16_S64x16_1_0_0_1_n_n.contr.Idx) :
    (Cert.ReferenceIdeal.dot_S64x128_S128x16_S64x16_1_0_0_1_n_n.lhsIdx i q 1).val = (q ⟨0, by decide⟩).val :=
  Cert.ReferenceIdeal.dot_S64x128_S128x16_S64x16_1_0_0_1_n_n.lhsIdx_val_of_single rfl i q

theorem rhs_head_0 (i : Cert.ReferenceIdeal.S64x16.Idx) (q : Cert.ReferenceIdeal.dot_S64x128_S128x16_S64x16_1_0_0_1_n_n.contr.Idx) :
    (Cert.ReferenceIdeal.dot_S64x128_S128x16_S64x16_1_0_0_1_n_n.rhsIdx i q 0).val = (q ⟨0, by decide⟩).val :=
  Cert.ReferenceIdeal.dot_S64x128_S128x16_S64x16_1_0_0_1_n_n.rhsIdx_val_of_single rfl i q

theorem rhs_head_1 (i : Cert.ReferenceIdeal.S64x16.Idx) (q : Cert.ReferenceIdeal.dot_S64x128_S128x16_S64x16_1_0_0_1_n_n.contr.Idx) :
    (Cert.ReferenceIdeal.dot_S64x128_S128x16_S64x16_1_0_0_1_n_n.rhsIdx i q 1).val = (i 1).val := by
  unfold DotDims.rhsIdx
  rw [dif_neg (show ¬(1 : Fin Cert.ReferenceIdeal.S128x16.rank) ∈ Cert.ReferenceIdeal.dot_S64x128_S128x16_S64x16_1_0_0_1_n_n.rhsBatch by decide),
    dif_pos (show (1 : Fin Cert.ReferenceIdeal.S128x16.rank) ∈ Cert.ReferenceIdeal.dot_S64x128_S128x16_S64x16_1_0_0_1_n_n.rhsNonContracting by decide)]
  rfl

/-- The head at (g, o): Σ_d p[g, d] · Wfc[o, d] + bfc[o]. -/
theorem head_apply (p : KF (F := Ideal) Cert.KernelIdeal.S64x128) (Wfc : KF (F := Ideal) Cert.KernelIdeal.S16x128)
    (bfc : KF (F := Ideal) Cert.KernelIdeal.S16) (g : Fin 64) (o : Fin 16) :
    Cert.Spec.head (F := Ideal) p Wfc bfc (ix2 g o) = (∑ d : Fin 128, p (ix2 g d) * Wfc (ix2 o d)) + bfc (ix1 o) := by
  unfold Cert.Spec.head
  rw [addf_apply, ofRow_apply, row1_apply]
  congr 1
  simp only [Host.dotGeneral]
  rw [Ideal.dotGeneral_apply, ← Equiv.sum_comp (contrEquiv1 Cert.ReferenceIdeal.dot_S64x128_S128x16_S64x16_1_0_0_1_n_n 128 rfl rfl).symm]
  refine Finset.sum_congr rfl fun k _ => ?_
  have hk := contrEquiv1_symm_val Cert.ReferenceIdeal.dot_S64x128_S128x16_S64x16_1_0_0_1_n_n 128 rfl rfl k
  have el : Cert.ReferenceIdeal.dot_S64x128_S128x16_S64x16_1_0_0_1_n_n.lhsIdx (ix2 g o) ((contrEquiv1 Cert.ReferenceIdeal.dot_S64x128_S128x16_S64x16_1_0_0_1_n_n 128 rfl rfl).symm k) = ix2 g k := funext fun a => Fin.ext (by
    match a with
    | ⟨0, _⟩ => exact lhs_head_0 _ _
    | ⟨1, _⟩ => exact (lhs_head_1 _ _).trans hk)
  have er : Cert.ReferenceIdeal.dot_S64x128_S128x16_S64x16_1_0_0_1_n_n.rhsIdx (ix2 g o) ((contrEquiv1 Cert.ReferenceIdeal.dot_S64x128_S128x16_S64x16_1_0_0_1_n_n 128 rfl rfl).symm k) = ix2 k o := funext fun a => Fin.ext (by
    match a with
    | ⟨0, _⟩ => exact (rhs_head_0 _ _).trans hk
    | ⟨1, _⟩ => exact rhs_head_1 _ _)
  rw [el, er, transpose_ix2_apply]

/-- The mean row at (g, d): the row sum over the count, the divisor at least one. -/
theorem pooled_apply (batch : KI (F := Ideal) Cert.KernelIdeal.S100000) (h : KF (F := Ideal) Cert.KernelIdeal.S100000x128)
    (g : Fin 64) (d : Fin 128) :
    Cert.Spec.pooled (F := Ideal) h batch (ix2 g d)
      = Ideal.div (Cert.Spec.segSum (F := Ideal) h batch (ix2 g d)) (max (Cert.Spec.segCount (F := Ideal) batch (ix1 g)) 1) := by
  unfold Cert.Spec.pooled
  rw [hostDivf_apply, ofCol_apply, col1_apply, maximumf_apply]
  show Ideal.div _ (max _ (Ideal.ofBits .f32 0x3F800000#32)) = _
  rw [Ideal.ofBits_one_f32]

/-- THE POOLING: with no negative label, the kernel's pooled head of its indicator and counts is the specification's
    pooled head of the labels. -/
theorem poolK_eq (batch : KI (F := Ideal) Cert.KernelIdeal.S100000) (hb : ∀ n : Fin 100000, 0 ≤ (batch (ix1 n)).toInt)
    (h : KF (F := Ideal) Cert.KernelIdeal.S100000x128) (Wfc : KF (F := Ideal) Cert.KernelIdeal.S16x128) (bfc : KF (F := Ideal) Cert.KernelIdeal.S16) :
    Cert.PoolSpec.poolK (onehotOf (F := Ideal) batch) h (countsOf (F := Ideal) batch) (wfcTOf (F := Ideal) Wfc) (bfcRowOf (F := Ideal) bfc)
      = Cert.Spec.head (F := Ideal) (Cert.Spec.pooled (F := Ideal) h batch) Wfc bfc := by
  funext i
  obtain ⟨g, o, rfl⟩ : ∃ (g : Fin 64) (o : Fin 16), i = ix2 g o := ⟨i 0, i 1, eq_ix2 i⟩
  -- the kernel's transposed matrix and bias row read the specification's matrix and bias
  have hW : ∀ d : Fin 128, wfcTOf (F := Ideal) Wfc (ix2 d o) = Wfc (ix2 o d) := fun d => by
    unfold wfcTOf
    exact transpose_ix2_apply _ _ _ _
  have hB : bfcRowOf (F := Ideal) bfc (ix2 (0 : Fin 1) o) = bfc (ix1 o) := by
    unfold bfcRowOf
    exact shapeCast_a_1a_apply _ _ _ _
  rw [head_apply]
  unfold Cert.PoolSpec.poolK
  show (∑ d : Fin 128, Ideal.div (Cert.PoolSpec.ohSum (onehotOf (F := Ideal) batch) h g d)
        (max (countsOf (F := Ideal) batch (ix2 g (0 : Fin 1))) ((1 : ℝ) : EReal)) * wfcTOf (F := Ideal) Wfc (ix2 d o))
      + bfcRowOf (F := Ideal) bfc (ix2 (0 : Fin 1) o) = _
  rw [hB]
  -- feature by feature: equal sums over equal counts, times the same matrix entry
  refine congrArg (· + bfc (ix1 o)) (Finset.sum_congr rfl fun d _ => ?_)
  rw [pooled_apply, ohSum_eq, segSum_apply, countsOf_apply batch hb, segCount_apply, EReal.coe_one, hW]

end Cert.PoolMath

end
-- ==== Proof.KI.Whole.lean ====
/-
  What the three calls leave, over the extended reals, as the specification's functions of the launch contents of the
  arguments: the first call's array is the first layer's node features, the second call's the second layer's, and the
  result buffer is the whole network — the last under the one hypothesis the counts need, that no node's label is
  negative.  Each step: the call's array is the specification's piece of the arrays the call reads; those arrays are
  what the host lines before the call computed, the same operations as the specification's.
-/
import proofs.«407611_j90099823935523_1_alg».proof.Proof.KI.Chain
import proofs.«407611_j90099823935523_1_alg».proof.Proof.KI.ConvValue0
import proofs.«407611_j90099823935523_1_alg».proof.Proof.KI.ConvValue1
import proofs.«407611_j90099823935523_1_alg».proof.Proof.KI.PoolValue
import proofs.«407611_j90099823935523_1_alg».proof.Proof.KI.HostValues
import proofs.«407611_j90099823935523_1_alg».proof.Proof.PoolMath

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The first call leaves the first layer's node features. -/
theorem o2_eq (c : Dev nD) :
    o2 (F := Ideal) m c
      = Cert.Spec.hidden1 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  unfold o2
  rw [conv0_arr]
  dsimp only [rd]
  rw [V1_arg0, V1_v19, V1_v4, V1_v5, V1_v8, aggK_eq, wT_eq, wT_eq, rowOf_eq]
  exact (Cert.Spec.layer_eq_layerT _ _ _ _ _).symm

/-- The second call leaves the second layer's node features. -/
theorem o4_eq (c : Dev nD) :
    o4 (F := Ideal) m c
      = Cert.Spec.hidden2 (F := Ideal) (m ((c : Thread nD τ).loc main_arg0)) (m ((c : Thread nD τ).loc main_arg1)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  unfold o4
  rw [conv1_arr]
  dsimp only [rd]
  rw [V3_v20, V3_v30, V3_v6, V3_v7, V3_v9, outsA_v20, o2_eq, aggK_eq, wT_eq, wT_eq, rowOf_eq]
  unfold Cert.Spec.hidden2
  exact (Cert.Spec.layer_eq_layerT _ _ _ _ _).symm

/-- THE RESULT: with no negative label the pooling call leaves the whole network's output. -/
theorem o8_eq (c : Dev nD) (hb : ∀ n : Fin 100000, 0 ≤ ((m ((c : Thread nD τ).loc main_arg2)) (ix1 n)).toInt) :
    o8 (F := Ideal) m c
      = Cert.Spec.G (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) (m ((c : Thread nD τ).loc main_arg10)) := by
  unfold o8
  rw [pool_arr]
  dsimp only [rd]
  rw [V7_v38, V7_v31, V7_v50, V7_v51, V7_v52, outsB_v31, o4_eq]
  rw [Cert.PoolMath.poolK_eq (m ((c : Thread nD τ).loc main_arg2)) hb _ (m ((c : Thread nD τ).loc main_arg9)) (m ((c : Thread nD τ).loc main_arg10))]
  unfold Cert.Spec.G
  rfl

end Cert.KernelIdeal.Hand

end
-- ==== Proof.RefSide.lean ====
/-
  The reference's side of the equivalence.  Its run ends with the result array at the composed term of its host
  operations applied to the launch contents of the arguments; that term is the specification's function `Spec.G`
  of those eleven arrays, piece by piece the same operations.
-/
import proofs.«407611_j90099823935523_1_alg».proof.Proof.Gen.ReferenceIdeal.Run
import proofs.«407611_j90099823935523_1_alg».proof.Proof.Spec

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The specification at the launch contents of the reference's eleven argument arrays on core `c`. -/
def specAt (m : (ℓ : Loc nD τ sig) → Buf (Elt F) ℓ) (c : Dev nD) : Buf (Elt F) ((c.tc : Thread nD τ).loc main_v58) :=
  Cert.Spec.G (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

set_option maxRecDepth 8192 in
/-- The reference's result term is the specification of the arguments: the same operations, named. -/
theorem result_eq (m : (ℓ : Loc nD τ sig) → Buf (Elt F) ℓ) (c : Dev nD) :
    Cert.ReferenceIdeal.Value.res_main_v58 (F := F) m c = specAt m c := by
  unfold Cert.ReferenceIdeal.Value.res_main_v58 specAt Cert.Spec.G Cert.Spec.head Cert.Spec.pooled Cert.Spec.segSum Cert.Spec.segCount
    Cert.Spec.hidden2 Cert.Spec.hidden1 Cert.Spec.layer Cert.Spec.agg Cert.Spec.srcIdx Cert.Spec.srcOf Cert.Spec.dstOf
  rfl

end Cert.ReferenceIdeal.RefSide

end
-- ==== Proof.lean ====
/-
  A graph network — two convolution layers over an edge list, the mean of the node features per graph label, a linear
  head — as a kernel program of three tiled calls among host operations, against its plain reference.

  The frames.  The kernel program, word-level and idealized, runs as a chain of segments: host operations, the first
  convolution call, host operations, the second call, host operations, the pooling call; each call stages blocks of its
  arrays over a grid of 20 points, the pooling call carrying its running sum in a scratch buffer from point to point and
  writing its one result block back after the last.  Every segment terminates, nothing faults, and no segment writes an
  argument array.  The reference is host operations only: its run reads back as the composed term of its operations.

  The equivalence over the extended reals.  Both programs compute the specification `Spec.G` of the eleven arguments.
  The reference's composed term IS that function.  On the kernel's side each convolution call leaves, entry by entry,
  max (x·Wrootᵀ + a·Wrelᵀ + b) 0 — the reference's max (a·Wrelᵀ + b + x·Wrootᵀ) 0 with the sum's terms in another
  order —, of the same aggregated features a, which both programs compute by the same host operations; and the pooling
  call leaves Σ_d ((Σ_n [batch n = g]·h[n, d]) / max count_g 1)·Wfcᵀ[d, o] + bfc[o], where the reference adds each row
  to the row of its label: the same sums, a product with zero or one being zero or the factor on every extended real.
  Only the COUNTS need a hypothesis: the kernel replaces a negative label by zero before counting, so it would count a
  node of negative label under label 0 where the reference drops it; the precondition's last conjunct, no label
  negative, makes the two counts one.  No step uses that the float inputs are finite.

  `preserves` is trivial: the idealization rewrote no operation.
-/
import proofs.«407611_j90099823935523_1_alg».proof.Defs
import proofs.«407611_j90099823935523_1_alg».proof.Proof.Gen.Kernel
import proofs.«407611_j90099823935523_1_alg».proof.Proof.Gen.KernelIdeal
import proofs.«407611_j90099823935523_1_alg».proof.Proof.Gen.ReferenceIdeal
import proofs.«407611_j90099823935523_1_alg».proof.Proof.Gen.Pre_finite_inputs
import proofs.«407611_j90099823935523_1_alg».proof.Proof.K.Run
import proofs.«407611_j90099823935523_1_alg».proof.Proof.KI.Run
import proofs.«407611_j90099823935523_1_alg».proof.Proof.KI.Whole
import proofs.«407611_j90099823935523_1_alg».proof.Proof.RefSide
import proofs.«407611_j90099823935523_1_alg».proof.Proof.PoolMath
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals, from memories agreeing on the arguments, both programs end with the result buffer at the
    specification of the arguments: the kernel's by what its three calls leave (no label being negative), the
    reference's by its composed term. -/
theorem algebraic : Cert.algebraic_KernelIdeal_ReferenceIdeal := by
  intro m ρ m' ρ' hpre hagree
  refine ⟨Cert.KernelIdeal.Hand.o8 (F := Ideal) m, Cert.KernelIdeal.Hand.run_main m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v58 (F := Ideal) m' c = Cert.KernelIdeal.Hand.o8 (F := Ideal) m c
  rw [Cert.ReferenceIdeal.RefSide.result_eq, Cert.KernelIdeal.Hand.o8_eq m c (fun n => Cert.PoolMath.batch_nonneg m hpre c n)]
  unfold Cert.ReferenceIdeal.RefSide.specAt
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
